-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x16 : Shape := ⟨2, ![32768, 16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x256 : Shape := ⟨2, ![128, 256]⟩
abbrev S256 : Shape := ⟨1, ![256]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S32768x16 : S_.BroadcastsInDim S32768x16 (![] : Fin 0 → Fin S32768x16.rank)
  reducesTo_S32768x16_S_d0_1 : S32768x16.ReducesTo [0, 1] S_

variable [Facts]

def fn_part4 {F : FTy → Type} [FloatOps F] (main_arg1 : IVec S32768x16 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 4294934528#32
  let main_v74 : IVec S32768x16 32 := broadcastInDim S32768x16 ![] bcast_S_S32768x16 main_c_28
  let main_v75 : IVec S32768x16 1 := cmpi .sge main_arg1 main_v74
  let main_c_29 : IVec S_ 32 := constantI S_ 32 32768#32
  let main_v76 : IVec S32768x16 32 := broadcastInDim S32768x16 ![] bcast_S_S32768x16 main_c_29
  let main_v77 : IVec S32768x16 1 := cmpi .slt main_arg1 main_v76
  let main_v78 : IVec S32768x16 1 := andi main_v75 main_v77
  let main_c_30 : IVec S_ 1 := constantI S_ 1 1#1
  let main_v79 : IVec S_ 1 := (fun x v => Host.reduce IntOp.andi x v reducesTo_S32768x16_S_d0_1 h_S_) main_v78 main_c_30
  let main_v80 : IVec S_ 1 := andi main_v73 main_v79
  main_v80

def fn_part3 {F : FTy → Type} [FloatOps F] (main_arg1 : IVec S32768x16 32) (main_arg12 : FVec F S256x128 .f32) (main_arg13 : FVec F S128 .f32) (main_arg14 : FVec F S128 .f32) (main_arg15 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_v63 main_v67

def fn_part2 {F : FTy → Type} [FloatOps F] (main_arg1 : IVec S32768x16 32) (main_arg8 : FVec F S128 .f32) (main_arg9 : FVec F S128 .f32) (main_arg10 : FVec F S128x256 .f32) (main_arg11 : FVec F S256 .f32) (main_arg12 : FVec F S256x128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_v48 main_v49 main_v50

def fn_part1 {F : FTy → Type} [FloatOps F] (main_arg1 : IVec S32768x16 32) (main_arg5 : FVec F S1 .f32) (main_arg6 : FVec F S256x128 .f32) (main_arg7 : FVec F S128 .f32) (main_arg8 : FVec F S128 .f32) (main_arg9 : FVec F S128 .f32) (main_arg10 : FVec F S128x256 .f32) (main_arg11 : FVec F S256 .f32) (main_arg12 : FVec F S256x128 .f32) (main_arg13 : FVec F S128 .f32) (main_arg14 : FVec F S128 .f32) (main_arg15 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S32768x128 .f32) (main_arg1 : IVec S32768x16 32) (main_arg2 : FVec F S128x128 .f32) (main_arg3 : FVec F S128 .f32) (main_arg4 : FVec F S128x1 .f32) (main_arg5 : FVec F S1 .f32) (main_arg6 : FVec F S256x128 .f32) (main_arg7 : FVec F S128 .f32) (main_arg8 : FVec F S128 .f32) (main_arg9 : FVec F S128 .f32) (main_arg10 : FVec F S128x256 .f32) (main_arg11 : FVec F S256 .f32) (main_arg12 : FVec F S256x128 .f32) (main_arg13 : FVec F S128 .f32) (main_arg14 : FVec F S128 .f32) (main_arg15 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S32768x128 : Shape := ⟨2, ![32768, 128]⟩
abbrev S32768x16 : Shape := ⟨2, ![32768, 16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x256 : Shape := ⟨2, ![128, 256]⟩
abbrev S256 : Shape := ⟨1, ![256]⟩
abbrev S4096x128 : Shape := ⟨2, ![4096, 128]⟩
abbrev S_ : Shape := ⟨0, ![]⟩
abbrev S32768x16x1 : Shape := ⟨3, ![32768, 16, 1]⟩
abbrev S1x1x1 : Shape := ⟨3, ![1, 1, 1]⟩
abbrev S32768x16x128 : Shape := ⟨3, ![32768, 16, 128]⟩
abbrev S1x128 : Shape := ⟨2, ![1, 128]⟩
abbrev S1x1 : Shape := ⟨2, ![1, 1]⟩
abbrev S2x1x128 : Shape := ⟨3, ![2, 1, 128]⟩
abbrev S1024x128 : Shape := ⟨2, ![1024, 128]⟩
abbrev S1024x16x128 : Shape := ⟨3, ![1024, 16, 128]⟩
abbrev S1x1x128 : Shape := ⟨3, ![1, 1, 128]⟩
abbrev S1024x1x128 : Shape := ⟨3, ![1024, 1, 128]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S4096x256 : Shape := ⟨2, ![4096, 256]⟩

abbrev nBuf : Space → Nat
  | .hbm => 87
  | .vmem => 46
  | .smem => 0
  | _ => 0

abbrev bufTy : (tb : Table) → Fin (tcTables nBuf tb) → BufTy
  | .hbm, ⟨0, _⟩ => ⟨S32768x128, .f32⟩
  | .hbm, ⟨1, _⟩ => ⟨S32768x16, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S32768x128, .f32⟩
  | .hbm, ⟨17, _⟩ => ⟨S_, .i32⟩
  | .hbm, ⟨18, _⟩ => ⟨S32768x16, .i32⟩
  | .hbm, ⟨19, _⟩ => ⟨S32768x16, .i1⟩
  | .hbm, ⟨20, _⟩ => ⟨S_, .i32⟩
  | .hbm, ⟨21, _⟩ => ⟨S32768x16, .i32⟩
  | .hbm, ⟨22, _⟩ => ⟨S32768x16, .i32⟩
  | .hbm, ⟨23, _⟩ => ⟨S32768x16, .i32⟩
  | .hbm, ⟨24, _⟩ => ⟨S32768x16x1, .i32⟩
  | .hbm, ⟨25, _⟩ => ⟨S1, .i32⟩
  | .hbm, ⟨26, _⟩ => ⟨S_, .i32⟩
  | .hbm, ⟨27, _⟩ => ⟨S32768x16x1, .i32⟩
  | .hbm, ⟨28, _⟩ => ⟨S32768x16x1, .i1⟩
  | .hbm, ⟨29, _⟩ => ⟨S1x1x1, .i32⟩
  | .hbm, ⟨30, _⟩ => ⟨S32768x16x1, .i32⟩
  | .hbm, ⟨31, _⟩ => ⟨S32768x16x1, .i1⟩
  | .hbm, ⟨32, _⟩ => ⟨S32768x16x1, .i1⟩
  | .hbm, ⟨33, _⟩ => ⟨S_, .i1⟩
  | .hbm, ⟨34, _⟩ => ⟨S32768x16, .i1⟩
  | .hbm, ⟨35, _⟩ => ⟨S32768x16x128, .f32⟩
  | .hbm, ⟨36, _⟩ => ⟨S32768x16x128, .i1⟩
  | .hbm, ⟨37, _⟩ => ⟨S_, .f32⟩
  | .hbm, ⟨38, _⟩ => ⟨S32768x16x128, .f32⟩
  | .hbm, ⟨39, _⟩ => ⟨S32768x16x128, .f32⟩
  | .hbm, ⟨40, _⟩ => ⟨S1x128, .f32⟩
  | .hbm, ⟨41, _⟩ => ⟨S1x128, .f32⟩
  | .hbm, ⟨42, _⟩ => ⟨S1x1, .f32⟩
  | .hbm, ⟨43, _⟩ => ⟨S1x128, .f32⟩
  | .hbm, ⟨44, _⟩ => ⟨S32768x128, .f32⟩
  | .hbm, ⟨45, _⟩ => ⟨S2x1x128, .f32⟩
  | .hbm, ⟨46, _⟩ => ⟨S2x1x128, .f32⟩
  | .hbm, ⟨47, _⟩ => ⟨S_, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x256, .f32⟩
  | .hbm, ⟨65, _⟩ => ⟨S1x128, .f32⟩
  | .hbm, ⟨66, _⟩ => ⟨S32768x128, .f32⟩
  | .hbm, ⟨67, _⟩ => ⟨S2x1x128, .f32⟩
  | .hbm, ⟨68, _⟩ => ⟨S2x1x128, .f32⟩
  | .hbm, ⟨69, _⟩ => ⟨S_, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S32768x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x16x128, .f32⟩
  | .local _ .vmem, ⟨10, _⟩ => ⟨S1024x16x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S256x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S4096x128, .f32⟩
  | .local _ .vmem, ⟨23, _⟩ => ⟨S4096x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x256, .f32⟩
  | .local _ .vmem, ⟨29, _⟩ => ⟨S1x256, .f32⟩
  | .local _ .vmem, ⟨30, _⟩ => ⟨S256x128, .f32⟩
  | .local _ .vmem, ⟨31, _⟩ => ⟨S1x128, .f32⟩
  | .local _ .vmem, ⟨32, _⟩ => ⟨S4096x128, .f32⟩
  | .local _ .vmem, ⟨33, _⟩ => ⟨S4096x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S4096x128, .f32⟩
  | .local _ .vmem, ⟨39, _⟩ => ⟨S4096x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S4096x128, .f32⟩
  | .local _ .vmem, ⟨45, _⟩ => ⟨S4096x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6_0 : Ref sig .tc := ⟨.hbm, 44, rfl⟩
abbrev main_v6_1 : Ref sig .tc := ⟨.hbm, 45, rfl⟩
abbrev main_v6_2 : Ref sig .tc := ⟨.hbm, 46, rfl⟩
abbrev main_cst : Ref sig .tc := ⟨.hbm, 47, rfl⟩
abbrev main_v7 : Ref sig .tc := ⟨.hbm, 48, rfl⟩
abbrev main_cst_0 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21_0 : Ref sig .tc := ⟨.hbm, 66, rfl⟩
abbrev main_v21_1 : Ref sig .tc := ⟨.hbm, 67, rfl⟩
abbrev main_v21_2 : Ref sig .tc := ⟨.hbm, 68, rfl⟩
abbrev main_cst_4 : Ref sig .tc := ⟨.hbm, 69, rfl⟩
abbrev main_v22 : Ref sig .tc := ⟨.hbm, 70, rfl⟩
abbrev main_cst_5 : Ref sig .tc := ⟨.hbm, 71, rfl⟩
abbrev main_v23 : Ref sig .tc := ⟨.hbm, 72, rfl⟩
abbrev main_v24 : Ref sig .tc := ⟨.hbm, 73, rfl⟩
abbrev main_cst_6 : Ref sig .tc := ⟨.hbm, 74, rfl⟩
abbrev main_v25 : Ref sig .tc := ⟨.hbm, 75, rfl⟩
abbrev main_cst_7 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_8 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc2_stg10_0 : Ref sig .tc := ⟨.vmem, 34, rfl⟩
abbrev cc2_stg10_1 : Ref sig .tc := ⟨.vmem, 35, rfl⟩
abbrev cc2_stg11_0 : Ref sig .tc := ⟨.vmem, 36, rfl⟩
abbrev cc2_stg11_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc2_sem10_0 : DmaSem sig := 34
abbrev cc2_sem10_1 : DmaSem sig := 35
abbrev cc2_sem11_0 : DmaSem sig := 36
abbrev cc2_sem11_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S4096x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x1x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S1x1x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S_S32768x16x1 : S_.BroadcastsInDim S32768x16x1 (![] : Fin 0 → Fin S32768x16x1.rank)
  bcast_S1_S1x1x1_2 : S1.BroadcastsInDim S1x1x1 (![2] : Fin 1 → Fin S1x1x1.rank)
  bcast_S1x1x1_S32768x16x1_0_1_2 : S1x1x1.BroadcastsInDim S32768x16x1 (![0, 1, 2] : Fin 3 → Fin S32768x16x1.rank)
  reducesTo_S32768x16x1_S32768x16_d2 : S32768x16x1.ReducesTo [2] S32768x16
  h_S_ : 0 < S_.numel
  bcast_S32768x16_S32768x16x128_0_1 : S32768x16.BroadcastsInDim S32768x16x128 (![0, 1] : Fin 2 → Fin S32768x16x128.rank)
  bcast_S_S32768x16x128 : S_.BroadcastsInDim S32768x16x128 (![] : Fin 0 → Fin S32768x16x128.rank)
  shapeCasts_S128_S1x128 : S128.ShapeCasts S1x128
  shapeCasts_S128x1_S1x128 : S128x1.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x16x128_S1024x1x128_0_0_0 : ∀ a, (![0, 0, 0] : Fin 3 → Nat) a + S1024x1x128.size a ≤ S1024x16x128.size a
  h_S1024x1x128 : 0 < S1024x1x128.numel
  shapeCasts_S1024x1x128_S1024x128 : S1024x1x128.ShapeCasts S1024x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x16x128_S1024x1x128_0_1_0 : ∀ a, (![0, 1, 0] : Fin 3 → Nat) a + S1024x1x128.size a ≤ S1024x16x128.size a
  inb_S1024x16x128_S1024x1x128_0_2_0 : ∀ a, (![0, 2, 0] : Fin 3 → Nat) a + S1024x1x128.size a ≤ S1024x16x128.size a
  inb_S1024x16x128_S1024x1x128_0_3_0 : ∀ a, (![0, 3, 0] : Fin 3 → Nat) a + S1024x1x128.size a ≤ S1024x16x128.size a
  inb_S1024x16x128_S1024x1x128_0_4_0 : ∀ a, (![0, 4, 0] : Fin 3 → Nat) a + S1024x1x128.size a ≤ S1024x16x128.size a
  inb_S1024x16x128_S1024x1x128_0_5_0 : ∀ a, (![0, 5, 0] : Fin 3 → Nat) a + S1024x1x128.size a ≤ S1024x16x128.size a
  inb_S1024x16x128_S1024x1x128_0_6_0 : ∀ a, (![0, 6, 0] : Fin 3 → Nat) a + S1024x1x128.size a ≤ S1024x16x128.size a
  inb_S1024x16x128_S1024x1x128_0_7_0 : ∀ a, (![0, 7, 0] : Fin 3 → Nat) a + S1024x1x128.size a ≤ S1024x16x128.size a
  inb_S1024x16x128_S1024x1x128_0_8_0 : ∀ a, (![0, 8, 0] : Fin 3 → Nat) a + S1024x1x128.size a ≤ S1024x16x128.size a
  inb_S1024x16x128_S1024x1x128_0_9_0 : ∀ a, (![0, 9, 0] : Fin 3 → Nat) a + S1024x1x128.size a ≤ S1024x16x128.size a
  inb_S1024x16x128_S1024x1x128_0_10_0 : ∀ a, (![0, 10, 0] : Fin 3 → Nat) a + S1024x1x128.size a ≤ S1024x16x128.size a
  inb_S1024x16x128_S1024x1x128_0_11_0 : ∀ a, (![0, 11, 0] : Fin 3 → Nat) a + S1024x1x128.size a ≤ S1024x16x128.size a
  inb_S1024x16x128_S1024x1x128_0_12_0 : ∀ a, (![0, 12, 0] : Fin 3 → Nat) a + S1024x1x128.size a ≤ S1024x16x128.size a
  inb_S1024x16x128_S1024x1x128_0_13_0 : ∀ a, (![0, 13, 0] : Fin 3 → Nat) a + S1024x1x128.size a ≤ S1024x16x128.size a
  inb_S1024x16x128_S1024x1x128_0_14_0 : ∀ a, (![0, 14, 0] : Fin 3 → Nat) a + S1024x1x128.size a ≤ S1024x16x128.size a
  inb_S1024x16x128_S1024x1x128_0_15_0 : ∀ a, (![0, 15, 0] : Fin 3 → Nat) a + S1024x1x128.size a ≤ S1024x16x128.size a
  concatenates_S1024x128_S1024x128_S1024x256_d1 : Shape.Concatenates [S1024x128, S1024x128] S1024x256 1
  inb_S256x128_S256x128_0_0 : ∀ a, (![0, 0] : Fin 2 → Nat) a + S256x128.size a ≤ S256x128.size a
  h_S256x128 : 0 < S256x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S1024x128_S128 : S1024x128.Reduces [0] S128
  shapeCasts_S1x128_S1x1x128 : S1x128.ShapeCasts S1x1x128
  reducesTo_S2x1x128_S1x128_d0 : S2x1x128.ReducesTo [0] S1x128
  bcast_S_S1x128 : S_.BroadcastsInDim S1x128 (![] : Fin 0 → Fin S1x128.rank)
  shapeCasts_S256_S1x256 : S256.ShapeCasts S1x256
  shapeCasts_S4096x128_S4096x128 : S4096x128.ShapeCasts S4096x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x128_S128 : S4096x128.Reduces [0] S128
  dot_S4096x128_S128x128_S4096x128_1_0_0_1_n_n_wf : DotDims.WF S4096x128 S128x128 S4096x128 [1] [0] [0] [1] [] []
  gather_S32768x128_S32768x16x1_S32768x16x128_2_0_n_n_0_2_1128_wf : GatherDims.WF S32768x128 S32768x16x1 S32768x16x128 [2] [0] [] [0] [] 2 ![1, 128]
  dot_S1024x256_S256x128_S1024x128_1_0_0_1_n_n_wf : DotDims.WF S1024x256 S256x128 S1024x128 [1] [0] [0] [1] [] []
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S32768x128.size a
  hwx1_0 : ∀ i : grid1.Coords, EltTy.bits .f32 = 32 ∨ (Rect.block (s := S32768x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S32768x128.size a
  hwx1_1 : ∀ i : grid1.Coords, EltTy.bits .f32 = 32 ∨ (Rect.block (s := S32768x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16x128.size a ≤ S32768x16x128.size a
  hwx1_2 : ∀ i : grid1.Coords, EltTy.bits .f32 = 32 ∨ (Rect.block (s := S32768x16x128) S1024x16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S32768x128.size a
  hwx1_8 : ∀ i : grid1.Coords, EltTy.bits .f32 = 32 ∨ (Rect.block (s := S32768x128) S1024x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S2x1x128.size a
  hwx1_9 : ∀ i : grid1.Coords, EltTy.bits .f32 = 32 ∨ (Rect.block (s := S2x1x128) S1x1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S2x1x128.size a
  hwx1_10 : ∀ i : grid1.Coords, EltTy.bits .f32 = 32 ∨ (Rect.block (s := S2x1x128) S1x1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4096x128.size a ≤ S32768x128.size a
  hwx2_9 : ∀ i : grid2.Coords, EltTy.bits .f32 = 32 ∨ (Rect.block (s := S32768x128) S4096x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x1x128.size a ≤ S2x1x128.size a
  hwx2_10 : ∀ i : grid2.Coords, EltTy.bits .f32 = 32 ∨ (Rect.block (s := S2x1x128) S1x1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1x1x128.size a ≤ S2x1x128.size a
  hwx2_11 : ∀ i : grid2.Coords, EltTy.bits .f32 = 32 ∨ (Rect.block (s := S2x1x128) S1x1x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S32768x128.size a
  hwx3_0 : ∀ i : grid3.Coords, EltTy.bits .f32 = 32 ∨ (Rect.block (s := S32768x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S32768x128.size a
  hwx3_5 : ∀ i : grid3.Coords, EltTy.bits .f32 = 32 ∨ (Rect.block (s := S32768x128) S4096x128.size (cc3_transform_5 i) (hinb3_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S32768x128_S32768x16x1_S32768x16x128_2_0_n_n_0_2_1128 : GatherDims S32768x128 S32768x16x1 S32768x16x128 where
  offsetDims := [2]
  collapsedSliceDims := [0]
  operandBatchingDims := []
  startIndicesBatchingDims := []
  startIndexMap := [0]
  indexVectorDim := 2
  sliceSizes := ![1, 128]
  wf := gather_S32768x128_S32768x16x1_S32768x16x128_2_0_n_n_0_2_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6_0) S1024x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6_1) S1x1x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v6_2) S1x1x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v6_0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v20) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v21_0) S4096x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v21_1) S1x1x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v21_2) S1x1x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v21_0) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S32768x128 : Shape := ⟨2, ![32768, 128]⟩
abbrev S32768x16 : Shape := ⟨2, ![32768, 16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S128x256 : Shape := ⟨2, ![128, 256]⟩
abbrev S256 : Shape := ⟨1, ![256]⟩
abbrev S_ : Shape := ⟨0, ![]⟩
abbrev S32768x16x1 : Shape := ⟨3, ![32768, 16, 1]⟩
abbrev S32768x16x128 : Shape := ⟨3, ![32768, 16, 128]⟩
abbrev S32768x1x128 : Shape := ⟨3, ![32768, 1, 128]⟩
abbrev S1x1x128 : Shape := ⟨3, ![1, 1, 128]⟩
abbrev S1x1x1 : Shape := ⟨3, ![1, 1, 1]⟩
abbrev S32768x256 : Shape := ⟨2, ![32768, 256]⟩
abbrev S1x128 : Shape := ⟨2, ![1, 128]⟩
abbrev S1x256 : Shape := ⟨2, ![1, 256]⟩

abbrev nBuf : Space → Nat
  | .hbm => 131
  | .vmem => 0
  | .smem => 0
  | _ => 0

abbrev hbmTy0_0 (i : Nat) : BufTy := match i % 128 with
  | 0 => ⟨S32768x128, .f32⟩
  | 1 => ⟨S32768x16, .i32⟩
  | 2 => ⟨S128x128, .f32⟩
  | 3 => ⟨S128, .f32⟩
  | 4 => ⟨S128x1, .f32⟩
  | 5 => ⟨S1, .f32⟩
  | 6 => ⟨S256x128, .f32⟩
  | 7 => ⟨S128, .f32⟩
  | 8 => ⟨S128, .f32⟩
  | 9 => ⟨S128, .f32⟩
  | 10 => ⟨S128x256, .f32⟩
  | 11 => ⟨S256, .f32⟩
  | 12 => ⟨S256x128, .f32⟩
  | 13 => ⟨S128, .f32⟩
  | 14 => ⟨S128, .f32⟩
  | 15 => ⟨S128, .f32⟩
  | 16 => ⟨S_, .i32⟩
  | 17 => ⟨S32768x16, .i32⟩
  | 18 => ⟨S32768x16, .i1⟩
  | 19 => ⟨S_, .i32⟩
  | 20 => ⟨S32768x16, .i32⟩
  | 21 => ⟨S32768x16, .i32⟩
  | 22 => ⟨S32768x16, .i32⟩
  | 23 => ⟨S32768x16x1, .i32⟩
  | 24 => ⟨S32768x16x128, .f32⟩
  | 25 => ⟨S32768x1x128, .f32⟩
  | 26 => ⟨S32768x16x128, .f32⟩
  | 27 => ⟨S32768x16x128, .f32⟩
  | 28 => ⟨S32768x16x128, .f32⟩
  | 29 => ⟨S1x1x128, .f32⟩
  | 30 => ⟨S32768x16x128, .f32⟩
  | 31 => ⟨S32768x16x128, .f32⟩
  | 32 => ⟨S_, .f32⟩
  | 33 => ⟨S32768x16x128, .f32⟩
  | 34 => ⟨S32768x16x128, .f32⟩
  | 35 => ⟨S32768x16x1, .f32⟩
  | 36 => ⟨S1x1x1, .f32⟩
  | 37 => ⟨S32768x16x1, .f32⟩
  | 38 => ⟨S32768x16x1, .f32⟩
  | 39 => ⟨S_, .f32⟩
  | 40 => ⟨S32768x16x1, .f32⟩
  | 41 => ⟨S32768x16x1, .f32⟩
  | 42 => ⟨S32768x16x1, .f32⟩
  | 43 => ⟨S32768x16x1, .f32⟩
  | 44 => ⟨S32768x1x128, .f32⟩
  | 45 => ⟨S32768x16x128, .f32⟩
  | 46 => ⟨S32768x16x128, .f32⟩
  | 47 => ⟨S32768x16x128, .f32⟩
  | 48 => ⟨S_, .f32⟩
  | 49 => ⟨S32768x128, .f32⟩
  | 50 => ⟨S_, .f32⟩
  | 51 => ⟨S32768x128, .f32⟩
  | 52 => ⟨S32768x128, .f32⟩
  | 53 => ⟨S_, .f32⟩
  | 54 => ⟨S32768x128, .f32⟩
  | 55 => ⟨S32768x256, .f32⟩
  | 56 => ⟨S32768x128, .f32⟩
  | 57 => ⟨S1x128, .f32⟩
  | 58 => ⟨S32768x128, .f32⟩
  | 59 => ⟨S32768x128, .f32⟩
  | 60 => ⟨S32768x128, .f32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S32768x128, .f32⟩
  | 68 => ⟨S32768x128, .f32⟩
  | 69 => ⟨S32768x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S32768x128, .f32⟩
  | 77 => ⟨S32768x128, .f32⟩
  | 78 => ⟨S1x128, .f32⟩
  | 79 => ⟨S32768x128, .f32⟩
  | 80 => ⟨S32768x128, .f32⟩
  | 81 => ⟨S_, .f32⟩
  | 82 => ⟨S1x128, .f32⟩
  | 83 => ⟨S1x128, .f32⟩
  | 84 => ⟨S1x128, .f32⟩
  | 85 => ⟨S32768x128, .f32⟩
  | 86 => ⟨S32768x128, .f32⟩
  | 87 => ⟨S1x128, .f32⟩
  | 88 => ⟨S32768x128, .f32⟩
  | 89 => ⟨S32768x128, .f32⟩
  | 90 => ⟨S32768x256, .f32⟩
  | 91 => ⟨S1x256, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S32768x128, .f32⟩
  | 98 => ⟨S1x128, .f32⟩
  | 99 => ⟨S32768x128, .f32⟩
  | 100 => ⟨S32768x128, .f32⟩
  | 101 => ⟨S32768x128, .f32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S32768x128, .f32⟩
  | 109 => ⟨S32768x128, .f32⟩
  | 110 => ⟨S32768x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S32768x128, .f32⟩
  | 118 => ⟨S32768x128, .f32⟩
  | 119 => ⟨S1x128, .f32⟩
  | 120 => ⟨S32768x128, .f32⟩
  | 121 => ⟨S32768x128, .f32⟩
  | 122 => ⟨S_, .f32⟩
  | 123 => ⟨S1x128, .f32⟩
  | 124 => ⟨S1x128, .f32⟩
  | 125 => ⟨S1x128, .f32⟩
  | 126 => ⟨S32768x128, .f32⟩
  | 127 => ⟨S32768x128, .f32⟩
  | _ => ⟨S32768x128, .f32⟩

abbrev hbmTy0_1 (i : Nat) : BufTy := match i % 128 with
  | 0 => ⟨S1x128, .f32⟩
  | 1 => ⟨S32768x128, .f32⟩
  | 2 => ⟨S32768x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_cst : Ref sig .tc := ⟨.hbm, 39, rfl⟩
abbrev main_call1_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_12 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x128_S32768x1x128_0_2 : S32768x128.BroadcastsInDim S32768x1x128 (![0, 2] : Fin 2 → Fin S32768x1x128.rank)
  bcast_S32768x1x128_S32768x16x128_0_1_2 : S32768x1x128.BroadcastsInDim S32768x16x128 (![0, 1, 2] : Fin 3 → Fin S32768x16x128.rank)
  bcast_S128_S1x1x128_2 : S128.BroadcastsInDim S1x1x128 (![2] : Fin 1 → Fin S1x1x128.rank)
  bcast_S1x1x128_S32768x16x128_0_1_2 : S1x1x128.BroadcastsInDim S32768x16x128 (![0, 1, 2] : Fin 3 → Fin S32768x16x128.rank)
  bcast_S_S32768x16x128 : S_.BroadcastsInDim S32768x16x128 (![] : Fin 0 → Fin S32768x16x128.rank)
  bcast_S1_S1x1x1_2 : S1.BroadcastsInDim S1x1x1 (![2] : Fin 1 → Fin S1x1x1.rank)
  bcast_S1x1x1_S32768x16x1_0_1_2 : S1x1x1.BroadcastsInDim S32768x16x1 (![0, 1, 2] : Fin 3 → Fin S32768x16x1.rank)
  bcast_S_S32768x16x1 : S_.BroadcastsInDim S32768x16x1 (![] : Fin 0 → Fin S32768x16x1.rank)
  bcast_S32768x16x1_S32768x16x128_0_1_2 : S32768x16x1.BroadcastsInDim S32768x16x128 (![0, 1, 2] : Fin 3 → Fin S32768x16x128.rank)
  reducesTo_S32768x16x128_S32768x128_d1 : S32768x16x128.ReducesTo [1] S32768x128
  h_S_ : 0 < S_.numel
  bcast_S_S32768x128 : S_.BroadcastsInDim S32768x128 (![] : Fin 0 → Fin S32768x128.rank)
  concatenates_S32768x128_S32768x128_S32768x256_d1 : Shape.Concatenates [S32768x128, S32768x128] S32768x256 1
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  reducesTo_S32768x128_S128_d0 : S32768x128.ReducesTo [0] S128
  bcast_S_S1x128 : S_.BroadcastsInDim S1x128 (![] : Fin 0 → Fin S1x128.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  gather_S32768x128_S32768x16x1_S32768x16x128_2_0_n_n_0_2_1128_wf : GatherDims.WF S32768x128 S32768x16x1 S32768x16x128 [2] [0] [] [0] [] 2 ![1, 128]
  dot_S32768x16x128_S128x128_S32768x16x128_2_0_01_1_n_n_wf : DotDims.WF S32768x16x128 S128x128 S32768x16x128 [2] [0] [0, 1] [1] [] []
  dot_S32768x16x128_S128x1_S32768x16x1_2_0_01_1_n_n_wf : DotDims.WF S32768x16x128 S128x1 S32768x16x1 [2] [0] [0, 1] [1] [] []
  dot_S32768x256_S256x128_S32768x128_1_0_0_1_n_n_wf : DotDims.WF S32768x256 S256x128 S32768x128 [1] [0] [0] [1] [] []
  dot_S32768x128_S128x256_S32768x256_1_0_0_1_n_n_wf : DotDims.WF S32768x128 S128x256 S32768x256 [1] [0] [0] [1] [] []

variable [Facts₀]

def gather_S32768x128_S32768x16x1_S32768x16x128_2_0_n_n_0_2_1128 : GatherDims S32768x128 S32768x16x1 S32768x16x128 where
  offsetDims := [2]
  collapsedSliceDims := [0]
  operandBatchingDims := []
  startIndicesBatchingDims := []
  startIndexMap := [0]
  indexVectorDim := 2
  sliceSizes := ![1, 128]
  wf := gather_S32768x128_S32768x16x1_S32768x16x128_2_0_n_n_0_2_1128_wf
def dot_S32768x16x128_S128x128_S32768x16x128_2_0_01_1_n_n : DotDims S32768x16x128 S128x128 S32768x16x128 where
  lhsContracting := [2]
  rhsContracting := [0]
  lhsNonContracting := [0, 1]
  rhsNonContracting := [1]
  lhsBatch := []
  rhsBatch := []
  wf := dot_S32768x16x128_S128x128_S32768x16x128_2_0_01_1_n_n_wf
def dot_S32768x16x128_S128x1_S32768x16x1_2_0_01_1_n_n : DotDims S32768x16x128 S128x1 S32768x16x1 where
  lhsContracting := [2]
  rhsContracting := [0]
  lhsNonContracting := [0, 1]
  rhsNonContracting := [1]
  lhsBatch := []
  rhsBatch := []
  wf := dot_S32768x16x128_S128x1_S32768x16x1_2_0_01_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf

class Facts : Prop extends Facts₀ where

variable [Facts]
-- ==== Proof.Math.Spec.lean ====
/-
  The mathematics both programs compute, index by index over the extended reals, with no program in sight.

  A node n (of 32768) has features h n (128 of them) and 16 in-neighbours nb n k. Each edge (n, k) gets an attention
  weight from a two-layer perceptron on the DIFFERENCE of the neighbour's and the node's features; the messages
  att n k · h n are aggregated by their mean and their maximum over k, projected (256 → 128) and added to h; then a
  batch normalisation over the node axis, a two-layer feed-forward block with a residual, and a second batch
  normalisation.

  The two programs differ in three places only, and each stage below comes in the form one side computes:
    * the hidden edge activation: the reference projects the difference, Σ_d (h (nb n k) d − h n d) · W1 d e;
      the kernel projects every node once, p = h · W1, and takes the difference of projections, p (nb n k) e − p n e;
    * the mean over the 16 neighbours: a quotient by 16 against a product with the literal 1/16;
    * the batch statistics: mean and centred second moment as quotients by 32768, scaled by a division by the
      square root — against per-core sums of x and of x², scaled by the literal 2⁻¹⁵, the variance E[x²] − E[x]²
      clipped at 0, and a product with the reciprocal square root.
  Over finite inputs the two forms agree (module Algebra); nothing here uses finiteness.
-/
import Idealize.ShloMosaic.PureOps.Ideal

noncomputable section

namespace EdgeAttn

open Idealize.ShloMosaic

/-- The sixteen arguments, by coordinates: node features, each node's 16 neighbour rows, the edge perceptron
    (W1, b1, W2 as a column, b2 a scalar), the aggregate's projection (OW, Ob), the two normalisations' scale and
    shift, and the feed-forward block. -/
structure In where
  h : Fin 32768 → Fin 128 → EReal
  nb : Fin 32768 → Fin 16 → Fin 32768
  W1 : Fin 128 → Fin 128 → EReal
  b1 : Fin 128 → EReal
  W2 : Fin 128 → EReal
  b2 : EReal
  OW : Fin 256 → Fin 128 → EReal
  Ob : Fin 128 → EReal
  g1 : Fin 128 → EReal
  bt1 : Fin 128 → EReal
  F1W : Fin 128 → Fin 256 → EReal
  F1b : Fin 256 → EReal
  F2W : Fin 256 → Fin 128 → EReal
  F2b : Fin 128 → EReal
  g2 : Fin 128 → EReal
  bt2 : Fin 128 → EReal

/-- An extended real that is a real number. -/
def IsReal (x : EReal) : Prop := ∃ r : ℝ, x = (r : EReal)

/-- Every float argument holds real numbers. -/
structure In.Finite (I : In) : Prop where
  h : ∀ n d, IsReal (I.h n d)
  W1 : ∀ d e, IsReal (I.W1 d e)
  b1 : ∀ e, IsReal (I.b1 e)
  W2 : ∀ e, IsReal (I.W2 e)
  b2 : IsReal I.b2
  OW : ∀ j e, IsReal (I.OW j e)
  Ob : ∀ e, IsReal (I.Ob e)
  g1 : ∀ e, IsReal (I.g1 e)
  bt1 : ∀ e, IsReal (I.bt1 e)
  F1W : ∀ d j, IsReal (I.F1W d j)
  F1b : ∀ j, IsReal (I.F1b j)
  F2W : ∀ j e, IsReal (I.F2W j e)
  F2b : ∀ e, IsReal (I.F2b e)
  g2 : ∀ e, IsReal (I.g2 e)
  bt2 : ∀ e, IsReal (I.bt2 e)

/-! ## The literals the programs carry, as their f32 words -/

/-- 1/16, the kernel's factor for the mean over the neighbours. -/
def w_inv16 : EReal := Ideal.ofBits .f32 0x3D800000#32
/-- 16, the reference's divisor for the same mean. -/
def w_16 : EReal := Ideal.ofBits .f32 0x41800000#32
/-- 2⁻¹⁵ = 1/32768, the kernel's factor for the batch statistics. -/
def w_inv32768 : EReal := Ideal.ofBits .f32 0x38000000#32
/-- 32768, the reference's divisor for the batch statistics. -/
def w_32768 : EReal := Ideal.ofBits .f32 0x47000000#32
/-- The f32 nearest 1e-5, the variance offset both programs carry. -/
def w_eps : EReal := Ideal.ofBits .f32 0x3727C5AC#32

variable (I : In)

/-! ## The edge perceptron -/

/-- Node features through W1. -/
def proj (n : Fin 32768) (e : Fin 128) : EReal := ∑ d : Fin 128, I.h n d * I.W1 d e

/-- The hidden edge activation as the kernel forms it: difference of projections, bias, clip at 0. -/
def hidK (n : Fin 32768) (k : Fin 16) (e : Fin 128) : EReal :=
  max (proj I (I.nb n k) e - proj I n e + I.b1 e) 0

/-- The hidden edge activation as the reference forms it: the difference projected, bias, clip at 0. -/
def hidR (n : Fin 32768) (k : Fin 16) (e : Fin 128) : EReal :=
  max ((∑ d : Fin 128, (I.h (I.nb n k) d - I.h n d) * I.W1 d e) + I.b1 e) 0

/-- The attention weight of edge (n, k) from a hidden activation: exp (−relu (hid · W2 + b2)). -/
def attOf (hid : Fin 32768 → Fin 16 → Fin 128 → EReal) (n : Fin 32768) (k : Fin 16) : EReal :=
  Ideal.exp (-(max ((∑ e : Fin 128, hid n k e * I.W2 e) + I.b2) 0))

/-- The message along edge (n, k): the weight times the node's own features. -/
def msgOf (att : Fin 32768 → Fin 16 → EReal) (n : Fin 32768) (k : Fin 16) (d : Fin 128) : EReal :=
  att n k * I.h n d

/-! ## Aggregation over the 16 neighbours -/

/-- Mean, the kernel's way: the sum times the literal 1/16. -/
def meanK (att : Fin 32768 → Fin 16 → EReal) (n : Fin 32768) (d : Fin 128) : EReal :=
  (∑ k : Fin 16, msgOf I att n k d) * w_inv16

/-- Mean, the reference's way: the sum divided by 16. -/
def meanR (att : Fin 32768 → Fin 16 → EReal) (n : Fin 32768) (d : Fin 128) : EReal :=
  Ideal.div (∑ k : Fin 16, msgOf I att n k d) w_16

/-- Maximum over the neighbours (−∞ is the extended reals' bottom, the identity of max). -/
def maxOf (att : Fin 32768 → Fin 16 → EReal) (n : Fin 32768) (d : Fin 128) : EReal :=
  Finset.univ.sup fun k : Fin 16 => msgOf I att n k d

/-- Mean in columns 0 … 127, maximum in columns 128 … 255. -/
def catOf (mean mx : Fin 32768 → Fin 128 → EReal) (n : Fin 32768) (j : Fin 256) : EReal :=
  if hj : j.val < 128 then mean n ⟨j.val, hj⟩ else mx n ⟨j.val - 128, by omega⟩

/-- The aggregate projected, plus its bias, added to the node's features. -/
def pre1Of (cat : Fin 32768 → Fin 256 → EReal) (n : Fin 32768) (e : Fin 128) : EReal :=
  I.h n e + ((∑ j : Fin 256, cat n j * I.OW j e) + I.Ob e)

def pre1K : Fin 32768 → Fin 128 → EReal :=
  pre1Of I (catOf (meanK I (attOf I (hidK I))) (maxOf I (attOf I (hidK I))))

def pre1R : Fin 32768 → Fin 128 → EReal :=
  pre1Of I (catOf (meanR I (attOf I (hidR I))) (maxOf I (attOf I (hidR I))))

/-! ## Batch normalisation over the node axis -/

section Norm
variable (v : Fin 32768 → Fin 128 → EReal) (g b : Fin 128 → EReal)

/-- The column sum over the rows one TensorCore handles: core c owns rows c·16384 … c·16384 + 16383. -/
def coreSum (c : Fin 2) (e : Fin 128) : EReal :=
  ∑ n ∈ Finset.univ.filter (fun n : Fin 32768 => n.val / 16384 = c.val), v n e

/-- The kernel's batch mean: the two cores' sums, scaled by 2⁻¹⁵. -/
def muK (e : Fin 128) : EReal := (∑ c : Fin 2, coreSum v c e) * w_inv32768

/-- The kernel's batch variance: E[x²] − E[x]², clipped at 0. -/
def varK (e : Fin 128) : EReal :=
  max ((∑ c : Fin 2, coreSum (fun n e => v n e * v n e) c e) * w_inv32768 - muK v e * muK v e) 0

/-- The kernel's normalisation: g · (x − μ) · rsqrt (σ² + ε) + b. -/
def bnK (n : Fin 32768) (e : Fin 128) : EReal :=
  g e * (v n e - muK v e) * Ideal.rsqrt (varK v e + w_eps) + b e

/-- The reference's batch mean. -/
def muR (e : Fin 128) : EReal := Ideal.div (∑ n : Fin 32768, v n e) w_32768

/-- The reference's batch variance: the mean of the centred squares. -/
def varR (e : Fin 128) : EReal :=
  Ideal.div (∑ n : Fin 32768, (v n e - muR v e) * (v n e - muR v e)) w_32768

/-- The reference's normalisation: g · (x − μ) / sqrt (σ² + ε) + b. -/
def bnR (n : Fin 32768) (e : Fin 128) : EReal :=
  Ideal.div (g e * (v n e - muR v e)) (Ideal.sqrt (varR v e + w_eps)) + b e

end Norm

/-! ## The feed-forward block with its residual -/

/-- x + (relu (x · F1W + F1b) · F2W + F2b). -/
def ffn (x : Fin 32768 → Fin 128 → EReal) (n : Fin 32768) (e : Fin 128) : EReal :=
  x n e + ((∑ j : Fin 256, max ((∑ d : Fin 128, x n d * I.F1W d j) + I.F1b j) 0 * I.F2W j e) + I.F2b e)

/-! ## The two results -/

/-- What the kernel computes. -/
def outK : Fin 32768 → Fin 128 → EReal :=
  bnK (ffn I (bnK (pre1K I) I.g1 I.bt1)) I.g2 I.bt2

/-- What the reference computes. -/
def outR : Fin 32768 → Fin 128 → EReal :=
  bnR (ffn I (bnR (pre1R I) I.g1 I.bt1)) I.g2 I.bt2

end EdgeAttn

end
-- ==== Proof.Math.Inputs.lean ====
/-
  From the programs' argument arrays to the specification's inputs: an array read at its coordinates, and a
  neighbour word read as the row it addresses (a negative word counts from the end, as array indexing has it).
-/
import proofs.«419117_j60533269069902_3_alg».proof.Proof.Math.Spec
import Idealize.ShloMosaic.Lib.ValueIdx

noncomputable section

namespace EdgeAttn

open Idealize.ShloMosaic Idealize.ShloMosaic.ValueIdx

/-- The row a signed 32-bit neighbour word addresses: w itself when 0 ≤ w, w + 32768 when w < 0 (reduced into
    range, so that the function is total; on words in [−32768, 32768) nothing is reduced). -/
def rowOf (w : BitVec 32) : Fin 32768 :=
  ⟨(if w.toInt < 0 then w.toInt + 32768 else w.toInt).toNat % 32768, Nat.mod_lt _ (by norm_num)⟩

/-- Every neighbour word addresses a row of the node array: −32768 ≤ w < 32768. -/
def IdxInRange (idx : IVec ⟨2, ![32768, 16]⟩ 32) : Prop :=
  ∀ (n : Fin 32768) (k : Fin 16), -32768 ≤ (idx (ix2 n k)).toInt ∧ (idx (ix2 n k)).toInt < 32768

/-- The sixteen argument arrays, read by coordinates. -/
def inOf (h : FVec Ideal ⟨2, ![32768, 128]⟩ .f32) (idx : IVec ⟨2, ![32768, 16]⟩ 32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32)
    (OW : FVec Ideal ⟨2, ![256, 128]⟩ .f32) (Ob : FVec Ideal ⟨1, ![128]⟩ .f32)
    (g1 bt1 : FVec Ideal ⟨1, ![128]⟩ .f32)
    (F1W : FVec Ideal ⟨2, ![128, 256]⟩ .f32) (F1b : FVec Ideal ⟨1, ![256]⟩ .f32)
    (F2W : FVec Ideal ⟨2, ![256, 128]⟩ .f32) (F2b : FVec Ideal ⟨1, ![128]⟩ .f32)
    (g2 bt2 : FVec Ideal ⟨1, ![128]⟩ .f32) : In where
  h n d := h (ix2 n d)
  nb n k := rowOf (idx (ix2 n k))
  W1 d e := W1 (ix2 d e)
  b1 e := b1 (ix1 e)
  W2 e := W2 (ix2 e 0)
  b2 := b2 (ix1 0)
  OW j e := OW (ix2 j e)
  Ob e := Ob (ix1 e)
  g1 e := g1 (ix1 e)
  bt1 e := bt1 (ix1 e)
  F1W d j := F1W (ix2 d j)
  F1b j := F1b (ix1 j)
  F2W j e := F2W (ix2 j e)
  F2b e := F2b (ix1 e)
  g2 e := g2 (ix1 e)
  bt2 e := bt2 (ix1 e)

end EdgeAttn

end
-- ==== Proof.KI.Proj.lean ====
/-
  The first launch: every node's features through W1. Each grid point takes 4096 rows of h and the whole of W1 and
  writes the 4096 × 128 product; the eight blocks tile the 32768 rows, so the result array is h · W1, entry by entry
  a sum over the 128 contracted columns.
-/
import proofs.«419117_j60533269069902_3_alg».proof.Proof.Gen.KernelIdeal.Frame
import proofs.«419117_j60533269069902_3_alg».proof.Proof.Math.Inputs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

/-! ## The product of a 4096 × 128 block with a 128 × 128 matrix, entry by entry -/

/-- The left operand's row is the result's row. -/
theorem lhs_proj_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- The left operand's column is the contracted coordinate. -/
theorem lhs_proj_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right operand's row is the contracted coordinate. -/
theorem rhs_proj_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- The right operand's column is the result's column. -/
theorem rhs_proj_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's product into a zero accumulator, at row p and column q: the sum over the contracted coordinate d of
    x0(p, d) · x1(d, q). -/
theorem proj_pay_apply (x0 : Vec Ideal S4096x128 .f32) (x1 : Vec Ideal S128x128 .f32) (p : Fin 4096) (q : Fin 128) :
    k0_pay1 x0 x1 (ix2 p q) = ∑ d : Fin 128, x0 (ix2 p d) * x1 (ix2 d q) := by
  unfold k0_pay1
  show FloatOps.matmul (F := Ideal) (φ₁ := .f32) (φ₂ := .f32) dot_S4096x128_S128x128_S4096x128_1_0_0_1_n_n (some .fp32) x0 x1 (constant S4096x128 .f32 0x00000000#32) (ix2 p q) = _
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

variable (V : (c : Dev nD) → (b : Ref sig .tc) → Buf (Elt Ideal) ((c : Thread nD τ).loc b))

/-- The node features and W1 as the launch finds them, at their literal types. -/
abbrev hArr (c : Dev nD) : Vec Ideal S32768x128 .f32 := V c main_arg0
abbrev w1Arr (c : Dev nD) : Vec Ideal S128x128 .f32 := V c main_arg2

/-! ## From the eight row blocks to the array -/

/-- The offset (0, 0) of a whole-block access is the zero offset on every axis. -/
theorem proj_hz : (![0, 0] : Fin 2 → Nat) = fun _ => 0 := funext fun a => by fin_cases a <;> rfl

/-- h · W1 as one function of the two arrays: row i₀, column i₁ is Σ_d h(i₀, d) · W1(d, i₁). -/
abbrev projG (c : Dev nD) : S32768x128.Idx → EReal :=
  fun i => ∑ d : Fin 128, hArr V c (ix2 (i 0) d) * w1Arr V c (ix2 d (i 1))

/-- Where the blocks lie: at grid point t the rows of h and of the result are block t of 4096 rows, and W1 is taken
    whole. -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, d) of the block of h at point t is h at row 4096 t + p, column d. -/
theorem proj_hblk_apply (c : Dev nD) (t : Fin cfg0.N) (p : Fin 4096) (d : Fin 128) (i : S32768x128.Idx)
    (hi0 : (i 0).val = t.val * 4096 + p.val) (hi1 : (i 1).val = d.val) :
    (iblk0 V c 0 t : Vec Ideal S4096x128 .f32) (ix2 p d) = hArr V c i := by
  obtain ⟨e0, e1, -, -, -, -⟩ := proj_idx_facts t
  unfold iblk0
  rw [View.read_apply]
  show V c main_arg0 _ = V c main_arg0 _
  congr 1
  funext a
  apply Fin.ext
  match a with
  | ⟨0, _⟩ => show win0_0.index t (0 : Fin 2) * 4096 + 1 * p.val = (i 0).val; rw [e0, hi0]; omega
  | ⟨1, _⟩ => show win0_0.index t (1 : Fin 2) * 128 + 1 * d.val = (i 1).val; rw [e1, hi1]; omega

/-- The block of W1 at any point is W1 itself. -/
theorem proj_w1blk_apply (c : Dev nD) (t : Fin cfg0.N) (d : Fin 128) (q : Fin 128) (i : S128x128.Idx)
    (hi0 : (i 0).val = d.val) (hi1 : (i 1).val = q.val) :
    (iblk0 V c 1 t : Vec Ideal S128x128 .f32) (ix2 d q) = w1Arr V c i := by
  obtain ⟨-, -, e2, e3, -, -⟩ := proj_idx_facts t
  unfold iblk0
  rw [View.read_apply]
  show V c main_arg2 _ = V c main_arg2 _
  congr 1
  funext a
  apply Fin.ext
  match a with
  | ⟨0, _⟩ => show win0_1.index t (0 : Fin 2) * 128 + 1 * d.val = (i 0).val; rw [e2, hi0]; omega
  | ⟨1, _⟩ => show win0_1.index t (1 : Fin 2) * 128 + 1 * q.val = (i 1).val; rw [e3, hi1]; omega

/-- What point t writes back is block t of h · W1. -/
theorem proj_flushed (c : Dev nD) (t : Fin cfg0.N) :
    (dat0 (F := Ideal) V c).flushed 2 t = ((cfg0.win 2).blk t).view.read (Elt Ideal) (projG V c) := by
  show (cfg0.win 2).cut (grid0.coords t) ((dat0 (F := Ideal) V c).after 2 t) = _
  rw [after0_2]
  unfold out0_2
  rw [View.canon_unit_zero proj_hz]
  simp only [View.ld_unit_zero (S := S4096x128) proj_hz, View.ld_unit_zero (S := S128x128) proj_hz]
  funext j
  obtain ⟨p, q, rfl⟩ : ∃ (p : Fin 4096) (q : Fin 128), j = ix2 p q := ⟨j 0, j 1, eq_ix2 j⟩
  obtain ⟨-, -, -, -, e4, e5⟩ := proj_idx_facts t
  show k0_pay1 (iblk0 V c 0 t) (iblk0 V c 1 t) (ix2 p q) = projG V c (((cfg0.win 2).blk t).view.emb (ix2 p q))
  refine (proj_pay_apply (iblk0 V c 0 t) (iblk0 V c 1 t) p q).trans ?_
  refine Finset.sum_congr rfl fun d _ => ?_
  have h0 : (iblk0 V c 0 t : Vec Ideal S4096x128 .f32) (ix2 p d)
      = hArr V c (ix2 (((cfg0.win 2).blk t).view.emb (ix2 p q) 0) d) :=
    proj_hblk_apply V c t p d _ (by show win0_2.index t (0 : Fin 2) * 4096 + 1 * p.val = _; rw [e4]; omega) rfl
  have h1 : (iblk0 V c 1 t : Vec Ideal S128x128 .f32) (ix2 d q)
      = w1Arr V c (ix2 d (((cfg0.win 2).blk t).view.emb (ix2 p q) 1)) :=
    proj_w1blk_apply V c t d q _ rfl (by show win0_2.index t (1 : Fin 2) * 128 + 1 * q.val = _; rw [e5]; omega)
  rw [h0, h1]

/-- An index of the result array lies in point t's block iff each coordinate lies in the block's range. -/
theorem proj_mem_blk (t : Fin cfg0.N) (i : S32768x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v0).slice (win0_2.rect t)).set ↔ _
  rw [View.set_slice_whole, Rect.mem_set_unit]
  exact Iff.rfl

/-- The eight blocks tile the rows: row r lies in the block of point r / 4096. -/
theorem proj_cover (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 8 := N_0
  obtain ⟨t, ht⟩ : ∃ t : Fin cfg0.N, t.val = (i 0).val / 4096 := ⟨⟨(i 0).val / 4096, by rw [hN]; omega⟩, rfl⟩
  obtain ⟨-, -, -, -, e4, e5⟩ := proj_idx_facts t
  refine ⟨t, flush0_2 t, ?_⟩
  rw [proj_mem_blk]
  intro a
  match a with
  | ⟨0, _⟩ =>
    show win0_2.index t (0 : Fin 2) * 4096 ≤ (i 0).val ∧ (i 0).val < win0_2.index t (0 : Fin 2) * 4096 + 4096
    rw [e4, ht]; omega
  | ⟨1, _⟩ =>
    show win0_2.index t (1 : Fin 2) * 128 ≤ (i 1).val ∧ (i 1).val < win0_2.index t (1 : Fin 2) * 128 + 128
    rw [e5]; omega

/-- So the result array ends holding h · W1. -/
theorem proj_final (c : Dev nD) : (dat0 (F := Ideal) V c).arrAt 2 cfg0.N = projG V c :=
  (dat0 (F := Ideal) V c).arrAt_eq_of_cover 2 (projG V c) (fun t _ => proj_flushed V c t) proj_cover

/-- After the first launch the result array holds h · W1: row n, column e is Σ_d h(n, d) · W1(d, e), whatever the
    buffers held when the launch was entered. -/
theorem proj_value (c : Dev nD) (n : Fin 32768) (e : Fin 128) :
    (dat0 (F := Ideal) V c).arrAt 2 cfg0.N (ix2 n e) = ∑ d : Fin 128, hArr V c (ix2 n d) * w1Arr V c (ix2 d e) :=
  congrFun (proj_final V c) (ix2 n e)

end Cert.KernelIdeal.Val

end
-- ==== Proof.KI.Take.lean ====
/-
  Between the first and the second launch: the rows of the projected array are gathered at the neighbour words (a
  negative word first moved up by 32768; rows outside [0, 32767] would be filled with the not-a-number word, which
  the index range excludes), and four parameter vectors are re-laid as single rows.
-/
import proofs.«419117_j60533269069902_3_alg».proof.Proof.Gen.KernelIdeal.Frame
import proofs.«419117_j60533269069902_3_alg».proof.Proof.Math.Inputs
import Idealize.ShloMosaic.PureOps.ShapeOps
import Idealize.ShloMosaic.PureOps.Dims
import Idealize.ShloMosaic.PureOps.Reduce
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

/-! ## The neighbour word moved into [0, 32767] -/

/-- A word in [−32768, 32768), moved up by 32768 when negative, has the signed value w (if 0 ≤ w) or w + 32768. -/
theorem take_normWord_toInt (w : BitVec 32) (hlo : -32768 ≤ w.toInt) (hhi : w.toInt < 32768) :
    (Scalar.select (IntOp.cmpi .slt w 0#32) (IntOp.addi w 32768#32) w).toInt
      = if w.toInt < 0 then w.toInt + 32768 else w.toInt := by
  have hc : IntOp.cmpi .slt w 0#32 = BitVec.ofBool (decide (w.toInt < 0)) := by
    show BitVec.ofBool (w.slt 0#32) = _
    rw [BitVec.slt_eq_decide]; rfl
  rw [hc]
  by_cases h : w.toInt < 0
  · rw [if_pos h, decide_eq_true h]
    show (Scalar.select 1#1 (w + 32768#32) w).toInt = _
    rw [select_one, BitVec.toInt_add]
    have h2 : (32768#32 : BitVec 32).toInt = 32768 := by decide
    rw [h2, Int.bmod_eq_of_le (by push_cast; omega) (by push_cast; omega)]
  · rw [if_neg h, decide_eq_false h]
    show (Scalar.select 0#1 (w + 32768#32) w).toInt = _
    rw [select_zero]

/-- The row a word in [−32768, 32768) addresses is its moved-up value. -/
theorem take_rowOf_val (w : BitVec 32) (hlo : -32768 ≤ w.toInt) (hhi : w.toInt < 32768) :
    (rowOf w).val = (if w.toInt < 0 then w.toInt + 32768 else w.toInt).toNat := by
  unfold rowOf
  show (if w.toInt < 0 then w.toInt + 32768 else w.toInt).toNat % 32768 = _
  split <;> omega

/-- Both range compares of the moved-up word hold: 0 ≤ w' and w' ≤ 32767. -/
theorem take_normWord_mask (w' : BitVec 32) (h0 : 0 ≤ w'.toInt) (h1 : w'.toInt ≤ 32767) :
    IntOp.andi (IntOp.cmpi .sge w' 0#32) (IntOp.cmpi .sle w' 32767#32) = 1#1 := by
  have ha : IntOp.cmpi .sge w' 0#32 = 1#1 := by
    show BitVec.ofBool ((0#32 : BitVec 32).sle w') = 1#1
    rw [BitVec.sle_eq_decide]
    have : (0#32 : BitVec 32).toInt = 0 := by decide
    rw [this, decide_eq_true h0]; rfl
  have hb : IntOp.cmpi .sle w' 32767#32 = 1#1 := by
    show BitVec.ofBool (w'.sle (32767#32 : BitVec 32)) = 1#1
    rw [BitVec.sle_eq_decide]
    have : (32767#32 : BitVec 32).toInt = 32767 := by decide
    rw [this, decide_eq_true h1]; rfl
  rw [ha, hb]; rfl

/-! ## A conjunction of ones over any index list is one -/

theorem take_foldl_andi_one {ι : Type} (x : ι → BitVec 1) (hx : ∀ i, x i = 1#1) :
    ∀ (l : List ι), l.foldl (fun r i => IntOp.andi r (x i)) 1#1 = 1#1
  | [] => rfl
  | i :: l => by
    rw [List.foldl_cons, hx i]
    exact take_foldl_andi_one x hx l

/-- An and-reduction, from one, of an array that is one everywhere is one everywhere. -/
theorem take_reduce_andi_one {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact take_foldl_andi_one x hx _

/-! ## Rows of a table gathered at an n × m × 1 array of position words -/

/-- Rows of an N × D table gathered at n × m position words: result (p, q, e) is the table at the clipped position of
    word (p, q) and column e. -/
theorem take_gather_rows3_apply {α : Type} {N D n m w : Nat} (d : GatherDims ⟨2, ![N, D]⟩ ⟨3, ![n, m, 1]⟩ ⟨3, ![n, m, D]⟩)
    (hoff : d.offsetDims = [2]) (hcoll : d.collapsedSliceDims = [0]) (hob : d.operandBatchingDims = [])
    (hsb : d.startIndicesBatchingDims = []) (hsim : d.startIndexMap = [0]) (hivd : d.indexVectorDim = 2)
    (x : (⟨2, ![N, D]⟩ : Shape).Idx → α) (idx : IVec ⟨3, ![n, m, 1]⟩ w) (p : Fin n) (q : Fin m) (e : Fin D) (hN : 0 < N) :
    Host.gather d x idx (ix3 p q e)
      = x (ix2 (⟨min (idx (ix3 p q (0 : Fin 1))).toInt.toNat (N - 1), by omega⟩ : Fin N) e) := by
  obtain ⟨od, cd, obd, sbd, sim, ivd, ss, wf⟩ := d
  simp only at hoff hcoll hob hsb hsim hivd
  subst hoff hcoll hob hsb hsim hivd
  generalize hd : (GatherDims.mk [2] [0] [] [] [0] 2 ss wf : GatherDims ⟨2, ![N, D]⟩ ⟨3, ![n, m, 1]⟩ ⟨3, ![n, m, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  -- axis 0 of the table: collapsed, so only the clipped start index counts
  have h0 : (d.operandIdx (ix3 p q e) idx (0 : Fin 2)).val = min (idx (ix3 p q (0 : Fin 1))).toInt.toNat (N - 1) := by
    show d.start (ix3 p q e) idx (0 : Fin 2) + d.batchCoord (ix3 p q e) (0 : Fin 2) + d.offCoord (ix3 p q e) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix3 p q e) ⟨List.idxOf (0 : Fin 2) d.startIndexMap, List.idxOf_lt_length_iff.2 hm⟩ = ix3 p q (0 : Fin 1) := by
      subst hd
      funext b; refine Fin.ext ?_
      match b with
      | ⟨0, _⟩ => rfl
      | ⟨1, _⟩ => rfl
      | ⟨2, _⟩ => rfl
    rw [hsi]
    rfl
  -- axis 1 of the table: kept whole, so only the result's offset coordinate counts
  have h1 : (d.operandIdx (ix3 p q e) idx (1 : Fin 2)).val = e.val := by
    show d.start (ix3 p q e) idx (1 : Fin 2) + d.batchCoord (ix3 p q e) (1 : Fin 2) + d.offCoord (ix3 p q e) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-! ## The masked gather read at one entry -/

/-- Position words all in [0, 32767]: the range mask is one everywhere, the clip of the start index is the identity, and
    entry (n, k, e) of the masked gather is entry (word (n, k), e) of the table, whatever fills the masked-out places. -/
theorem take_maskedGather_apply {α : Type}
    (hb1 : (⟨2, ![32768, 16]⟩ : Shape).BroadcastsInDim ⟨3, ![32768, 16, 1]⟩ (![0, 1] : Fin 2 → Fin 3))
    (hb2 : (⟨0, ![]⟩ : Shape).BroadcastsInDim ⟨3, ![32768, 16, 1]⟩ (![] : Fin 0 → Fin 3))
    (hb3 : (⟨1, ![1]⟩ : Shape).BroadcastsInDim ⟨3, ![1, 1, 1]⟩ (![2] : Fin 1 → Fin 3))
    (hb4 : (⟨3, ![1, 1, 1]⟩ : Shape).BroadcastsInDim ⟨3, ![32768, 16, 1]⟩ (![0, 1, 2] : Fin 3 → Fin 3))
    (hred : (⟨3, ![32768, 16, 1]⟩ : Shape).ReducesTo [2] ⟨2, ![32768, 16]⟩)
    (hu : 0 < (⟨0, ![]⟩ : Shape).numel)
    (hb5 : (⟨2, ![32768, 16]⟩ : Shape).BroadcastsInDim ⟨3, ![32768, 16, 128]⟩ (![0, 1] : Fin 2 → Fin 3))
    (d : GatherDims ⟨2, ![32768, 128]⟩ ⟨3, ![32768, 16, 1]⟩ ⟨3, ![32768, 16, 128]⟩)
    (hoff : d.offsetDims = [2]) (hcoll : d.collapsedSliceDims = [0]) (hob : d.operandBatchingDims = [])
    (hsb : d.startIndicesBatchingDims = []) (hsim : d.startIndexMap = [0]) (hivd : d.indexVectorDim = 2)
    (x : (⟨2, ![32768, 128]⟩ : Shape).Idx → α) (y : (⟨3, ![32768, 16, 128]⟩ : Shape).Idx → α)
    (w4 : IVec ⟨2, ![32768, 16]⟩ 32) (hw : ∀ j, 0 ≤ (w4 j).toInt ∧ (w4 j).toInt ≤ 32767)
    (n : Fin 32768) (k : Fin 16) (e : Fin 128) :
    select
        (broadcastInDim ⟨3, ![32768, 16, 128]⟩ ![0, 1] hb5
          (Host.reduce IntOp.andi
            (andi
              (cmpi .sge (broadcastInDim ⟨3, ![32768, 16, 1]⟩ ![0, 1] hb1 w4)
                (broadcastInDim ⟨3, ![32768, 16, 1]⟩ ![] hb2 (constantI ⟨0, ![]⟩ 32 0#32)))
              (cmpi .sle (broadcastInDim ⟨3, ![32768, 16, 1]⟩ ![0, 1] hb1 w4)
                (broadcastInDim ⟨3, ![32768, 16, 1]⟩ ![0, 1, 2] hb4
                  (broadcastInDim ⟨3, ![1, 1, 1]⟩ ![2] hb3 (constantI ⟨1, ![1]⟩ 32 32767#32)))))
            (constantI ⟨0, ![]⟩ 1 1#1) hred hu))
        (Host.gather d x (broadcastInDim ⟨3, ![32768, 16, 1]⟩ ![0, 1] hb1 w4)) y (ix3 n k e)
      = x (ix2 (⟨(w4 (ix2 n k)).toInt.toNat, by have := hw (ix2 n k); omega⟩ : Fin 32768) e) := by
  -- the two compares hold at every place, since every word is in range
  have hmask : ∀ i, (andi
              (cmpi .sge (broadcastInDim ⟨3, ![32768, 16, 1]⟩ ![0, 1] hb1 w4)
                (broadcastInDim ⟨3, ![32768, 16, 1]⟩ ![] hb2 (constantI ⟨0, ![]⟩ 32 0#32)))
              (cmpi .sle (broadcastInDim ⟨3, ![32768, 16, 1]⟩ ![0, 1] hb1 w4)
                (broadcastInDim ⟨3, ![32768, 16, 1]⟩ ![0, 1, 2] hb4
                  (broadcastInDim ⟨3, ![1, 1, 1]⟩ ![2] hb3 (constantI ⟨1, ![1]⟩ 32 32767#32))))) i = 1#1 := by
    intro i
    show IntOp.andi (IntOp.cmpi .sge (w4 _) 0#32) (IntOp.cmpi .sle (w4 _) 32767#32) = 1#1
    exact take_normWord_mask _ (hw _).1 (hw _).2
  rw [select_apply]
  -- so the reduced mask, broadcast along the row, is one at (n, k, e)
  have hc : (broadcastInDim ⟨3, ![32768, 16, 128]⟩ ![0, 1] hb5
          (Host.reduce IntOp.andi
            (andi
              (cmpi .sge (broadcastInDim ⟨3, ![32768, 16, 1]⟩ ![0, 1] hb1 w4)
                (broadcastInDim ⟨3, ![32768, 16, 1]⟩ ![] hb2 (constantI ⟨0, ![]⟩ 32 0#32)))
              (cmpi .sle (broadcastInDim ⟨3, ![32768, 16, 1]⟩ ![0, 1] hb1 w4)
                (broadcastInDim ⟨3, ![32768, 16, 1]⟩ ![0, 1, 2] hb4
                  (broadcastInDim ⟨3, ![1, 1, 1]⟩ ![2] hb3 (constantI ⟨1, ![1]⟩ 32 32767#32)))))
            (constantI ⟨0, ![]⟩ 1 1#1) hred hu)) (ix3 n k e) = 1#1 := by
    show Host.reduce IntOp.andi _ _ hred hu _ = 1#1
    exact take_reduce_andi_one _ _ hred hu hmask (fun _ => rfl) _
  rw [hc, select_one, take_gather_rows3_apply d hoff hcoll hob hsb hsim hivd x _ n k e (by norm_num)]
  -- the start index read at (n, k, 0) is the word (n, k), and its clip into [0, 32767] changes nothing
  have h5 : broadcastInDim ⟨3, ![32768, 16, 1]⟩ ![0, 1] hb1 w4 (ix3 n k (0 : Fin 1)) = w4 (ix2 n k) :=
    broadcastInDim_apply _ _ _ _ _ (fun a => match a with | ⟨0, _⟩ => rfl | ⟨1, _⟩ => rfl)
  refine congrArg x (congrArg (fun r => ix2 r e) (Fin.ext ?_))
  show min (broadcastInDim ⟨3, ![32768, 16, 1]⟩ ![0, 1] hb1 w4 (ix3 n k (0 : Fin 1))).toInt.toNat (32768 - 1) = (w4 (ix2 n k)).toInt.toNat
  rw [h5]
  have := hw (ix2 n k)
  omega

/-- The whole take, read at one entry: with every neighbour word in [−32768, 32768), entry (n, k, e) is entry
    (rowOf word (n, k), e) of the table. -/
theorem take_read {α : Type}
    (hb0 : (⟨0, ![]⟩ : Shape).BroadcastsInDim ⟨2, ![32768, 16]⟩ (![] : Fin 0 → Fin 2))
    (hb1 : (⟨2, ![32768, 16]⟩ : Shape).BroadcastsInDim ⟨3, ![32768, 16, 1]⟩ (![0, 1] : Fin 2 → Fin 3))
    (hb2 : (⟨0, ![]⟩ : Shape).BroadcastsInDim ⟨3, ![32768, 16, 1]⟩ (![] : Fin 0 → Fin 3))
    (hb3 : (⟨1, ![1]⟩ : Shape).BroadcastsInDim ⟨3, ![1, 1, 1]⟩ (![2] : Fin 1 → Fin 3))
    (hb4 : (⟨3, ![1, 1, 1]⟩ : Shape).BroadcastsInDim ⟨3, ![32768, 16, 1]⟩ (![0, 1, 2] : Fin 3 → Fin 3))
    (hred : (⟨3, ![32768, 16, 1]⟩ : Shape).ReducesTo [2] ⟨2, ![32768, 16]⟩)
    (hu : 0 < (⟨0, ![]⟩ : Shape).numel)
    (hb5 : (⟨2, ![32768, 16]⟩ : Shape).BroadcastsInDim ⟨3, ![32768, 16, 128]⟩ (![0, 1] : Fin 2 → Fin 3))
    (d : GatherDims ⟨2, ![32768, 128]⟩ ⟨3, ![32768, 16, 1]⟩ ⟨3, ![32768, 16, 128]⟩)
    (hoff : d.offsetDims = [2]) (hcoll : d.collapsedSliceDims = [0]) (hob : d.operandBatchingDims = [])
    (hsb : d.startIndicesBatchingDims = []) (hsim : d.startIndexMap = [0]) (hivd : d.indexVectorDim = 2)
    (x : (⟨2, ![32768, 128]⟩ : Shape).Idx → α) (y : (⟨3, ![32768, 16, 128]⟩ : Shape).Idx → α)
    (idx : IVec ⟨2, ![32768, 16]⟩ 32) (hr : IdxInRange idx)
    (n : Fin 32768) (k : Fin 16) (e : Fin 128) :
    select
        (broadcastInDim ⟨3, ![32768, 16, 128]⟩ ![0, 1] hb5
          (Host.reduce IntOp.andi
            (andi
              (cmpi .sge (broadcastInDim ⟨3, ![32768, 16, 1]⟩ ![0, 1] hb1
                  (select (cmpi .slt idx (broadcastInDim ⟨2, ![32768, 16]⟩ ![] hb0 (constantI ⟨0, ![]⟩ 32 0#32)))
                    (addi idx (broadcastInDim ⟨2, ![32768, 16]⟩ ![] hb0 (constantI ⟨0, ![]⟩ 32 32768#32))) idx))
                (broadcastInDim ⟨3, ![32768, 16, 1]⟩ ![] hb2 (constantI ⟨0, ![]⟩ 32 0#32)))
              (cmpi .sle (broadcastInDim ⟨3, ![32768, 16, 1]⟩ ![0, 1] hb1
                  (select (cmpi .slt idx (broadcastInDim ⟨2, ![32768, 16]⟩ ![] hb0 (constantI ⟨0, ![]⟩ 32 0#32)))
                    (addi idx (broadcastInDim ⟨2, ![32768, 16]⟩ ![] hb0 (constantI ⟨0, ![]⟩ 32 32768#32))) idx))
                (broadcastInDim ⟨3, ![32768, 16, 1]⟩ ![0, 1, 2] hb4
                  (broadcastInDim ⟨3, ![1, 1, 1]⟩ ![2] hb3 (constantI ⟨1, ![1]⟩ 32 32767#32)))))
            (constantI ⟨0, ![]⟩ 1 1#1) hred hu))
        (Host.gather d x (broadcastInDim ⟨3, ![32768, 16, 1]⟩ ![0, 1] hb1
          (select (cmpi .slt idx (broadcastInDim ⟨2, ![32768, 16]⟩ ![] hb0 (constantI ⟨0, ![]⟩ 32 0#32)))
            (addi idx (broadcastInDim ⟨2, ![32768, 16]⟩ ![] hb0 (constantI ⟨0, ![]⟩ 32 32768#32))) idx)))
        y (ix3 n k e)
      = x (ix2 (rowOf (idx (ix2 n k))) e) := by
  -- the moved-up word at a place, as a scalar expression
  have hval : ∀ j : (⟨2, ![32768, 16]⟩ : Shape).Idx,
      ((select (cmpi .slt idx (broadcastInDim ⟨2, ![32768, 16]⟩ ![] hb0 (constantI ⟨0, ![]⟩ 32 0#32)))
          (addi idx (broadcastInDim ⟨2, ![32768, 16]⟩ ![] hb0 (constantI ⟨0, ![]⟩ 32 32768#32))) idx) j).toInt
        = if (idx j).toInt < 0 then (idx j).toInt + 32768 else (idx j).toInt := by
    intro j
    have hj : -32768 ≤ (idx j).toInt ∧ (idx j).toInt < 32768 := by
      rw [eq_ix2 j]; exact hr _ _
    exact take_normWord_toInt (idx j) hj.1 hj.2
  have hw : ∀ j : (⟨2, ![32768, 16]⟩ : Shape).Idx,
      0 ≤ ((select (cmpi .slt idx (broadcastInDim ⟨2, ![32768, 16]⟩ ![] hb0 (constantI ⟨0, ![]⟩ 32 0#32)))
          (addi idx (broadcastInDim ⟨2, ![32768, 16]⟩ ![] hb0 (constantI ⟨0, ![]⟩ 32 32768#32))) idx) j).toInt
      ∧ ((select (cmpi .slt idx (broadcastInDim ⟨2, ![32768, 16]⟩ ![] hb0 (constantI ⟨0, ![]⟩ 32 0#32)))
          (addi idx (broadcastInDim ⟨2, ![32768, 16]⟩ ![] hb0 (constantI ⟨0, ![]⟩ 32 32768#32))) idx) j).toInt ≤ 32767 := by
    intro j
    have hj : -32768 ≤ (idx j).toInt ∧ (idx j).toInt < 32768 := by
      rw [eq_ix2 j]; exact hr _ _
    rw [hval j]
    split <;> omega
  rw [take_maskedGather_apply hb1 hb2 hb3 hb4 hred hu hb5 d hoff hcoll hob hsb hsim hivd x y _ hw n k e]
  refine congrArg x (congrArg (fun r => ix2 r e) (Fin.ext ?_))
  have hnk := hr n k
  show ((select (cmpi .slt idx (broadcastInDim ⟨2, ![32768, 16]⟩ ![] hb0 (constantI ⟨0, ![]⟩ 32 0#32)))
          (addi idx (broadcastInDim ⟨2, ![32768, 16]⟩ ![] hb0 (constantI ⟨0, ![]⟩ 32 32768#32))) idx) (ix2 n k)).toInt.toNat
      = (rowOf (idx (ix2 n k))).val
  rw [hval, take_rowOf_val _ hnk.1 hnk.2]

/-- The same, over the program's own array types: the form in which the stretch's result is read. -/
theorem take_read_named (x : FVec Ideal S32768x128 .f32) (idx : IVec S32768x16 32) (hr : IdxInRange idx)
    (n : Fin 32768) (k : Fin 16) (e : Fin 128) :
    select
      (broadcastInDim S32768x16x128 ![0, 1] bcast_S32768x16_S32768x16x128_0_1
        (Host.reduce IntOp.andi
          (andi
            (cmpi CmpIPredicate.sge
              (broadcastInDim S32768x16x1 ![0, 1] bcast_S32768x16_S32768x16x1_0_1
                (select
                  (cmpi CmpIPredicate.slt idx
                    (broadcastInDim S32768x16 ![] bcast_S_S32768x16 (constantI S_ 32 0#32)))
                  (addi idx
                    (broadcastInDim S32768x16 ![] bcast_S_S32768x16 (constantI S_ 32 32768#32)))
                  idx))
              (broadcastInDim S32768x16x1 ![] bcast_S_S32768x16x1 (constantI S_ 32 0#32)))
            (cmpi CmpIPredicate.sle
              (broadcastInDim S32768x16x1 ![0, 1] bcast_S32768x16_S32768x16x1_0_1
                (select
                  (cmpi CmpIPredicate.slt idx
                    (broadcastInDim S32768x16 ![] bcast_S_S32768x16 (constantI S_ 32 0#32)))
                  (addi idx
                    (broadcastInDim S32768x16 ![] bcast_S_S32768x16 (constantI S_ 32 32768#32)))
                  idx))
              (broadcastInDim S32768x16x1 ![0, 1, 2] bcast_S1x1x1_S32768x16x1_0_1_2
                (broadcastInDim S1x1x1 ![2] bcast_S1_S1x1x1_2 (constantI S1 32 32767#32)))))
          (constantI S_ 1 1#1) reducesTo_S32768x16x1_S32768x16_d2 h_S_))
      (Host.gather gather_S32768x128_S32768x16x1_S32768x16x128_2_0_n_n_0_2_1128 x
        (broadcastInDim S32768x16x1 ![0, 1] bcast_S32768x16_S32768x16x1_0_1
          (select
            (cmpi CmpIPredicate.slt idx
              (broadcastInDim S32768x16 ![] bcast_S_S32768x16 (constantI S_ 32 0#32)))
            (addi idx
              (broadcastInDim S32768x16 ![] bcast_S_S32768x16 (constantI S_ 32 32768#32)))
            idx)))
      (broadcastInDim S32768x16x128 ![] bcast_S_S32768x16x128 (constant (F := Ideal) S_ FTy.f32 2143289344#32)) (ix3 n k e) =
    x (ix2 (rowOf (idx (ix2 n k))) e) :=
  take_read bcast_S_S32768x16 bcast_S32768x16_S32768x16x1_0_1 bcast_S_S32768x16x1 bcast_S1_S1x1x1_2
    bcast_S1x1x1_S32768x16x1_0_1_2 reducesTo_S32768x16x1_S32768x16_d2 h_S_ bcast_S32768x16_S32768x16x128_0_1
    gather_S32768x128_S32768x16x1_S32768x16x128_2_0_n_n_0_2_1128 rfl rfl rfl rfl rfl rfl _ _ _ hr n k e

/-! ## The stretch itself -/

variable (Wv : Valuation τ sig (Elt Ideal))

/-- The buffers after the gather and the four re-layings, from the contents Wv before them. -/
abbrev afterTake : Valuation τ sig (Elt Ideal) :=
  StableHlo.after (hostOps1_1 : List (HloOp τ sig (Elt Ideal))) (StableHlo.after (hostOps1 : List (HloOp τ sig (Elt Ideal))) Wv)

/-- With every neighbour word in range, entry (n, k, e) of the gathered array is row rowOf(word) of the projected
    array: the in-range mask is all ones, so the select keeps the gathered row. -/
theorem take_value (hr : IdxInRange (Wv (Proc.devRef .tc main_arg1))) (n : Fin 32768) (k : Fin 16) (e : Fin 128) :
    afterTake Wv (Proc.devRef .tc main_v1) (ix3 n k e)
      = Wv (Proc.devRef .tc main_v0) (ix2 (rowOf (Wv (Proc.devRef .tc main_arg1) (ix2 n k))) e) := by
  -- the four re-layings do not write the gathered array
  have h1 : ∀ V : Valuation τ sig (Elt Ideal),
      StableHlo.after (hostOps1_1 : List (HloOp τ sig (Elt Ideal))) V (Proc.devRef .tc main_v1) = V (Proc.devRef .tc main_v1) := by
    intro V
    dsimp only [hostOps1_1]
    after_results
  show StableHlo.after hostOps1_1 _ (Proc.devRef .tc main_v1) (ix3 n k e) = _
  rw [h1]
  -- the gathered array as one term over the projected array and the neighbour words
  dsimp only [hostOps1]
  after_results_simp
  simp only [StableHlo.TRef.ofBuf, StableHlo.TRef.toBuf, cast_eq]
  exact take_read_named (Wv (Proc.devRef .tc main_v0)) (Wv (Proc.devRef .tc main_arg1)) hr n k e

/-- b1 as a row. -/
theorem take_v2 (e : Fin 128) : afterTake Wv (Proc.devRef .tc main_v2) (ix2 0 e) = Wv (Proc.devRef .tc main_arg3) (ix1 e) := by
  -- the gather's operations do not write the parameter vector
  have h0 : StableHlo.after (hostOps1 : List (HloOp τ sig (Elt Ideal))) Wv (Proc.devRef .tc main_arg3) = Wv (Proc.devRef .tc main_arg3) := by
    dsimp only [hostOps1]
    after_results
  -- the re-laid array keeps row-major order
  have h1 : ∀ V : Valuation τ sig (Elt Ideal),
      StableHlo.after (hostOps1_1 : List (HloOp τ sig (Elt Ideal))) V (Proc.devRef .tc main_v2) (ix2 0 e) = V (Proc.devRef .tc main_arg3) (ix1 e) := by
    intro V
    dsimp only [hostOps1_1]
    after_results
    show shapeCast S1x128 _ shapeCasts_S128_S1x128 (ix2 0 e) = _
    refine shapeCast_apply _ _ _ (ix1 e) ?_
    rw [Shape.rowMajor_val_one, Shape.rowMajor_val_two]
    show e.val = 0 * 128 + e.val
    omega
  show StableHlo.after hostOps1_1 _ (Proc.devRef .tc main_v2) (ix2 0 e) = _
  rw [h1, h0]
/-- The column W2 as a row (row-major order keeps the entries in place). -/
theorem take_v3 (e : Fin 128) : afterTake Wv (Proc.devRef .tc main_v3) (ix2 0 e) = Wv (Proc.devRef .tc main_arg4) (ix2 e 0) := by
  -- the gather's operations do not write the parameter vector
  have h0 : StableHlo.after (hostOps1 : List (HloOp τ sig (Elt Ideal))) Wv (Proc.devRef .tc main_arg4) = Wv (Proc.devRef .tc main_arg4) := by
    dsimp only [hostOps1]
    after_results
  -- the re-laid array keeps row-major order
  have h1 : ∀ V : Valuation τ sig (Elt Ideal),
      StableHlo.after (hostOps1_1 : List (HloOp τ sig (Elt Ideal))) V (Proc.devRef .tc main_v3) (ix2 0 e) = V (Proc.devRef .tc main_arg4) (ix2 e 0) := by
    intro V
    dsimp only [hostOps1_1]
    after_results
    show shapeCast S1x128 _ shapeCasts_S128x1_S1x128 (ix2 0 e) = _
    refine shapeCast_apply _ _ _ (ix2 e 0) ?_
    rw [Shape.rowMajor_val_two, Shape.rowMajor_val_two]
    show e.val * 1 + 0 = 0 * 128 + e.val
    omega
  show StableHlo.after hostOps1_1 _ (Proc.devRef .tc main_v3) (ix2 0 e) = _
  rw [h1, h0]
/-- b2 as a 1 × 1 array. -/
theorem take_v4 : afterTake Wv (Proc.devRef .tc main_v4) (ix2 0 0) = Wv (Proc.devRef .tc main_arg5) (ix1 0) := by
  -- the gather's operations do not write the parameter vector
  have h0 : StableHlo.after (hostOps1 : List (HloOp τ sig (Elt Ideal))) Wv (Proc.devRef .tc main_arg5) = Wv (Proc.devRef .tc main_arg5) := by
    dsimp only [hostOps1]
    after_results
  -- the re-laid array keeps row-major order
  have h1 : ∀ V : Valuation τ sig (Elt Ideal),
      StableHlo.after (hostOps1_1 : List (HloOp τ sig (Elt Ideal))) V (Proc.devRef .tc main_v4) (ix2 0 0) = V (Proc.devRef .tc main_arg5) (ix1 0) := by
    intro V
    dsimp only [hostOps1_1]
    after_results
    show shapeCast S1x1 _ shapeCasts_S1_S1x1 (ix2 0 0) = _
    refine shapeCast_apply _ _ _ (ix1 0) ?_
    rw [Shape.rowMajor_val_one, Shape.rowMajor_val_two]
    rfl
  show StableHlo.after hostOps1_1 _ (Proc.devRef .tc main_v4) (ix2 0 0) = _
  rw [h1, h0]
/-- Ob as a row. -/
theorem take_v5 (e : Fin 128) : afterTake Wv (Proc.devRef .tc main_v5) (ix2 0 e) = Wv (Proc.devRef .tc main_arg7) (ix1 e) := by
  -- the gather's operations do not write the parameter vector
  have h0 : StableHlo.after (hostOps1 : List (HloOp τ sig (Elt Ideal))) Wv (Proc.devRef .tc main_arg7) = Wv (Proc.devRef .tc main_arg7) := by
    dsimp only [hostOps1]
    after_results
  -- the re-laid array keeps row-major order
  have h1 : ∀ V : Valuation τ sig (Elt Ideal),
      StableHlo.after (hostOps1_1 : List (HloOp τ sig (Elt Ideal))) V (Proc.devRef .tc main_v5) (ix2 0 e) = V (Proc.devRef .tc main_arg7) (ix1 e) := by
    intro V
    dsimp only [hostOps1_1]
    after_results
    show shapeCast S1x128 _ shapeCasts_S128_S1x128 (ix2 0 e) = _
    refine shapeCast_apply _ _ _ (ix1 e) ?_
    rw [Shape.rowMajor_val_one, Shape.rowMajor_val_two]
    show e.val = 0 * 128 + e.val
    omega
  show StableHlo.after hostOps1_1 _ (Proc.devRef .tc main_v5) (ix2 0 e) = _
  rw [h1, h0]
/-- The stretch writes none of the node features, the projected array, or OW. -/
theorem take_keep_arg0 : afterTake Wv (Proc.devRef .tc main_arg0) = Wv (Proc.devRef .tc main_arg0) := by
  have h0 : StableHlo.after (hostOps1 : List (HloOp τ sig (Elt Ideal))) Wv (Proc.devRef .tc main_arg0) = Wv (Proc.devRef .tc main_arg0) := by
    dsimp only [hostOps1]
    after_results
  have h1 : ∀ V : Valuation τ sig (Elt Ideal),
      StableHlo.after (hostOps1_1 : List (HloOp τ sig (Elt Ideal))) V (Proc.devRef .tc main_arg0) = V (Proc.devRef .tc main_arg0) := by
    intro V
    dsimp only [hostOps1_1]
    after_results
  show StableHlo.after hostOps1_1 _ (Proc.devRef .tc main_arg0) = _
  rw [h1, h0]
theorem take_keep_v0 : afterTake Wv (Proc.devRef .tc main_v0) = Wv (Proc.devRef .tc main_v0) := by
  have h0 : StableHlo.after (hostOps1 : List (HloOp τ sig (Elt Ideal))) Wv (Proc.devRef .tc main_v0) = Wv (Proc.devRef .tc main_v0) := by
    dsimp only [hostOps1]
    after_results
  have h1 : ∀ V : Valuation τ sig (Elt Ideal),
      StableHlo.after (hostOps1_1 : List (HloOp τ sig (Elt Ideal))) V (Proc.devRef .tc main_v0) = V (Proc.devRef .tc main_v0) := by
    intro V
    dsimp only [hostOps1_1]
    after_results
  show StableHlo.after hostOps1_1 _ (Proc.devRef .tc main_v0) = _
  rw [h1, h0]
theorem take_keep_arg6 : afterTake Wv (Proc.devRef .tc main_arg6) = Wv (Proc.devRef .tc main_arg6) := by
  have h0 : StableHlo.after (hostOps1 : List (HloOp τ sig (Elt Ideal))) Wv (Proc.devRef .tc main_arg6) = Wv (Proc.devRef .tc main_arg6) := by
    dsimp only [hostOps1]
    after_results
  have h1 : ∀ V : Valuation τ sig (Elt Ideal),
      StableHlo.after (hostOps1_1 : List (HloOp τ sig (Elt Ideal))) V (Proc.devRef .tc main_arg6) = V (Proc.devRef .tc main_arg6) := by
    intro V
    dsimp only [hostOps1_1]
    after_results
  show StableHlo.after hostOps1_1 _ (Proc.devRef .tc main_arg6) = _
  rw [h1, h0]

end Cert.KernelIdeal.Val

end
-- ==== Proof.KI.MsgBody.lean ====
/-
  One grid point of the second launch, as values. From a tile of 1024 rows — the rows' own features x0, their
  projections x1, the 16 gathered neighbour projections x2, and the parameter rows — the body computes, for each
  neighbour k, the attention weight exp(−relu(relu(x2[·,k,·] − x1 + b1) · w2 + b2)) and the message weight · x0; sums
  and maximises the messages over k (sixteen unrolled steps from 0 and from −∞); scales the sum by 1/16, joins mean
  and maximum side by side, projects through OW, adds Ob and x0; stores that tile; and adds the tile's column sums of
  the result and of its square into two 1 × 1 × 128 accumulators, which the first point of each core's run of 16
  first resets to 0.
-/
import proofs.«419117_j60533269069902_3_alg».proof.Proof.Gen.KernelIdeal.Frame
import proofs.«419117_j60533269069902_3_alg».proof.Proof.Math.Inputs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

/-- Row r, column e of the tile a grid point stores, from the point's input blocks. -/
def tile (x0 x1 : Vec Ideal S1024x128 .f32) (x2 : Vec Ideal S1024x16x128 .f32) (x3 x4 : Vec Ideal S1x128 .f32)
    (x5 : Vec Ideal S1x1 .f32) (x6 : Vec Ideal S256x128 .f32) (x7 : Vec Ideal S1x128 .f32) (r : Fin 1024) (e : Fin 128) : EReal :=
  let att : Fin 16 → EReal := fun k =>
    Ideal.exp (-(max ((∑ e' : Fin 128, max (x2 (ix3 r k e') - x1 (ix2 r e') + x3 (ix2 0 e')) 0 * x4 (ix2 0 e')) + x5 (ix2 0 0)) 0))
  let msg : Fin 16 → Fin 128 → EReal := fun k d => att k * x0 (ix2 r d)
  let cat : Fin 256 → EReal := fun j =>
    if hj : j.val < 128 then (∑ k : Fin 16, msg k ⟨j.val, hj⟩) * w_inv16
    else Finset.univ.sup fun k : Fin 16 => msg k ⟨j.val - 128, by omega⟩
  x0 (ix2 r e) + ((∑ j : Fin 256, cat j * x6 (ix2 j e)) + x7 (ix2 0 e))

namespace MsgB

/-- The sixteen neighbour slices' in-range facts, for a neighbour number as a variable. -/
theorem inbK (k : Fin 16) : ∀ a, (![0, k.val, 0] : Fin 3 → Nat) a + S1024x1x128.size a ≤ S1024x16x128.size a := by
  intro a
  match a with
  | ⟨0, _⟩ => exact Nat.le_refl _
  | ⟨1, _⟩ => show k.val + 1 ≤ 16; omega
  | ⟨2, _⟩ => exact Nat.le_refl _

/-- Neighbour k's slice of the gathered projections: rows × 1 × lanes. -/
def slc (x2 : Vec Ideal S1024x16x128 .f32) (k : Fin 16) : Vec Ideal S1024x1x128 .f32 :=
  View.ld x2 (Rect.unit (s := S1024x16x128) ![0, k.val, 0] S1024x1x128.size (inbK k))

/-- Neighbour k's message tile, as the body forms it from the slice. -/
def msgV (x0 x1 : Vec Ideal S1024x128 .f32) (x2 : Vec Ideal S1024x16x128 .f32) (x3 x4 : Vec Ideal S1x128 .f32)
    (x5 : Vec Ideal S1x1 .f32) (k : Fin 16) : FVec Ideal S1024x128 .f32 :=
  k1_pay38 x0 (k1_pay2 x1) (k1_pay3 x3) (k1_pay4 x4) (k1_pay5 x5) (slc x2 k)

/-- Sixteen tiles added up from the zero tile, in the body's order. -/
def sumChain (m : Fin 16 → FVec Ideal S1024x128 .f32) : FVec Ideal S1024x128 .f32 :=
  addf (addf (addf (addf (addf (addf (addf (addf (addf (addf (addf (addf (addf (addf (addf (addf
    (broadcast S1024x128 (Scalar.ofBits (F := Ideal) .f32 0x00000000#32))
    (m 0)) (m 1)) (m 2)) (m 3)) (m 4)) (m 5)) (m 6)) (m 7)) (m 8)) (m 9)) (m 10)) (m 11)) (m 12)) (m 13)) (m 14)) (m 15)

/-- Sixteen tiles maximised from the −∞ tile, in the body's order. -/
def maxChain (m : Fin 16 → FVec Ideal S1024x128 .f32) : FVec Ideal S1024x128 .f32 :=
  maximumf (maximumf (maximumf (maximumf (maximumf (maximumf (maximumf (maximumf (maximumf (maximumf (maximumf (maximumf (maximumf (maximumf (maximumf (maximumf
    (broadcast S1024x128 (Scalar.ofBits (F := Ideal) .f32 0xFF800000#32))
    (m 0)) (m 1)) (m 2)) (m 3)) (m 4)) (m 5)) (m 6)) (m 7)) (m 8)) (m 9)) (m 10)) (m 11)) (m 12)) (m 13)) (m 14)) (m 15)

/-- The tail of the body: mean and maximum joined, through OW, plus Ob, plus the rows' own features. -/
def finishV (x0 : Vec Ideal S1024x128 .f32) (sm mx : FVec Ideal S1024x128 .f32) (x6 : Vec Ideal S256x128 .f32)
    (x7 : Vec Ideal S1x128 .f32) : FVec Ideal S1024x128 .f32 :=
  addf x0 (addf
    (matmul (φ₂ := .f32) dot_S1024x256_S256x128_S1024x128_1_0_0_1_n_n (some .fp32)
      (concatenate S1024x256 1 [⟨S1024x128, mulf sm (broadcast S1024x128 (Scalar.ofBits (F := Ideal) .f32 0x3D800000#32))⟩, ⟨S1024x128, mx⟩]
        concatenates_S1024x128_S1024x128_S1024x256_d1)
      x6 (constant S1024x128 .f32 0x00000000#32))
    (broadcastTo S1024x128 (shapeCast S1x128 x7 shapeCasts_S1x128_S1x128) broadcasts_S1x128_S1024x128))

/-- The whole stored tile as a vector. -/
def tileV (x0 x1 : Vec Ideal S1024x128 .f32) (x2 : Vec Ideal S1024x16x128 .f32) (x3 x4 : Vec Ideal S1x128 .f32)
    (x5 : Vec Ideal S1x1 .f32) (x6 : Vec Ideal S256x128 .f32) (x7 : Vec Ideal S1x128 .f32) : FVec Ideal S1024x128 .f32 :=
  finishV x0 (sumChain (msgV x0 x1 x2 x3 x4 x5)) (maxChain (msgV x0 x1 x2 x3 x4 x5)) x6 x7

/-! # The vectors at an index -/

/-! ## The layout steps at an index -/

/-- Neighbour k's slice at (r, 0, d) is the gathered block at (r, k, d). -/
theorem slc_apply (x2 : Vec Ideal S1024x16x128 .f32) (k : Fin 16) (r : Fin 1024) (u : Fin 1) (d : Fin 128) :
    slc x2 k (ix3 r u d) = x2 (ix3 r k d) := by
  unfold slc
  refine congrArg x2 (funext fun a => Fin.ext ?_)
  have hu : u.val = 0 := by omega
  match a with
  | ⟨0, _⟩ => show 0 + 1 * r.val = r.val; omega
  | ⟨1, _⟩ => show k.val + 1 * u.val = k.val; omega
  | ⟨2, _⟩ => show 0 + 1 * d.val = d.val; omega

/-- A rows × 1 × lanes slice cast to rows × lanes keeps (r, d). -/
theorem cast_slice_apply (xk : Vec Ideal S1024x1x128 .f32) (r : Fin 1024) (d : Fin 128) :
    (shapeCast S1024x128 xk shapeCasts_S1024x1x128_S1024x128 : FVec Ideal S1024x128 .f32) (ix2 r d) = xk (ix3 r 0 d) :=
  shapeCast_apply xk shapeCasts_S1024x1x128_S1024x128 (ix2 r d) (ix3 r (0 : Fin 1) d) (by
    rw [Shape.rowMajor_val_three, Shape.rowMajor_val_two]
    show (r.val * 1 + 0) * 128 + d.val = r.val * 128 + d.val
    omega)

/-- The lane sum of a rows × lanes tile, kept as a column: at (r, 0) the sum over the lanes of row r. -/
theorem lanesum_col_apply (a : FVec Ideal S1024x128 .f32) (r : Fin 1024) (u : Fin 1) :
    shapeCast S1024x1 (multiReduction .add [1] S1024 a 0x00000000#32 reduces_S1024x128_S1024 (.inl rfl) rfl) shapeCasts_S1024_S1024x1 (ix2 r u)
      = ∑ e' : Fin 128, a (ix2 r e') := by
  have hu : u.val = 0 := by omega
  refine (shapeCast_apply _ shapeCasts_S1024_S1024x1 (ix2 r u) (ix1 r) (by
    rw [Shape.rowMajor_val_one, Shape.rowMajor_val_two]
    show r.val = r.val * 1 + u.val
    omega)).trans ?_
  refine (Ideal.multiReduction_add_single a 0x00000000#32 reduces_S1024x128_S1024 (.inl rfl) rfl (ix1 r)).trans ?_
  refine Finset.sum_congr rfl fun e' _ => congrArg a (funext fun c => Fin.ext ?_)
  match c with
  | ⟨0, _⟩ => rfl
  | ⟨1, _⟩ => rfl

/-- A column broadcast along the lanes: at (r, d) the column's entry of row r. -/
theorem bcast_col_apply (v : FVec Ideal S1024x1 .f32) (r : Fin 1024) (d : Fin 128) :
    broadcastTo S1024x128 v broadcasts_S1024x1_S1024x128 (ix2 r d) = v (ix2 r 0) := by
  refine broadcastTo_apply v broadcasts_S1024x1_S1024x128 (ix2 r d) (ix2 r (0 : Fin 1)) fun ax => ?_
  match ax with
  | ⟨0, _⟩ => rfl
  | ⟨1, _⟩ => rfl

/-- A row broadcast down the rows: at (r, d) the row's entry of lane d. -/
theorem bcast_row_apply (v : FVec Ideal S1x128 .f32) (r : Fin 1024) (d : Fin 128) :
    broadcastTo S1024x128 v broadcasts_S1x128_S1024x128 (ix2 r d) = v (ix2 0 d) := by
  refine broadcastTo_apply v broadcasts_S1x128_S1024x128 (ix2 r d) (ix2 (0 : Fin 1) d) fun ax => ?_
  match ax with
  | ⟨0, _⟩ => rfl
  | ⟨1, _⟩ => rfl

/-- The zero word is the extended real 0. -/
theorem zeroWord : (FloatOps.ofBits (F := Ideal) .f32 0x00000000#32) = (0 : EReal) := Ideal.ofBits_zero_f32

/-! ## One neighbour's message at an index -/

/-- The message tile of one neighbour at (r, d): the weight exp(−relu(Σ_e' relu(slice − own projection + b1)·w2 + b2)) times the
    row's own feature. -/
theorem pay38_apply (v0 : Vec Ideal S1024x128 .f32) (v2 : FVec Ideal S1024x128 .f32) (v4 v6 : FVec Ideal S1x128 .f32) (v8 : Ideal .f32)
    (xk : Vec Ideal S1024x1x128 .f32) (r : Fin 1024) (d : Fin 128) :
    k1_pay38 v0 v2 v4 v6 v8 xk (ix2 r d)
      = Ideal.exp (-(max ((∑ e' : Fin 128, max (xk (ix3 r 0 e') - v2 (ix2 r e') + v4 (ix2 0 e')) 0 * v6 (ix2 0 e')) + v8) 0)) * v0 (ix2 r d) := by
  unfold k1_pay38
  simp only [mulf_apply, bcast_col_apply]
  show Ideal.exp (Ideal.ofBits .f32 0x00000000#32 - max (shapeCast S1024x1 _ shapeCasts_S1024_S1024x1 (ix2 r 0) + v8) (Ideal.ofBits .f32 0x00000000#32)) * v0 (ix2 r d) = _
  rw [lanesum_col_apply, Ideal.ofBits_zero_f32, zero_sub]
  refine congrArg (fun s => Ideal.exp (-(max (s + v8) 0)) * v0 (ix2 r d)) (Finset.sum_congr rfl fun e' _ => ?_)
  simp only [mulf_apply, maximumf_apply, addf_apply, subf_apply, broadcast_apply, bcast_row_apply, cast_slice_apply, zeroWord]

/-! ## The sixteen-step sum and maximum -/

/-- A maximum over n + 1 indices is the maximum over the first n joined with the last. -/
theorem sup_castSucc {n : Nat} (f : Fin (n + 1) → EReal) :
    Finset.univ.sup f = max (Finset.univ.sup fun i : Fin n => f i.castSucc) (f (Fin.last n)) := by
  refine le_antisymm (Finset.sup_le fun i _ => ?_) (max_le (Finset.sup_le fun j _ => ?_) ?_)
  · refine Fin.lastCases ?_ (fun j => ?_) i
    · exact le_max_right _ _
    · exact le_max_of_le_left (Finset.le_sup (f := fun i : Fin n => f i.castSucc) (Finset.mem_univ j))
  · exact Finset.le_sup (f := f) (Finset.mem_univ _)
  · exact Finset.le_sup (f := f) (Finset.mem_univ _)

/-- The −∞ word is the bottom of the extended reals. -/
theorem negInfWord : (FloatOps.ofBits (F := Ideal) .f32 0xFF800000#32) = (⊥ : EReal) := by
  show Ideal.ofBits .f32 0xFF800000#32 = ⊥
  simp [Ideal.ofBits, Ideal.ieee]

/-- Sixteen tiles added up from zero: at an index, the sum over the sixteen. -/
theorem sumChain_apply (m : Fin 16 → FVec Ideal S1024x128 .f32) (i : S1024x128.Idx) :
    sumChain m i = ∑ k : Fin 16, m k i := by
  have h : (∑ k : Fin 16, m k i) = 0 + m 0 i + m 1 i + m 2 i + m 3 i + m 4 i + m 5 i + m 6 i + m 7 i + m 8 i + m 9 i
      + m 10 i + m 11 i + m 12 i + m 13 i + m 14 i + m 15 i := by
    simp only [Fin.sum_univ_castSucc, Fin.sum_univ_zero]; rfl
  rw [h, ← zeroWord]; rfl

/-- Sixteen tiles maximised from −∞: at an index, the maximum over the sixteen. -/
theorem maxChain_apply (m : Fin 16 → FVec Ideal S1024x128 .f32) (i : S1024x128.Idx) :
    maxChain m i = Finset.univ.sup fun k : Fin 16 => m k i := by
  have h : (Finset.univ.sup fun k : Fin 16 => m k i) = max (max (max (max (max (max (max (max (max (max (max (max (max (max (max (max
      ⊥ (m 0 i)) (m 1 i)) (m 2 i)) (m 3 i)) (m 4 i)) (m 5 i)) (m 6 i)) (m 7 i)) (m 8 i)) (m 9 i)) (m 10 i)) (m 11 i)) (m 12 i)) (m 13 i)) (m 14 i)) (m 15 i) := by
    simp only [sup_castSucc, Finset.univ_eq_empty, Finset.sup_empty]; rfl
  rw [h, ← negInfWord]; rfl

/-! ## Mean and maximum side by side, and the projection through OW -/

/-- Two rows × 128 tiles joined along the lanes: columns 0 … 127 read the first, 128 … 255 the second. -/
theorem cat_apply (a b : FVec Ideal S1024x128 .f32) (r : Fin 1024) (j : Fin 256) :
    concatenate S1024x256 1 [⟨S1024x128, a⟩, ⟨S1024x128, b⟩] concatenates_S1024x128_S1024x128_S1024x256_d1 (ix2 r j)
      = if hj : j.val < 128 then a (ix2 r ⟨j.val, hj⟩) else b (ix2 r ⟨j.val - 128, by omega⟩) := by
  split
  · next hj =>
    refine concatenate_pair_apply_left (1 : Fin S1024x256.rank) a b concatenates_S1024x128_S1024x128_S1024x256_d1 (ix2 r j) rfl
      (ix2 r ⟨j.val, hj⟩) fun bb => ?_
    match bb with
    | ⟨0, _⟩ => rfl
    | ⟨1, _⟩ => rfl
  · next hj =>
    refine concatenate_pair_apply_right (1 : Fin S1024x256.rank) a b concatenates_S1024x128_S1024x128_S1024x256_d1 (ix2 r j) rfl rfl
      (ix2 r ⟨j.val - 128, by omega⟩) (fun bb hb => ?_) ?_
    · match bb with
      | ⟨0, _⟩ => rfl
      | ⟨1, _⟩ => exact absurd rfl hb
    · show (j.val - 128) + 128 = j.val
      omega

/-- The joined tile's row coordinate under the product is the output's row. -/
theorem lhs_OW_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- The joined tile's column coordinate under the product is the contraction position. -/
theorem lhs_OW_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- OW's row coordinate under the product is the contraction position. -/
theorem rhs_OW_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- OW's column coordinate under the product is the output's column. -/
theorem rhs_OW_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product against OW at (r, e): the sum over the 256 joined columns. -/
theorem matmul_OW_apply (y : FVec Ideal S1024x256 .f32) (x6 : Vec Ideal S256x128 .f32) (r : Fin 1024) (e : Fin 128) :
    matmul (φ₂ := .f32) dot_S1024x256_S256x128_S1024x128_1_0_0_1_n_n (some .fp32) y x6 (constant S1024x128 .f32 0x00000000#32) (ix2 r e)
      = ∑ j : Fin 256, y (ix2 r j) * x6 (ix2 j e) := by
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r e) ((contrEquiv1 dot_S1024x256_S256x128_S1024x128_1_0_0_1_n_n 256 rfl rfl).symm k) = ix2 r k := funext fun a => Fin.ext (by
    match a with
    | ⟨0, _⟩ => exact lhs_OW_0 _ _
    | ⟨1, _⟩ => exact (lhs_OW_1 _ _).trans hk)
  have er : dot_S1024x256_S256x128_S1024x128_1_0_0_1_n_n.rhsIdx (ix2 r e) ((contrEquiv1 dot_S1024x256_S256x128_S1024x128_1_0_0_1_n_n 256 rfl rfl).symm k) = ix2 k e := funext fun a => Fin.ext (by
    match a with
    | ⟨0, _⟩ => exact (rhs_OW_0 _ _).trans hk
    | ⟨1, _⟩ => exact rhs_OW_1 _ _)
  rw [el, er]

/-- The tail of the body at (r, e): the row's own feature plus the joined aggregate through OW plus Ob. -/
theorem finishV_apply (x0 : Vec Ideal S1024x128 .f32) (sm mx : FVec Ideal S1024x128 .f32) (x6 : Vec Ideal S256x128 .f32)
    (x7 : Vec Ideal S1x128 .f32) (r : Fin 1024) (e : Fin 128) :
    finishV x0 sm mx x6 x7 (ix2 r e)
      = x0 (ix2 r e) + ((∑ j : Fin 256, (if hj : j.val < 128 then sm (ix2 r ⟨j.val, hj⟩) * w_inv16
          else mx (ix2 r ⟨j.val - 128, by omega⟩)) * x6 (ix2 j e)) + x7 (ix2 0 e)) := by
  unfold finishV
  rw [addf_apply, addf_apply, bcast_row_apply, shapeCast_self, matmul_OW_apply]
  refine congrArg (fun s => x0 (ix2 r e) + (s + x7 (ix2 0 e))) (Finset.sum_congr rfl fun j _ => ?_)
  rw [cat_apply]
  rfl

/-! ## The whole tile, and the column sums -/

/-- The own projections pass through a cast to their own shape unchanged. -/
theorem pay2_eq (x1 : Vec Ideal S1024x128 .f32) : k1_pay2 x1 = x1 := shapeCast_self _ _
/-- b1 passes through a cast to its own shape unchanged. -/
theorem pay3_eq (x3 : Vec Ideal S1x128 .f32) : k1_pay3 x3 = x3 := shapeCast_self _ _
/-- w2 passes through a cast to its own shape unchanged. -/
theorem pay4_eq (x4 : Vec Ideal S1x128 .f32) : k1_pay4 x4 = x4 := shapeCast_self _ _
/-- b2 is the one entry of its 1 × 1 block. -/
theorem pay5_eq (x5 : Vec Ideal S1x1 .f32) : k1_pay5 x5 = x5 (ix2 0 0) :=
  congrArg x5 (funext fun a => Fin.ext (by match a with | ⟨0, _⟩ => rfl | ⟨1, _⟩ => rfl))

/-- Neighbour k's message at (r, d), in the blocks' entries. -/
theorem msgV_apply (x0 x1 : Vec Ideal S1024x128 .f32) (x2 : Vec Ideal S1024x16x128 .f32) (x3 x4 : Vec Ideal S1x128 .f32)
    (x5 : Vec Ideal S1x1 .f32) (k : Fin 16) (r : Fin 1024) (d : Fin 128) :
    msgV x0 x1 x2 x3 x4 x5 k (ix2 r d)
      = Ideal.exp (-(max ((∑ e' : Fin 128, max (x2 (ix3 r k e') - x1 (ix2 r e') + x3 (ix2 0 e')) 0 * x4 (ix2 0 e')) + x5 (ix2 0 0)) 0))
          * x0 (ix2 r d) := by
  unfold msgV
  rw [pay38_apply, pay2_eq, pay3_eq, pay4_eq, pay5_eq]
  simp only [slc_apply]

/-- The stored tile as a vector, read at (r, e), is the tile function. -/
theorem tileV_apply (x0 x1 : Vec Ideal S1024x128 .f32) (x2 : Vec Ideal S1024x16x128 .f32) (x3 x4 : Vec Ideal S1x128 .f32)
    (x5 : Vec Ideal S1x1 .f32) (x6 : Vec Ideal S256x128 .f32) (x7 : Vec Ideal S1x128 .f32) (r : Fin 1024) (e : Fin 128) :
    tileV x0 x1 x2 x3 x4 x5 x6 x7 (ix2 r e) = tile x0 x1 x2 x3 x4 x5 x6 x7 r e := by
  unfold tileV tile
  rw [finishV_apply]
  dsimp only
  refine congrArg (fun s => x0 (ix2 r e) + (s + x7 (ix2 0 e))) (Finset.sum_congr rfl fun j _ => ?_)
  refine congrArg (· * x6 (ix2 j e)) ?_
  split
  · next hj => rw [sumChain_apply]; simp only [msgV_apply]
  · next hj => rw [maxChain_apply]; simp only [msgV_apply]

/-- The column sums of a rows × lanes tile, kept as 1 × 1 × lanes. -/
def colsumV (T : FVec Ideal S1024x128 .f32) : FVec Ideal S1x1x128 .f32 :=
  shapeCast S1x1x128 (shapeCast S1x128 (multiReduction .add [0] S128 T 0x00000000#32 reduces_S1024x128_S128 (.inl rfl) rfl)
    shapeCasts_S128_S1x128) shapeCasts_S1x128_S1x1x128

/-- At lane e the column sum is the sum over the 1024 rows. -/
theorem colsumV_apply (T : FVec Ideal S1024x128 .f32) (e : Fin 128) :
    colsumV T (ix3 0 0 e) = ∑ r : Fin 1024, T (ix2 r e) := by
  unfold colsumV
  refine (shapeCast_apply _ shapeCasts_S1x128_S1x1x128 (ix3 (0 : Fin 1) (0 : Fin 1) e) (ix2 (0 : Fin 1) e) (by
    rw [Shape.rowMajor_val_three, Shape.rowMajor_val_two]
    show 0 * 128 + e.val = (0 * 1 + 0) * 128 + e.val
    omega)).trans ?_
  refine (shapeCast_apply _ shapeCasts_S128_S1x128 (ix2 (0 : Fin 1) e) (ix1 e) (by
    rw [Shape.rowMajor_val_two, Shape.rowMajor_val_one]
    show e.val = 0 * 128 + e.val
    omega)).trans ?_
  refine (Ideal.multiReduction_add_single T 0x00000000#32 reduces_S1024x128_S128 (.inl rfl) rfl (ix1 e)).trans ?_
  refine Finset.sum_congr rfl fun r _ => congrArg T (funext fun c => Fin.ext ?_)
  match c with
  | ⟨0, _⟩ => rfl
  | ⟨1, _⟩ => rfl

/-! ## What the run leaves in each window, as vectors

In each control case the pieces the run finds are opened once; what is left is the body's own chain of vector
operations, which is the chain above written with one message function: the two agree by unfolding. -/

/-- Case A, the stored tile: the one covering store holds the tile vector. -/
theorem out1_A_8_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) :
    out1_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = tileV x0 x1 x2 x3 x4 x5 x6 x7 := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz]
  exact rfl

/-- Case B, the stored tile: the same vector; the accumulators are not read for it. -/
theorem out1_B_8_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) :
    out1_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = tileV x0 x1 x2 x3 x4 x5 x6 x7 := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz, harg11.read_unread, harg12.read_unread, View.ld_unit_zero (S := S1x1x128) hz3]
  exact rfl

/-- Case A, the sum accumulator: the zero tile written first, read back, plus the tile's column sums. -/
theorem out1_A_9_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) :
    out1_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7
      = addf (shapeCast S1x1x128 (k1_pay49 (F := Ideal)) shapeCasts_S1x1x128_S1x1x128) (colsumV (tileV x0 x1 x2 x3 x4 x5 x6 x7)) := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_cons_unit_zero (S := S1x1x128) hz3]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz, View.readCov_unit_zero (S := S1x1x128) _ hz3]
  exact rfl

/-- Case B, the sum accumulator: what the point before left, plus the tile's column sums. -/
theorem out1_B_9_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) :
    out1_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10
      = addf (shapeCast S1x1x128 xo9 shapeCasts_S1x1x128_S1x1x128) (colsumV (tileV x0 x1 x2 x3 x4 x5 x6 x7)) := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero (S := S1x1x128) hz3]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz, harg11.read_unread, harg12.read_unread, View.ld_unit_zero (S := S1x1x128) hz3]
  exact rfl

/-- Case A, the square accumulator: the zero tile written first, read back, plus the column sums of the squares. -/
theorem out1_A_10_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) :
    out1_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7
      = addf (shapeCast S1x1x128 (k1_pay50 (F := Ideal)) shapeCasts_S1x1x128_S1x1x128) (colsumV (mulf (tileV x0 x1 x2 x3 x4 x5 x6 x7) (tileV x0 x1 x2 x3 x4 x5 x6 x7))) := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_cons_unit_zero (S := S1x1x128) hz3]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz, View.readCov_unit_zero (S := S1x1x128) _ hz3]
  exact rfl

/-- Case B, the square accumulator: what the point before left, plus the column sums of the squares. -/
theorem out1_B_10_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) :
    out1_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10
      = addf (shapeCast S1x1x128 xo10 shapeCasts_S1x1x128_S1x1x128) (colsumV (mulf (tileV x0 x1 x2 x3 x4 x5 x6 x7) (tileV x0 x1 x2 x3 x4 x5 x6 x7))) := by
  have hz : (![0, 0] : Fin 2 → Nat) = fun _ => 0 := by funext a; match a with | ⟨0, _⟩ => rfl | ⟨1, _⟩ => rfl
  have hz3 : (![0, 0, 0] : Fin 3 → Nat) = fun _ => 0 := by funext a; match a with | ⟨0, _⟩ => rfl | ⟨1, _⟩ => rfl | ⟨2, _⟩ => rfl
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero (S := S1x1x128) hz3]
  simp only [View.readAt_eq_ld, harg2.read_unread, harg3.read_unread, harg4.read_unread, harg5.read_unread, harg6.read_unread, harg7.read_unread, harg8.read_unread, harg9.read_unread,
    View.ld_unit_zero (S := S1024x128) hz, View.ld_unit_zero (S := S1x128) hz, View.ld_unit_zero (S := S1x1) hz, View.ld_unit_zero (S := S256x128) hz, harg11.read_unread, harg12.read_unread, View.ld_unit_zero (S := S1x1x128) hz3]
  exact rfl

/-- The zero tile the sum accumulator is reset to reads 0 everywhere. -/
theorem pay49_apply (j : S1x1x128.Idx) : (k1_pay49 (F := Ideal)) j = (0 : EReal) := zeroWord

/-- The zero tile the square accumulator is reset to reads 0 everywhere. -/
theorem pay50_apply (j : S1x1x128.Idx) : (k1_pay50 (F := Ideal)) j = (0 : EReal) := zeroWord

end MsgB

/-- At a core's first point the stored tile is the tile function of the point's blocks. -/
theorem out1_A_8_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (r : Fin 1024) (e : Fin 128) :
    out1_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 r e) = tile x0 x1 x2 x3 x4 x5 x6 x7 r e := by
  exact (congrFun (MsgB.out1_A_8_eq c i arg2 harg2 arg3 harg3 arg4 harg4 arg5 harg5 arg6 harg6 arg7 harg7 arg8 harg8 arg9 harg9 arg10 harg10 arg11 harg11 arg12 harg12 hc0 x0 x1 x2 x3 x4 x5 x6 x7) (ix2 r e)).trans (MsgB.tileV_apply x0 x1 x2 x3 x4 x5 x6 x7 r e)

/-- At a later point the stored tile is the same function: it does not read the accumulators. -/
theorem out1_B_8_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) (r : Fin 1024) (e : Fin 128) :
    out1_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 (ix2 r e) = tile x0 x1 x2 x3 x4 x5 x6 x7 r e := by
  exact (congrFun (MsgB.out1_B_8_eq c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10) (ix2 r e)).trans (MsgB.tileV_apply x0 x1 x2 x3 x4 x5 x6 x7 r e)

/-- At a core's first point the sum accumulator is reset to 0 and then receives the tile's column sums. -/
theorem out1_A_9_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (e : Fin 128) :
    out1_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 0 0 e) = ∑ r : Fin 1024, tile x0 x1 x2 x3 x4 x5 x6 x7 r e := by
  refine (congrFun (MsgB.out1_A_9_eq c i arg2 harg2 arg3 harg3 arg4 harg4 arg5 harg5 arg6 harg6 arg7 harg7 arg8 harg8 arg9 harg9 arg10 harg10 arg11 harg11 arg12 harg12 hc0 x0 x1 x2 x3 x4 x5 x6 x7) (ix3 0 0 e)).trans ?_
  rw [addf_apply, shapeCast_self, MsgB.colsumV_apply, MsgB.pay49_apply, zero_add]
  exact Finset.sum_congr rfl fun r _ => MsgB.tileV_apply x0 x1 x2 x3 x4 x5 x6 x7 r e

/-- At a later point the sum accumulator receives the tile's column sums on top of what the point before left. -/
theorem out1_B_9_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) (e : Fin 128) :
    out1_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 (ix3 0 0 e) = xo9 (ix3 0 0 e) + ∑ r : Fin 1024, tile x0 x1 x2 x3 x4 x5 x6 x7 r e := by
  refine (congrFun (MsgB.out1_B_9_eq c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10) (ix3 0 0 e)).trans ?_
  rw [addf_apply, shapeCast_self, MsgB.colsumV_apply]
  exact congrArg (xo9 (ix3 0 0 e) + ·) (Finset.sum_congr rfl fun r _ => MsgB.tileV_apply x0 x1 x2 x3 x4 x5 x6 x7 r e)

/-- At a core's first point the square accumulator is reset to 0 and then receives the column sums of the squares. -/
theorem out1_A_10_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (e : Fin 128) :
    out1_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 0 0 e) = ∑ r : Fin 1024, tile x0 x1 x2 x3 x4 x5 x6 x7 r e * tile x0 x1 x2 x3 x4 x5 x6 x7 r e := by
  refine (congrFun (MsgB.out1_A_10_eq c i arg2 harg2 arg3 harg3 arg4 harg4 arg5 harg5 arg6 harg6 arg7 harg7 arg8 harg8 arg9 harg9 arg10 harg10 arg11 harg11 arg12 harg12 hc0 x0 x1 x2 x3 x4 x5 x6 x7) (ix3 0 0 e)).trans ?_
  rw [addf_apply, shapeCast_self, MsgB.colsumV_apply, MsgB.pay50_apply, zero_add]
  exact Finset.sum_congr rfl fun r _ => by rw [mulf_apply, MsgB.tileV_apply]

/-- At a later point the square accumulator receives the column sums of the squares on top of what the point before left. -/
theorem out1_B_10_apply (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x1x128 .f32) (harg11 : arg11.IsWhole) (arg12 : Memref sig .tc .vmem S1x1x128 .f32) (harg12 : arg12.IsWhole) (hc0 : ¬cond1_0 i) (x0 : Vec Ideal S1024x128 .f32) (x1 : Vec Ideal S1024x128 .f32) (x2 : Vec Ideal S1024x16x128 .f32) (x3 : Vec Ideal S1x128 .f32) (x4 : Vec Ideal S1x128 .f32) (x5 : Vec Ideal S1x1 .f32) (x6 : Vec Ideal S256x128 .f32) (x7 : Vec Ideal S1x128 .f32) (xo9 : Vec Ideal S1x1x128 .f32) (xo10 : Vec Ideal S1x1x128 .f32) (e : Fin 128) :
    out1_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 (ix3 0 0 e) = xo10 (ix3 0 0 e) + ∑ r : Fin 1024, tile x0 x1 x2 x3 x4 x5 x6 x7 r e * tile x0 x1 x2 x3 x4 x5 x6 x7 r e := by
  refine (congrFun (MsgB.out1_B_10_eq c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10) (ix3 0 0 e)).trans ?_
  rw [addf_apply, shapeCast_self, MsgB.colsumV_apply]
  exact congrArg (xo10 (ix3 0 0 e) + ·) (Finset.sum_congr rfl fun r _ => by rw [mulf_apply, MsgB.tileV_apply])

end Cert.KernelIdeal.Val

end
-- ==== Proof.KI.MsgGrid.lean ====
/-
  The second launch over its 2 × 16 grid. Point t = 16·c + i works on rows 1024·t … 1024·t + 1023 (core c walks its
  own half of the rows tile by tile), so the stored tiles cover the pre-normalisation array; core c's accumulator block
  is reset at i = 0 and gains one tile's column sums per point, so after the run it holds the column sums over core
  c's 16384 rows.
-/
import proofs.«419117_j60533269069902_3_alg».proof.Proof.Gen.KernelIdeal.Frame
import proofs.«419117_j60533269069902_3_alg».proof.Proof.Math.Inputs
import proofs.«419117_j60533269069902_3_alg».proof.Proof.KI.MsgBody
import Idealize.ShloMosaic.Lib.ValueIdx
import Idealize.ShloMosaic.Lib.Pipeline.Value
import Idealize.ShloMosaic.PureOps.Ideal.Laws
import Mathlib.Algebra.BigOperators.Group.Finset.Basic

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

variable (V : (c : Dev nD) → (b : Ref sig .tc) → Buf (Elt Ideal) ((c : Thread nD τ).loc b))

namespace msgg

/-! ## Sums over runs of consecutive node rows -/

/-- The node rows n with a ≤ n < b. -/
def seg (a b : ℕ) : Finset (Fin 32768) := Finset.univ.filter fun n => a ≤ n.val ∧ n.val < b

theorem mem_seg {a b : ℕ} {n : Fin 32768} : n ∈ seg a b ↔ a ≤ n.val ∧ n.val < b := by
  unfold seg; rw [Finset.mem_filter]; exact ⟨fun h => h.2, fun h => ⟨Finset.mem_univ _, h⟩⟩

/-- A run a … d − 1 cut at b: the sum over it is the sum over a … b − 1 plus the sum over b … d − 1. -/
theorem sum_seg_append (f : Fin 32768 → EReal) {a b d : ℕ} (hab : a ≤ b) (hbd : b ≤ d) :
    ∑ n ∈ seg a d, f n = ∑ n ∈ seg a b, f n + ∑ n ∈ seg b d, f n := by
  have hdisj : Disjoint (seg a b) (seg b d) := by
    rw [Finset.disjoint_left]
    intro n h1 h2
    rw [mem_seg] at h1 h2
    omega
  have hunion : seg a d = seg a b ∪ seg b d := by
    ext n
    rw [Finset.mem_union, mem_seg, mem_seg, mem_seg]
    omega
  rw [hunion, Finset.sum_union hdisj]

/-- The run of the 1024 rows of tile t, summed, is the sum over the tile's rows r of row 1024·t + r. -/
theorem sum_seg_tile (f : Fin 32768 → EReal) (t : ℕ) (ht : t < 32) :
    ∑ n ∈ seg (1024 * t) (1024 * (t + 1)), f n = ∑ r : Fin 1024, f ⟨1024 * t + r.val, by have := r.isLt; omega⟩ := by
  symm
  refine Finset.sum_bij (fun r _ => (⟨1024 * t + r.val, by have := r.isLt; omega⟩ : Fin 32768)) ?_ ?_ ?_ ?_
  · intro r _
    rw [mem_seg]
    have := r.isLt
    dsimp only
    omega
  · intro r _ r' _ h
    have := congrArg Fin.val h
    dsimp only at this
    exact Fin.ext (by omega)
  · intro n hn
    rw [mem_seg] at hn
    exact ⟨⟨n.val - 1024 * t, by omega⟩, Finset.mem_univ _, Fin.ext (by dsimp only; omega)⟩
  · intro r _
    rfl

/-- Core c' owns the run 16384·c' … 16384·c' + 16383. -/
theorem coreSum_eq_seg (v : Fin 32768 → Fin 128 → EReal) (c' : Fin 2) (e : Fin 128) :
    coreSum v c' e = ∑ n ∈ seg (16384 * c'.val) (16384 * (c'.val + 1)), v n e := by
  unfold coreSum seg
  refine Finset.sum_congr ?_ fun _ _ => rfl
  ext n
  rw [Finset.mem_filter, Finset.mem_filter]
  have := n.isLt
  have := c'.isLt
  constructor
  · rintro ⟨h1, h2⟩; exact ⟨h1, by omega⟩
  · rintro ⟨h1, h2⟩; exact ⟨h1, by omega⟩

/-- A quantity carried along the points that is reset to the tile's sum at every 16th point and otherwise gains the
    tile's sum: after point n it is the sum over the rows from the start of n's core up to the end of tile n. -/
theorem acc_run {N : ℕ} (f : (n : ℕ) → n < N → EReal) (g : Fin 32768 → EReal)
    (hA : ∀ (n : ℕ) (h : n < N), n % 16 = 0 → f n h = ∑ m ∈ seg (1024 * n) (1024 * (n + 1)), g m)
    (hS : ∀ (n : ℕ) (h : n + 1 < N), ¬(n + 1) % 16 = 0 →
      f (n + 1) h = f n (Nat.lt_of_succ_lt h) + ∑ m ∈ seg (1024 * (n + 1)) (1024 * (n + 1 + 1)), g m) :
    ∀ (n : ℕ) (h : n < N), f n h = ∑ m ∈ seg (16384 * (n / 16)) (1024 * (n + 1)), g m
  | 0, h => by
    rw [hA 0 h rfl]
  | n + 1, h => by
    by_cases h16 : (n + 1) % 16 = 0
    · rw [hA (n + 1) h h16, show 16384 * ((n + 1) / 16) = 1024 * (n + 1) by omega]
    · rw [hS n h h16, acc_run f g hA hS n (Nat.lt_of_succ_lt h),
        show 16384 * ((n + 1) / 16) = 16384 * (n / 16) by omega]
      exact (sum_seg_append g (by omega) (by omega)).symm

/-- Where the windows of the second launch sit at point t: the three tiled inputs and the stored tile at row block t,
    the parameter windows at their one block, the two accumulators at block t / 16. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 3) = t.val / 16 ∧ win1_9.index t (1 : Fin 3) = 0 ∧ win1_9.index t (2 : Fin 3) = 0
    ∧ win1_10.index t (0 : Fin 3) = t.val / 16 ∧ win1_10.index t (1 : Fin 3) = 0 ∧ win1_10.index t (2 : Fin 3) = 0 :=
  (by decide +kernel : ∀ t : Fin grid1.N, _)

/-- The node row that row r of point t's tile is: 1024·t + r. -/
def rowAt (t : Fin cfg1.N) (r : Fin 1024) : Fin 32768 :=
  ⟨1024 * t.val + r.val, by have := t.isLt; have hN : cfg1.N = 32 := N_1; omega⟩

/-! ## The windows' blocks, read at their coordinates -/

/-- Row r of point t's block of the node features is node row 1024·t + r. -/
theorem blk0_apply (c : Dev nD) (t : Fin cfg1.N) (r : Fin 1024) (d : Fin 128) :
    iblk1 (F := Ideal) V c 0 t (ix2 r d) = V c main_arg0 (ix2 (rowAt t r) d) := by
  obtain ⟨e0, e1, -⟩ := idx_facts t
  unfold iblk1
  rw [View.read_apply]
  show V c main_arg0 (((cfg1.win 0).blk t).view.emb (ix2 r d)) = _
  refine congrArg (V c main_arg0) ?_
  funext a; apply Fin.ext
  match a with
  | ⟨0, _⟩ => show win1_0.index t (0 : Fin 2) * 1024 + 1 * r.val = 1024 * t.val + r.val; rw [e0]; omega
  | ⟨1, _⟩ => show win1_0.index t (1 : Fin 2) * 128 + 1 * d.val = d.val; rw [e1]; omega

/-- Row r of point t's block of the projections is node row 1024·t + r. -/
theorem blk1_apply (c : Dev nD) (t : Fin cfg1.N) (r : Fin 1024) (e : Fin 128) :
    iblk1 (F := Ideal) V c 1 t (ix2 r e) = V c main_v0 (ix2 (rowAt t r) e) := by
  obtain ⟨-, -, e0, e1, -⟩ := idx_facts t
  unfold iblk1
  rw [View.read_apply]
  show V c main_v0 (((cfg1.win 1).blk t).view.emb (ix2 r e)) = _
  refine congrArg (V c main_v0) ?_
  funext a; apply Fin.ext
  match a with
  | ⟨0, _⟩ => show win1_1.index t (0 : Fin 2) * 1024 + 1 * r.val = 1024 * t.val + r.val; rw [e0]; omega
  | ⟨1, _⟩ => show win1_1.index t (1 : Fin 2) * 128 + 1 * e.val = e.val; rw [e1]; omega

/-- Row r of point t's block of the gathered neighbour projections is node row 1024·t + r, all 16 neighbours. -/
theorem blk2_apply (c : Dev nD) (t : Fin cfg1.N) (r : Fin 1024) (k : Fin 16) (e : Fin 128) :
    iblk1 (F := Ideal) V c 2 t (ix3 r k e) = V c main_v1 (ix3 (rowAt t r) k e) := by
  obtain ⟨-, -, -, -, e0, e1, e2, -⟩ := idx_facts t
  unfold iblk1
  rw [View.read_apply]
  show V c main_v1 (((cfg1.win 2).blk t).view.emb (ix3 r k e)) = _
  refine congrArg (V c main_v1) ?_
  funext a; apply Fin.ext
  match a with
  | ⟨0, _⟩ => show win1_2.index t (0 : Fin 3) * 1024 + 1 * r.val = 1024 * t.val + r.val; rw [e0]; omega
  | ⟨1, _⟩ => show win1_2.index t (1 : Fin 3) * 16 + 1 * k.val = k.val; rw [e1]; omega
  | ⟨2, _⟩ => show win1_2.index t (2 : Fin 3) * 128 + 1 * e.val = e.val; rw [e2]; omega

/-- The first bias row's block is the whole row at every point. -/
theorem blk3_apply (c : Dev nD) (t : Fin cfg1.N) (e : Fin 128) :
    iblk1 (F := Ideal) V c 3 t (ix2 0 e) = V c main_v2 (ix2 0 e) := by
  obtain ⟨-, -, -, -, -, -, -, e0, e1, -⟩ := idx_facts t
  unfold iblk1
  rw [View.read_apply]
  show V c main_v2 (((cfg1.win 3).blk t).view.emb (ix2 0 e)) = _
  refine congrArg (V c main_v2) ?_
  funext a; apply Fin.ext
  match a with
  | ⟨0, _⟩ => show win1_3.index t (0 : Fin 2) * 1 + 1 * 0 = 0; rw [e0]
  | ⟨1, _⟩ => show win1_3.index t (1 : Fin 2) * 128 + 1 * e.val = e.val; rw [e1]; omega

/-- The second layer's weight row's block is the whole row at every point. -/
theorem blk4_apply (c : Dev nD) (t : Fin cfg1.N) (e : Fin 128) :
    iblk1 (F := Ideal) V c 4 t (ix2 0 e) = V c main_v3 (ix2 0 e) := by
  obtain ⟨-, -, -, -, -, -, -, -, -, e0, e1, -⟩ := idx_facts t
  unfold iblk1
  rw [View.read_apply]
  show V c main_v3 (((cfg1.win 4).blk t).view.emb (ix2 0 e)) = _
  refine congrArg (V c main_v3) ?_
  funext a; apply Fin.ext
  match a with
  | ⟨0, _⟩ => show win1_4.index t (0 : Fin 2) * 1 + 1 * 0 = 0; rw [e0]
  | ⟨1, _⟩ => show win1_4.index t (1 : Fin 2) * 128 + 1 * e.val = e.val; rw [e1]; omega

/-- The second layer's bias is one entry, the same at every point. -/
theorem blk5_apply (c : Dev nD) (t : Fin cfg1.N) :
    iblk1 (F := Ideal) V c 5 t (ix2 0 0) = V c main_v4 (ix2 0 0) := by
  obtain ⟨-, -, -, -, -, -, -, -, -, -, -, e0, e1, -⟩ := idx_facts t
  unfold iblk1
  rw [View.read_apply]
  show V c main_v4 (((cfg1.win 5).blk t).view.emb (ix2 0 0)) = _
  refine congrArg (V c main_v4) ?_
  funext a; apply Fin.ext
  match a with
  | ⟨0, _⟩ => show win1_5.index t (0 : Fin 2) * 1 + 1 * 0 = 0; rw [e0]
  | ⟨1, _⟩ => show win1_5.index t (1 : Fin 2) * 1 + 1 * 0 = 0; rw [e1]

/-- The aggregate's projection matrix is one block, the same at every point. -/
theorem blk6_apply (c : Dev nD) (t : Fin cfg1.N) (j : Fin 256) (e : Fin 128) :
    iblk1 (F := Ideal) V c 6 t (ix2 j e) = V c main_arg6 (ix2 j e) := by
  obtain ⟨-, -, -, -, -, -, -, -, -, -, -, -, -, e0, e1, -⟩ := idx_facts t
  unfold iblk1
  rw [View.read_apply]
  show V c main_arg6 (((cfg1.win 6).blk t).view.emb (ix2 j e)) = _
  refine congrArg (V c main_arg6) ?_
  funext a; apply Fin.ext
  match a with
  | ⟨0, _⟩ => show win1_6.index t (0 : Fin 2) * 256 + 1 * j.val = j.val; rw [e0]; omega
  | ⟨1, _⟩ => show win1_6.index t (1 : Fin 2) * 128 + 1 * e.val = e.val; rw [e1]; omega

/-- The aggregate's bias row's block is the whole row at every point. -/
theorem blk7_apply (c : Dev nD) (t : Fin cfg1.N) (e : Fin 128) :
    iblk1 (F := Ideal) V c 7 t (ix2 0 e) = V c main_v5 (ix2 0 e) := by
  obtain ⟨-, -, -, -, -, -, -, -, -, -, -, -, -, -, -, e0, e1, -⟩ := idx_facts t
  unfold iblk1
  rw [View.read_apply]
  show V c main_v5 (((cfg1.win 7).blk t).view.emb (ix2 0 e)) = _
  refine congrArg (V c main_v5) ?_
  funext a; apply Fin.ext
  match a with
  | ⟨0, _⟩ => show win1_7.index t (0 : Fin 2) * 1 + 1 * 0 = 0; rw [e0]
  | ⟨1, _⟩ => show win1_7.index t (1 : Fin 2) * 128 + 1 * e.val = e.val; rw [e1]; omega

/-! ## One tile, as the specification's rows -/

/-- The tile function of blocks that hold, row by row, the node rows n r of the inputs and of the projections is the
    pre-normalisation array at those rows: the two are the same formula, stage by stage. -/
theorem tile_eq_pre1K (I : In) (n : Fin 1024 → Fin 32768)
    (x0 x1 : Vec Ideal S1024x128 .f32) (x2 : Vec Ideal S1024x16x128 .f32) (x3 x4 : Vec Ideal S1x128 .f32)
    (x5 : Vec Ideal S1x1 .f32) (x6 : Vec Ideal S256x128 .f32) (x7 : Vec Ideal S1x128 .f32)
    (hx0 : ∀ r d, x0 (ix2 r d) = I.h (n r) d)
    (hx1 : ∀ r e, x1 (ix2 r e) = proj I (n r) e)
    (hx2 : ∀ r k e, x2 (ix3 r k e) = proj I (I.nb (n r) k) e)
    (hx3 : ∀ e, x3 (ix2 0 e) = I.b1 e) (hx4 : ∀ e, x4 (ix2 0 e) = I.W2 e) (hx5 : x5 (ix2 0 0) = I.b2)
    (hx6 : ∀ j e, x6 (ix2 j e) = I.OW j e) (hx7 : ∀ e, x7 (ix2 0 e) = I.Ob e) (r : Fin 1024) (e : Fin 128) :
    tile x0 x1 x2 x3 x4 x5 x6 x7 r e = pre1K I (n r) e := by
  unfold tile pre1K pre1Of catOf meanK maxOf msgOf attOf hidK
  simp only [hx0, hx1, hx2, hx3, hx4, hx5, hx6, hx7]

/-- The tile function at point t's input blocks. -/
def tileAt (c : Dev nD) (t : Fin cfg1.N) (r : Fin 1024) (e : Fin 128) : EReal :=
  tile (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) r e

/-- From entry contents that hold the specification's stages, point t's tile is rows 1024·t … 1024·t + 1023 of the
    pre-normalisation array. -/
theorem tileAt_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (t : Fin cfg1.N) (r : Fin 1024) (e : Fin 128) : tileAt V c t r e = pre1K I (rowAt t r) e :=
  tile_eq_pre1K I (rowAt t) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t)
    (fun r d => (blk0_apply V c t r d).trans (h0 _ _))
    (fun r e => (blk1_apply V c t r e).trans (h1 _ _))
    (fun r k e => (blk2_apply V c t r k e).trans (h2 _ _ _))
    (fun e => (blk3_apply V c t e).trans (h3 e))
    (fun e => (blk4_apply V c t e).trans (h4 e))
    ((blk5_apply V c t).trans h5)
    (fun j e => (blk6_apply V c t j e).trans (h6 j e))
    (fun e => (blk7_apply V c t e).trans (h7 e)) r e

/-! ## What a point leaves, read off the two control cases -/

/-- At a core's first point the stored tile is the tile function of the point's blocks. -/
theorem at_A_8 (c : Dev nD) (t : Fin cfg1.N) (hA : t.val % 16 = 0) (r : Fin 1024) (e : Fin 128) :
    (outsAt1 (F := Ideal) V c t.val t.isLt).1 (ix2 r e) = tileAt V c t r e := by
  rw [outsAt1_A V c t hA]
  dsimp only
  exact out1_A_8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr hA) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) r e

/-- At a later point too. -/
theorem at_B_8 (c : Dev nD) (t : Fin cfg1.N) (hB : ¬t.val % 16 = 0) (r : Fin 1024) (e : Fin 128) :
    (outsAt1 (F := Ideal) V c t.val t.isLt).1 (ix2 r e) = tileAt V c t r e := by
  rw [outsAt1_B V c t hB]
  dsimp only
  exact out1_B_8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => hB ((hcond1_0 t).mp h)) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t)
    (outsAt1 (F := Ideal) V c (t.val - 1) (Nat.lt_of_le_of_lt (Nat.sub_le _ _) t.isLt)).2.1
    (outsAt1 (F := Ideal) V c (t.val - 1) (Nat.lt_of_le_of_lt (Nat.sub_le _ _) t.isLt)).2.2 r e

/-- At a core's first point the sum accumulator holds the tile's column sums. -/
theorem at_A_9 (c : Dev nD) (t : Fin cfg1.N) (hA : t.val % 16 = 0) (e : Fin 128) :
    (outsAt1 (F := Ideal) V c t.val t.isLt).2.1 (ix3 0 0 e) = ∑ r : Fin 1024, tileAt V c t r e := by
  rw [outsAt1_A V c t hA]
  dsimp only
  exact out1_A_9_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr hA) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) e

/-- At a later point it holds what the point before left plus the tile's column sums. -/
theorem at_B_9 (c : Dev nD) (t : Fin cfg1.N) (hB : ¬t.val % 16 = 0) (e : Fin 128) :
    (outsAt1 (F := Ideal) V c t.val t.isLt).2.1 (ix3 0 0 e)
      = (outsAt1 (F := Ideal) V c (t.val - 1) (Nat.lt_of_le_of_lt (Nat.sub_le _ _) t.isLt)).2.1 (ix3 0 0 e)
        + ∑ r : Fin 1024, tileAt V c t r e := by
  rw [outsAt1_B V c t hB]
  dsimp only
  exact out1_B_9_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => hB ((hcond1_0 t).mp h)) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t)
    (outsAt1 (F := Ideal) V c (t.val - 1) (Nat.lt_of_le_of_lt (Nat.sub_le _ _) t.isLt)).2.1
    (outsAt1 (F := Ideal) V c (t.val - 1) (Nat.lt_of_le_of_lt (Nat.sub_le _ _) t.isLt)).2.2 e

/-- At a core's first point the square accumulator holds the column sums of the tile's squares. -/
theorem at_A_10 (c : Dev nD) (t : Fin cfg1.N) (hA : t.val % 16 = 0) (e : Fin 128) :
    (outsAt1 (F := Ideal) V c t.val t.isLt).2.2 (ix3 0 0 e) = ∑ r : Fin 1024, tileAt V c t r e * tileAt V c t r e := by
  rw [outsAt1_A V c t hA]
  dsimp only
  exact out1_A_10_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr hA) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) e

/-- At a later point it holds what the point before left plus the column sums of the tile's squares. -/
theorem at_B_10 (c : Dev nD) (t : Fin cfg1.N) (hB : ¬t.val % 16 = 0) (e : Fin 128) :
    (outsAt1 (F := Ideal) V c t.val t.isLt).2.2 (ix3 0 0 e)
      = (outsAt1 (F := Ideal) V c (t.val - 1) (Nat.lt_of_le_of_lt (Nat.sub_le _ _) t.isLt)).2.2 (ix3 0 0 e)
        + ∑ r : Fin 1024, tileAt V c t r e * tileAt V c t r e := by
  rw [outsAt1_B V c t hB]
  dsimp only
  exact out1_B_10_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => hB ((hcond1_0 t).mp h)) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t)
    (outsAt1 (F := Ideal) V c (t.val - 1) (Nat.lt_of_le_of_lt (Nat.sub_le _ _) t.isLt)).2.1
    (outsAt1 (F := Ideal) V c (t.val - 1) (Nat.lt_of_le_of_lt (Nat.sub_le _ _) t.isLt)).2.2 e

/-! ## The run over the points -/

/-- Every point's stored tile is its 1024 rows of the pre-normalisation array. -/
theorem stored_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (t : Fin cfg1.N) (r : Fin 1024) (e : Fin 128) :
    (outsAt1 (F := Ideal) V c t.val t.isLt).1 (ix2 r e) = pre1K I (rowAt t r) e := by
  by_cases hA : t.val % 16 = 0
  · exact (at_A_8 V c t hA r e).trans (tileAt_eq V c I h0 h1 h2 h3 h4 h5 h6 h7 t r e)
  · exact (at_B_8 V c t hA r e).trans (tileAt_eq V c I h0 h1 h2 h3 h4 h5 h6 h7 t r e)

/-- The column sums of point n's tile are the sums of the pre-normalisation array over rows 1024·n … 1024·n + 1023. -/
theorem tile_sum_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (n : ℕ) (h : n < cfg1.N) (e : Fin 128) :
    ∑ r : Fin 1024, tileAt V c ⟨n, h⟩ r e = ∑ m ∈ seg (1024 * n) (1024 * (n + 1)), pre1K I m e := by
  have hN : cfg1.N = 32 := N_1
  rw [sum_seg_tile (fun m => pre1K I m e) n (by omega)]
  exact Finset.sum_congr rfl fun r _ => tileAt_eq V c I h0 h1 h2 h3 h4 h5 h6 h7 ⟨n, h⟩ r e

/-- The same for the squares. -/
theorem tile_sqsum_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (n : ℕ) (h : n < cfg1.N) (e : Fin 128) :
    ∑ r : Fin 1024, tileAt V c ⟨n, h⟩ r e * tileAt V c ⟨n, h⟩ r e
      = ∑ m ∈ seg (1024 * n) (1024 * (n + 1)), pre1K I m e * pre1K I m e := by
  have hN : cfg1.N = 32 := N_1
  rw [sum_seg_tile (fun m => pre1K I m e * pre1K I m e) n (by omega)]
  exact Finset.sum_congr rfl fun r _ => congrArg₂ (fun a b : EReal => a * b)
    (tileAt_eq V c I h0 h1 h2 h3 h4 h5 h6 h7 ⟨n, h⟩ r e) (tileAt_eq V c I h0 h1 h2 h3 h4 h5 h6 h7 ⟨n, h⟩ r e)

/-- After point n the sum accumulator holds the column sums over the rows from the start of n's core to the end of
    tile n: reset at the core's first point, one tile gained at each later one. -/
theorem acc9_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (e : Fin 128) : ∀ (n : ℕ) (h : n < cfg1.N),
    (outsAt1 (F := Ideal) V c n h).2.1 (ix3 0 0 e) = ∑ m ∈ seg (16384 * (n / 16)) (1024 * (n + 1)), pre1K I m e :=
  acc_run (fun n h => (outsAt1 (F := Ideal) V c n h).2.1 (ix3 0 0 e)) (fun m => pre1K I m e)
    (fun n h hA => (at_A_9 V c ⟨n, h⟩ hA e).trans (tile_sum_eq V c I h0 h1 h2 h3 h4 h5 h6 h7 n h e))
    (fun n h hB => by
      have := at_B_9 V c ⟨n + 1, h⟩ hB e
      rw [tile_sum_eq V c I h0 h1 h2 h3 h4 h5 h6 h7 (n + 1) h e] at this
      exact this)

/-- After point n the square accumulator holds the column sums of the squares over the same rows. -/
theorem acc10_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (e : Fin 128) : ∀ (n : ℕ) (h : n < cfg1.N),
    (outsAt1 (F := Ideal) V c n h).2.2 (ix3 0 0 e)
      = ∑ m ∈ seg (16384 * (n / 16)) (1024 * (n + 1)), pre1K I m e * pre1K I m e :=
  acc_run (fun n h => (outsAt1 (F := Ideal) V c n h).2.2 (ix3 0 0 e)) (fun m => pre1K I m e * pre1K I m e)
    (fun n h hA => (at_A_10 V c ⟨n, h⟩ hA e).trans (tile_sqsum_eq V c I h0 h1 h2 h3 h4 h5 h6 h7 n h e))
    (fun n h hB => by
      have := at_B_10 V c ⟨n + 1, h⟩ hB e
      rw [tile_sqsum_eq V c I h0 h1 h2 h3 h4 h5 h6 h7 (n + 1) h e] at this
      exact this)

/-! ## The write-backs, and the arrays after the launch -/

/-- The pre-normalisation array, as contents of the first output array. -/
def G8 (I : In) : S32768x128.Idx → EReal := fun i => pre1K I (i 0) (i 1)

/-- Per core the column sums of the pre-normalisation array, as contents of the second output array. -/
def G9 (I : In) : S2x1x128.Idx → EReal := fun i => coreSum (pre1K I) (i 0) (i 2)

/-- Per core the column sums of its square, as contents of the third output array. -/
def G10 (I : In) : S2x1x128.Idx → EReal := fun i => coreSum (fun n e => pre1K I n e * pre1K I n e) (i 0) (i 2)

/-- What point t writes back to the first output array is block t of the pre-normalisation array. -/
theorem flushed8_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (t : Fin cfg1.N) :
    (dat1 (F := Ideal) V c).flushed 8 t = ((cfg1.win 8).blk t).view.read (Elt Ideal) (G8 I) := by
  obtain ⟨-, -, -, -, -, -, -, -, -, -, -, -, -, -, -, -, -, e0, e1, -⟩ := idx_facts t
  show (cfg1.win 8).cut (grid1.coords t) ((dat1 (F := Ideal) V c).after 8 t) = _
  rw [after1_8]
  funext y
  obtain ⟨r, e, rfl⟩ : ∃ (r : Fin 1024) (e : Fin 128), y = ix2 r e := ⟨y 0, y 1, eq_ix2 y⟩
  rw [View.read_apply]
  show (outsAt1 (F := Ideal) V c t.val t.isLt).1 (ix2 r e) = G8 I (((cfg1.win 8).blk t).view.emb (ix2 r e))
  rw [stored_eq V c I h0 h1 h2 h3 h4 h5 h6 h7 t r e]
  show pre1K I (rowAt t r) e = pre1K I _ _
  congr 1
  · apply Fin.ext
    show 1024 * t.val + r.val = win1_8.index t (0 : Fin 2) * 1024 + 1 * r.val
    rw [e0]; omega
  · apply Fin.ext
    show e.val = win1_8.index t (1 : Fin 2) * 128 + 1 * e.val
    rw [e1]; omega

/-- What a core's last point writes back to the second output array is the core's block of the column sums: by then the
    accumulator has gained all 16 tiles of the core. Here G is any contents of the array that at (c', 0, e) is core c' 's
    column sum of column e. -/
theorem flushed9_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (G : S2x1x128.Idx → EReal) (hG : ∀ (c' : Fin 2) (e : Fin 128), G (ix3 c' 0 e) = coreSum (pre1K I) c' e)
    (t : Fin cfg1.N) (hf : (cfg1.win 9).flush t = true) :
    (dat1 (F := Ideal) V c).flushed 9 t = ((cfg1.win 9).blk t).view.read (Elt Ideal) G := by
  have hN : cfg1.N = 32 := N_1
  have h15 : t.val % 16 = 15 := (flush1_9 t).mp hf
  have htl := t.isLt
  obtain ⟨-, -, -, -, -, -, -, -, -, -, -, -, -, -, -, -, -, -, -, e0, e1, e2, -⟩ := idx_facts t
  show (cfg1.win 9).cut (grid1.coords t) ((dat1 (F := Ideal) V c).after 9 t) = _
  rw [after1_9]
  funext y
  obtain ⟨a, b, e, rfl⟩ : ∃ (a b : Fin 1) (e : Fin 128), y = ix3 a b e := ⟨y 0, y 1, y 2, eq_ix3 y⟩
  obtain rfl : a = 0 := Subsingleton.elim _ _
  obtain rfl : b = 0 := Subsingleton.elim _ _
  rw [View.read_apply]
  have hemb : ((cfg1.win 9).blk t).view.emb (ix3 0 0 e) = ix3 (⟨t.val / 16, by omega⟩ : Fin 2) 0 e := by
    funext a; apply Fin.ext
    match a with
    | ⟨0, _⟩ => show win1_9.index t (0 : Fin 3) * 1 + 1 * 0 = t.val / 16; rw [e0]; omega
    | ⟨1, _⟩ => show win1_9.index t (1 : Fin 3) * 1 + 1 * 0 = 0; rw [e1]
    | ⟨2, _⟩ => show win1_9.index t (2 : Fin 3) * 128 + 1 * e.val = e.val; rw [e2]; omega
  show (outsAt1 (F := Ideal) V c t.val t.isLt).2.1 (ix3 0 0 e) = G (((cfg1.win 9).blk t).view.emb (ix3 0 0 e))
  rw [hemb, hG, acc9_eq V c I h0 h1 h2 h3 h4 h5 h6 h7 e t.val t.isLt, coreSum_eq_seg]
  show ∑ m ∈ seg (16384 * (t.val / 16)) (1024 * (t.val + 1)), pre1K I m e
    = ∑ m ∈ seg (16384 * (t.val / 16)) (16384 * (t.val / 16 + 1)), pre1K I m e
  rw [show 1024 * (t.val + 1) = 16384 * (t.val / 16 + 1) by omega]

/-- The same for the third output array and the squares. -/
theorem flushed10_eq (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (G : S2x1x128.Idx → EReal) (hG : ∀ (c' : Fin 2) (e : Fin 128), G (ix3 c' 0 e) = coreSum (fun n e => pre1K I n e * pre1K I n e) c' e)
    (t : Fin cfg1.N) (hf : (cfg1.win 10).flush t = true) :
    (dat1 (F := Ideal) V c).flushed 10 t = ((cfg1.win 10).blk t).view.read (Elt Ideal) G := by
  have hN : cfg1.N = 32 := N_1
  have h15 : t.val % 16 = 15 := (flush1_10 t).mp hf
  have htl := t.isLt
  obtain ⟨-, -, -, -, -, -, -, -, -, -, -, -, -, -, -, -, -, -, -, -, -, -, e0, e1, e2⟩ := idx_facts t
  show (cfg1.win 10).cut (grid1.coords t) ((dat1 (F := Ideal) V c).after 10 t) = _
  rw [after1_10]
  funext y
  obtain ⟨a, b, e, rfl⟩ : ∃ (a b : Fin 1) (e : Fin 128), y = ix3 a b e := ⟨y 0, y 1, y 2, eq_ix3 y⟩
  obtain rfl : a = 0 := Subsingleton.elim _ _
  obtain rfl : b = 0 := Subsingleton.elim _ _
  rw [View.read_apply]
  have hemb : ((cfg1.win 10).blk t).view.emb (ix3 0 0 e) = ix3 (⟨t.val / 16, by omega⟩ : Fin 2) 0 e := by
    funext a; apply Fin.ext
    match a with
    | ⟨0, _⟩ => show win1_10.index t (0 : Fin 3) * 1 + 1 * 0 = t.val / 16; rw [e0]; omega
    | ⟨1, _⟩ => show win1_10.index t (1 : Fin 3) * 1 + 1 * 0 = 0; rw [e1]
    | ⟨2, _⟩ => show win1_10.index t (2 : Fin 3) * 128 + 1 * e.val = e.val; rw [e2]; omega
  show (outsAt1 (F := Ideal) V c t.val t.isLt).2.2 (ix3 0 0 e) = G (((cfg1.win 10).blk t).view.emb (ix3 0 0 e))
  rw [hemb, hG, acc10_eq V c I h0 h1 h2 h3 h4 h5 h6 h7 e t.val t.isLt, coreSum_eq_seg]
  show ∑ m ∈ seg (16384 * (t.val / 16)) (1024 * (t.val + 1)), pre1K I m e * pre1K I m e
    = ∑ m ∈ seg (16384 * (t.val / 16)) (16384 * (t.val / 16 + 1)), pre1K I m e * pre1K I m e
  rw [show 1024 * (t.val + 1) = 16384 * (t.val / 16 + 1) by omega]

/-- Node row n lies in the block of point n / 1024, which writes it back: the first output array ends holding the
    pre-normalisation array. -/
theorem arr8_apply (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (n : Fin 32768) (e : Fin 128) :
    (dat1 (F := Ideal) V c).arrAt 8 cfg1.N (ix2 n e) = pre1K I n e := by
  have hN : cfg1.N = 32 := N_1
  have hn := n.isLt
  have he := e.isLt
  obtain ⟨t, ht⟩ : ∃ t : Fin cfg1.N, t.val = n.val / 1024 := ⟨⟨n.val / 1024, by omega⟩, rfl⟩
  obtain ⟨-, -, -, -, -, -, -, -, -, -, -, -, -, -, -, -, -, e0, e1, -⟩ := idx_facts t
  refine (dat1 (F := Ideal) V c).arrAt_apply_of_mem 8 (G8 I) (fun t _ => flushed8_eq V c I h0 h1 h2 h3 h4 h5 h6 h7 t)
    cfg1.N t (ix2 n e) t.isLt (flush1_8 t) ?_
  show ix2 n e ∈ ((View.whole main_v6_0).slice (win1_8.rect t)).set
  rw [View.set_slice_whole, Rect.mem_set_unit]
  intro a
  match a with
  | ⟨0, _⟩ =>
    show win1_8.index t (0 : Fin 2) * 1024 ≤ n.val ∧ n.val < win1_8.index t (0 : Fin 2) * 1024 + 1024
    rw [e0]; omega
  | ⟨1, _⟩ =>
    show win1_8.index t (1 : Fin 2) * 128 ≤ e.val ∧ e.val < win1_8.index t (1 : Fin 2) * 128 + 128
    rw [e1]; omega

/-- Core c' 's block of the second output array is written back once, by the core's last point 16·c' + 15: it ends
    holding the core's column sums. -/
theorem arr9_apply (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (c' : Fin 2) (e : Fin 128) :
    (dat1 (F := Ideal) V c).arrAt 9 cfg1.N (ix3 c' 0 e) = coreSum (pre1K I) c' e := by
  have hN : cfg1.N = 32 := N_1
  have hc := c'.isLt
  have he := e.isLt
  obtain ⟨t, ht⟩ : ∃ t : Fin cfg1.N, t.val = 16 * c'.val + 15 := ⟨⟨16 * c'.val + 15, by omega⟩, rfl⟩
  obtain ⟨-, -, -, -, -, -, -, -, -, -, -, -, -, -, -, -, -, -, -, e0, e1, e2, -⟩ := idx_facts t
  refine (dat1 (F := Ideal) V c).arrAt_apply_of_mem 9 (G9 I) (fun t hf => flushed9_eq V c I h0 h1 h2 h3 h4 h5 h6 h7 (G9 I) (fun _ _ => rfl) t hf)
    cfg1.N t (ix3 c' 0 e) t.isLt ((flush1_9 t).mpr (by omega)) ?_
  show ix3 c' 0 e ∈ ((View.whole main_v6_1).slice (win1_9.rect t)).set
  rw [View.set_slice_whole, Rect.mem_set_unit]
  intro a
  match a with
  | ⟨0, _⟩ =>
    show win1_9.index t (0 : Fin 3) * 1 ≤ c'.val ∧ c'.val < win1_9.index t (0 : Fin 3) * 1 + 1
    rw [e0]; omega
  | ⟨1, _⟩ =>
    show win1_9.index t (1 : Fin 3) * 1 ≤ 0 ∧ 0 < win1_9.index t (1 : Fin 3) * 1 + 1
    rw [e1]; omega
  | ⟨2, _⟩ =>
    show win1_9.index t (2 : Fin 3) * 128 ≤ e.val ∧ e.val < win1_9.index t (2 : Fin 3) * 128 + 128
    rw [e2]; omega

/-- The same for the third output array and the squares. -/
theorem arr10_apply (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e)
    (c' : Fin 2) (e : Fin 128) :
    (dat1 (F := Ideal) V c).arrAt 10 cfg1.N (ix3 c' 0 e) = coreSum (fun n e => pre1K I n e * pre1K I n e) c' e := by
  have hN : cfg1.N = 32 := N_1
  have hc := c'.isLt
  have he := e.isLt
  obtain ⟨t, ht⟩ : ∃ t : Fin cfg1.N, t.val = 16 * c'.val + 15 := ⟨⟨16 * c'.val + 15, by omega⟩, rfl⟩
  obtain ⟨-, -, -, -, -, -, -, -, -, -, -, -, -, -, -, -, -, -, -, -, -, -, e0, e1, e2⟩ := idx_facts t
  refine (dat1 (F := Ideal) V c).arrAt_apply_of_mem 10 (G10 I) (fun t hf => flushed10_eq V c I h0 h1 h2 h3 h4 h5 h6 h7 (G10 I) (fun _ _ => rfl) t hf)
    cfg1.N t (ix3 c' 0 e) t.isLt ((flush1_10 t).mpr (by omega)) ?_
  show ix3 c' 0 e ∈ ((View.whole main_v6_2).slice (win1_10.rect t)).set
  rw [View.set_slice_whole, Rect.mem_set_unit]
  intro a
  match a with
  | ⟨0, _⟩ =>
    show win1_10.index t (0 : Fin 3) * 1 ≤ c'.val ∧ c'.val < win1_10.index t (0 : Fin 3) * 1 + 1
    rw [e0]; omega
  | ⟨1, _⟩ =>
    show win1_10.index t (1 : Fin 3) * 1 ≤ 0 ∧ 0 < win1_10.index t (1 : Fin 3) * 1 + 1
    rw [e1]; omega
  | ⟨2, _⟩ =>
    show win1_10.index t (2 : Fin 3) * 128 ≤ e.val ∧ e.val < win1_10.index t (2 : Fin 3) * 128 + 128
    rw [e2]; omega

end msgg

/-- After the second launch, from entry contents that hold the specification's inputs and projections: the
    pre-normalisation array, and per core the column sums of it and of its square. -/
theorem msg_value (c : Dev nD) (I : In)
    (h0 : ∀ n d, V c main_arg0 (ix2 n d) = I.h n d)
    (h1 : ∀ n e, V c main_v0 (ix2 n e) = proj I n e)
    (h2 : ∀ n k e, V c main_v1 (ix3 n k e) = proj I (I.nb n k) e)
    (h3 : ∀ e, V c main_v2 (ix2 0 e) = I.b1 e)
    (h4 : ∀ e, V c main_v3 (ix2 0 e) = I.W2 e)
    (h5 : V c main_v4 (ix2 0 0) = I.b2)
    (h6 : ∀ j e, V c main_arg6 (ix2 j e) = I.OW j e)
    (h7 : ∀ e, V c main_v5 (ix2 0 e) = I.Ob e) :
    (∀ (n : Fin 32768) (e : Fin 128), (dat1 (F := Ideal) V c).arrAt 8 cfg1.N (ix2 n e) = pre1K I n e)
    ∧ (∀ (c' : Fin 2) (e : Fin 128), (dat1 (F := Ideal) V c).arrAt 9 cfg1.N (ix3 c' 0 e) = coreSum (pre1K I) c' e)
    ∧ (∀ (c' : Fin 2) (e : Fin 128), (dat1 (F := Ideal) V c).arrAt 10 cfg1.N (ix3 c' 0 e)
        = coreSum (fun n e => pre1K I n e * pre1K I n e) c' e) :=
  ⟨fun n e => msgg.arr8_apply V c I h0 h1 h2 h3 h4 h5 h6 h7 n e, fun c' e => msgg.arr9_apply V c I h0 h1 h2 h3 h4 h5 h6 h7 c' e,
    fun c' e => msgg.arr10_apply V c I h0 h1 h2 h3 h4 h5 h6 h7 c' e⟩

end Cert.KernelIdeal.Val

end
-- ==== Proof.KI.Stats.lean ====
/-
  After each of the two accumulating launches: the two cores' column sums of x and of x² are added, scaled by 2⁻¹⁵
  into the batch mean and E[x²], the variance is E[x²] − mean² clipped at 0, and the next launch's parameter
  vectors are re-laid as single rows.
-/
import proofs.«419117_j60533269069902_3_alg».proof.Proof.Gen.KernelIdeal.Frame
import proofs.«419117_j60533269069902_3_alg».proof.Proof.Math.Inputs
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

variable (Wv : Valuation τ sig (Elt Ideal))

/-- The two launches' per-core accumulators (sums of x and of x²) as the stretch finds them, at their literal types. -/
abbrev sum1Arr : Vec Ideal S2x1x128 .f32 := Wv (Proc.devRef .tc main_v6_1)
abbrev sq1Arr : Vec Ideal S2x1x128 .f32 := Wv (Proc.devRef .tc main_v6_2)
abbrev sum2Arr : Vec Ideal S2x1x128 .f32 := Wv (Proc.devRef .tc main_v21_1)
abbrev sq2Arr : Vec Ideal S2x1x128 .f32 := Wv (Proc.devRef .tc main_v21_2)

/-! ## The three shapes of host term a stretch leaves, read at an index -/

/-- The host's sum of a 2×1×128 array over its leading axis, started from the zero word, times the broadcast word
    2⁻¹⁵: at column e it is the sum of the two leading entries of that column, times 2⁻¹⁵ (0 + x = x). -/
theorem meanRow_apply (x : Vec Ideal S2x1x128 .f32) (e : Fin 128) :
    mulf (Host.reduceAdd x (constant (F := Ideal) S_ .f32 0x00000000#32) reducesTo_S2x1x128_S1x128_d0 h_S_)
        (broadcastInDim S1x128 ![] bcast_S_S1x128 (constant (F := Ideal) S_ .f32 0x38000000#32)) (ix2 0 e)
      = (∑ c' : Fin 2, x (ix3 c' 0 e)) * w_inv32768 := by
  rw [mulf_apply, hostReduceAdd_apply, Ideal.hostReduceAdd_single reducesTo_S2x1x128_S1x128_d0 (by decide),
    broadcastInDim_scalar_apply, constant_apply, constant_apply, Ideal.ofBits_zero_f32, zero_add]
  refine congrArg (· * _) (Finset.sum_congr rfl fun k _ => congrArg x (funext fun a => Fin.ext ?_))
  match a with
  | ⟨0, _⟩ => rfl
  | ⟨1, _⟩ => rfl
  | ⟨2, _⟩ => rfl

/-- The maximum of a row with the broadcast zero word, at an index: the maximum with 0. -/
theorem maxZero_apply (y : Vec Ideal S1x128 .f32) (j : S1x128.Idx) :
    maximumf y (broadcastInDim S1x128 ![] bcast_S_S1x128 (constant (F := Ideal) S_ .f32 0x00000000#32)) j = max (y j) 0 := by
  rw [maximumf_apply, broadcastInDim_scalar_apply, constant_apply, Ideal.ofBits_zero_f32]

/-- The variance row: from the sums x and the sums of squares q of the two cores, the scaled sum of squares minus the
    square of the scaled sum, clipped below at 0, at column e. -/
theorem varRow_apply (x q : Vec Ideal S2x1x128 .f32) (e : Fin 128) :
    maximumf
        (subf
          (mulf (Host.reduceAdd q (constant (F := Ideal) S_ .f32 0x00000000#32) reducesTo_S2x1x128_S1x128_d0 h_S_)
            (broadcastInDim S1x128 ![] bcast_S_S1x128 (constant (F := Ideal) S_ .f32 0x38000000#32)))
          (mulf
            (mulf (Host.reduceAdd x (constant (F := Ideal) S_ .f32 0x00000000#32) reducesTo_S2x1x128_S1x128_d0 h_S_)
              (broadcastInDim S1x128 ![] bcast_S_S1x128 (constant (F := Ideal) S_ .f32 0x38000000#32)))
            (mulf (Host.reduceAdd x (constant (F := Ideal) S_ .f32 0x00000000#32) reducesTo_S2x1x128_S1x128_d0 h_S_)
              (broadcastInDim S1x128 ![] bcast_S_S1x128 (constant (F := Ideal) S_ .f32 0x38000000#32)))))
        (broadcastInDim S1x128 ![] bcast_S_S1x128 (constant (F := Ideal) S_ .f32 0x00000000#32)) (ix2 0 e)
      = max ((∑ c' : Fin 2, q (ix3 c' 0 e)) * w_inv32768
          - ((∑ c' : Fin 2, x (ix3 c' 0 e)) * w_inv32768) * ((∑ c' : Fin 2, x (ix3 c' 0 e)) * w_inv32768)) 0 := by
  rw [maxZero_apply, subf_apply, meanRow_apply q e, mulf_apply, meanRow_apply x e]

/-! ## The first stretch (between the second and the third launch) -/

/-- The batch mean after the second launch: the two cores' sums of x, times 2⁻¹⁵ (the reduction starts from 0). -/
theorem stats1_mu (e : Fin 128) :
    StableHlo.after (hostOps2 : List (HloOp τ sig (Elt Ideal))) Wv (Proc.devRef .tc main_v9) (ix2 0 e)
      = (∑ c' : Fin 2, sum1Arr Wv (ix3 c' 0 e)) * w_inv32768 := by
  simp only [hostOps2]
  after_results
  exact meanRow_apply (sum1Arr Wv) e
/-- The batch variance after the second launch: E[x²] − mean², clipped at 0. -/
theorem stats1_var (e : Fin 128) :
    StableHlo.after (hostOps2 : List (HloOp τ sig (Elt Ideal))) Wv (Proc.devRef .tc main_v16) (ix2 0 e)
      = max ((∑ c' : Fin 2, sq1Arr Wv (ix3 c' 0 e)) * w_inv32768
          - ((∑ c' : Fin 2, sum1Arr Wv (ix3 c' 0 e)) * w_inv32768)
            * ((∑ c' : Fin 2, sum1Arr Wv (ix3 c' 0 e)) * w_inv32768)) 0 := by
  simp only [hostOps2]
  after_results
  exact varRow_apply (sum1Arr Wv) (sq1Arr Wv) e
/-- The first normalisation's scale, re-laid as a single row: at column e the vector's entry e. -/
theorem stats1_v17 (e : Fin 128) : StableHlo.after (hostOps2 : List (HloOp τ sig (Elt Ideal))) Wv (Proc.devRef .tc main_v17) (ix2 0 e) = Wv (Proc.devRef .tc main_arg8) (ix1 e) := by
  simp only [hostOps2]
  after_results
  exact shapeCast_a_1a_apply (Wv (Proc.devRef .tc main_arg8) : Vec Ideal S128 .f32) shapeCasts_S128_S1x128 0 e
/-- The first normalisation's shift, re-laid as a single row. -/
theorem stats1_v18 (e : Fin 128) : StableHlo.after (hostOps2 : List (HloOp τ sig (Elt Ideal))) Wv (Proc.devRef .tc main_v18) (ix2 0 e) = Wv (Proc.devRef .tc main_arg9) (ix1 e) := by
  simp only [hostOps2]
  after_results
  exact shapeCast_a_1a_apply (Wv (Proc.devRef .tc main_arg9) : Vec Ideal S128 .f32) shapeCasts_S128_S1x128 0 e
/-- The feed-forward's first bias (256 entries), re-laid as a single row. -/
theorem stats1_v19 (j : Fin 256) : StableHlo.after (hostOps2 : List (HloOp τ sig (Elt Ideal))) Wv (Proc.devRef .tc main_v19) (ix2 0 j) = Wv (Proc.devRef .tc main_arg11) (ix1 j) := by
  simp only [hostOps2]
  after_results
  exact shapeCast_a_1a_apply (Wv (Proc.devRef .tc main_arg11) : Vec Ideal S256 .f32) shapeCasts_S256_S1x256 0 j
/-- The feed-forward's second bias, re-laid as a single row. -/
theorem stats1_v20 (e : Fin 128) : StableHlo.after (hostOps2 : List (HloOp τ sig (Elt Ideal))) Wv (Proc.devRef .tc main_v20) (ix2 0 e) = Wv (Proc.devRef .tc main_arg13) (ix1 e) := by
  simp only [hostOps2]
  after_results
  exact shapeCast_a_1a_apply (Wv (Proc.devRef .tc main_arg13) : Vec Ideal S128 .f32) shapeCasts_S128_S1x128 0 e
/-- The stretch writes none of the pre-normalisation array or the feed-forward weights. -/
theorem stats1_keep_v6_0 : StableHlo.after (hostOps2 : List (HloOp τ sig (Elt Ideal))) Wv (Proc.devRef .tc main_v6_0) = Wv (Proc.devRef .tc main_v6_0) := by
  simp only [hostOps2]
  after_results
/-- The feed-forward's first weight matrix is not written by the stretch. -/
theorem stats1_keep_arg10 : StableHlo.after (hostOps2 : List (HloOp τ sig (Elt Ideal))) Wv (Proc.devRef .tc main_arg10) = Wv (Proc.devRef .tc main_arg10) := by
  simp only [hostOps2]
  after_results
/-- The feed-forward's second weight matrix is not written by the stretch. -/
theorem stats1_keep_arg12 : StableHlo.after (hostOps2 : List (HloOp τ sig (Elt Ideal))) Wv (Proc.devRef .tc main_arg12) = Wv (Proc.devRef .tc main_arg12) := by
  simp only [hostOps2]
  after_results

/-! ## The second stretch (between the third and the fourth launch) -/

/-- The batch mean after the third launch. -/
theorem stats2_mu (e : Fin 128) :
    StableHlo.after (hostOps3 : List (HloOp τ sig (Elt Ideal))) Wv (Proc.devRef .tc main_v24) (ix2 0 e)
      = (∑ c' : Fin 2, sum2Arr Wv (ix3 c' 0 e)) * w_inv32768 := by
  simp only [hostOps3]
  after_results
  exact meanRow_apply (sum2Arr Wv) e
/-- The batch variance after the third launch. -/
theorem stats2_var (e : Fin 128) :
    StableHlo.after (hostOps3 : List (HloOp τ sig (Elt Ideal))) Wv (Proc.devRef .tc main_v31) (ix2 0 e)
      = max ((∑ c' : Fin 2, sq2Arr Wv (ix3 c' 0 e)) * w_inv32768
          - ((∑ c' : Fin 2, sum2Arr Wv (ix3 c' 0 e)) * w_inv32768)
            * ((∑ c' : Fin 2, sum2Arr Wv (ix3 c' 0 e)) * w_inv32768)) 0 := by
  simp only [hostOps3]
  after_results
  exact varRow_apply (sum2Arr Wv) (sq2Arr Wv) e
/-- The second normalisation's scale, re-laid as a single row. -/
theorem stats2_v32 (e : Fin 128) : StableHlo.after (hostOps3 : List (HloOp τ sig (Elt Ideal))) Wv (Proc.devRef .tc main_v32) (ix2 0 e) = Wv (Proc.devRef .tc main_arg14) (ix1 e) := by
  simp only [hostOps3]
  after_results
  exact shapeCast_a_1a_apply (Wv (Proc.devRef .tc main_arg14) : Vec Ideal S128 .f32) shapeCasts_S128_S1x128 0 e
/-- The second normalisation's shift, re-laid as a single row. -/
theorem stats2_v33 (e : Fin 128) : StableHlo.after (hostOps3 : List (HloOp τ sig (Elt Ideal))) Wv (Proc.devRef .tc main_v33) (ix2 0 e) = Wv (Proc.devRef .tc main_arg15) (ix1 e) := by
  simp only [hostOps3]
  after_results
  exact shapeCast_a_1a_apply (Wv (Proc.devRef .tc main_arg15) : Vec Ideal S128 .f32) shapeCasts_S128_S1x128 0 e
/-- The second stretch writes nothing of the third launch's first result. -/
theorem stats2_keep_v21_0 : StableHlo.after (hostOps3 : List (HloOp τ sig (Elt Ideal))) Wv (Proc.devRef .tc main_v21_0) = Wv (Proc.devRef .tc main_v21_0) := by
  simp only [hostOps3]
  after_results

end Cert.KernelIdeal.Val

end
-- ==== Proof.KI.FfnBody.lean ====
/-
  One grid point of the third launch, as values. From a tile of 4096 rows of the pre-normalisation array x0, the batch
  mean x1 and variance x2, scale x3 and shift x4, and the feed-forward weights, the body normalises
  (x = g · (x0 − μ) · rsqrt(σ² + ε) + β), applies x + (relu(x · F1W + F1b) · F2W + F2b), stores that tile, and adds
  the tile's column sums of the result and of its square into two 1 × 1 × 128 accumulators, which the first point of
  each core's run of 4 first resets to 0.
-/
import proofs.«419117_j60533269069902_3_alg».proof.Proof.Gen.KernelIdeal.Frame
import proofs.«419117_j60533269069902_3_alg».proof.Proof.Math.Inputs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

/-- Row r, column e of the normalised tile. -/
def xtile (x0 : Vec Ideal S4096x128 .f32) (x1 x2 x3 x4 : Vec Ideal S1x128 .f32) (r : Fin 4096) (e : Fin 128) : EReal :=
  x3 (ix2 0 e) * (x0 (ix2 r e) - x1 (ix2 0 e)) * Ideal.rsqrt (x2 (ix2 0 e) + w_eps) + x4 (ix2 0 e)

/-- Row r, column e of the tile a grid point stores, from the point's input blocks. -/
def ztile (x0 : Vec Ideal S4096x128 .f32) (x1 x2 x3 x4 : Vec Ideal S1x128 .f32) (x5 : Vec Ideal S128x256 .f32)
    (x6 : Vec Ideal S1x256 .f32) (x7 : Vec Ideal S256x128 .f32) (x8 : Vec Ideal S1x128 .f32) (r : Fin 4096) (e : Fin 128) : EReal :=
  xtile x0 x1 x2 x3 x4 r e
    + ((∑ j : Fin 256, max ((∑ d : Fin 128, xtile x0 x1 x2 x3 x4 r d * x5 (ix2 d j)) + x6 (ix2 0 j)) 0 * x7 (ix2 j e)) + x8 (ix2 0 e))

namespace Ffn

/-! ## The two products, the pointwise operations and the column sum, read at an index -/

/-- The left operand's index of the product A: its row is the output's row. -/
theorem lhsA_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
/-- … and its column is the contraction coordinate. -/
theorem lhsA_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
/-- The right operand's row is the contraction coordinate. -/
theorem rhsA_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
/-- … and its column is the output's column. -/
theorem rhsA_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The first product into the zero accumulator, read at (r, j): the sum over the 128 input features. -/
theorem prodA_apply (a : FVec Ideal S4096x128 .f32) (b : FVec Ideal S128x256 .f32) (r : Fin 4096) (j : Fin 256) :
    matmul dot_S4096x128_S128x256_S4096x256_1_0_0_1_n_n (some .fp32) a b (constant (F := Ideal) S4096x256 .f32 0x00000000#32) (ix2 r j)
      = ∑ d : Fin 128, a (ix2 r d) * b (ix2 d j) := by
  simp only [matmul]
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 r j) ((ValueIdx.contrEquiv1 dot_S4096x128_S128x256_S4096x256_1_0_0_1_n_n 128 rfl rfl).symm k) = ix2 r k := funext fun ax => Fin.ext (by
    match ax with
    | ⟨0, _⟩ => exact lhsA_0 _ _
    | ⟨1, _⟩ => exact (lhsA_1 _ _).trans hk)
  have er : dot_S4096x128_S128x256_S4096x256_1_0_0_1_n_n.rhsIdx (ix2 r j) ((ValueIdx.contrEquiv1 dot_S4096x128_S128x256_S4096x256_1_0_0_1_n_n 128 rfl rfl).symm k) = ix2 k j := funext fun ax => Fin.ext (by
    match ax with
    | ⟨0, _⟩ => exact (rhsA_0 _ _).trans hk
    | ⟨1, _⟩ => exact rhsA_1 _ _)
  rw [el, er]

/-- The left operand's index of the product B: its row is the output's row. -/
theorem lhsB_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- … and its column is the contraction coordinate. -/
theorem lhsB_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
/-- The right operand's row is the contraction coordinate. -/
theorem rhsB_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
/-- … and its column is the output's column. -/
theorem rhsB_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The second product into the zero accumulator, read at (r, e): the sum over the 256 hidden features. -/
theorem prodB_apply (a : FVec Ideal S4096x256 .f32) (b : FVec Ideal S256x128 .f32) (r : Fin 4096) (j : Fin 128) :
    matmul dot_S4096x256_S256x128_S4096x128_1_0_0_1_n_n (some .fp32) a b (constant (F := Ideal) S4096x128 .f32 0x00000000#32) (ix2 r j)
      = ∑ d : Fin 256, a (ix2 r d) * b (ix2 d j) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 r j) ((ValueIdx.contrEquiv1 dot_S4096x256_S256x128_S4096x128_1_0_0_1_n_n 256 rfl rfl).symm k) = ix2 r k := funext fun ax => Fin.ext (by
    match ax with
    | ⟨0, _⟩ => exact lhsB_0 _ _
    | ⟨1, _⟩ => exact (lhsB_1 _ _).trans hk)
  have er : dot_S4096x256_S256x128_S4096x128_1_0_0_1_n_n.rhsIdx (ix2 r j) ((ValueIdx.contrEquiv1 dot_S4096x256_S256x128_S4096x128_1_0_0_1_n_n 256 rfl rfl).symm k) = ix2 k j := funext fun ax => Fin.ext (by
    match ax with
    | ⟨0, _⟩ => exact (rhsB_0 _ _).trans hk
    | ⟨1, _⟩ => exact rhsB_1 _ _)
  rw [el, er]

/-- The reciprocal square root of a vector reads pointwise. -/
theorem rsqrt_apply {s : Shape} {φ : FTy} (a : FVec Ideal s φ) (i : s.Idx) : rsqrt a i = Ideal.rsqrt (a i) := rfl

/-- The reduced column index e with the row k put back is (k, e). -/
theorem lift_col (h : S4096x128.Reduces [0] S128) (e : Fin 128) (k : Fin 4096) :
    h.lift (ix1 e) k = ix2 k e := by
  funext c; apply Fin.ext
  match c with
  | ⟨0, _⟩ => rfl
  | ⟨1, _⟩ => rfl

/-- The sum over the tile's 4096 rows, read at column e. -/
theorem colsum_apply (v : FVec Ideal S4096x128 .f32) (h : S4096x128.Reduces [0] S128) (hφ : FKind.Formats .f32)
    (hacc : (0x00000000#32 : BitVec 32) = FKind.add.neutral .f32 hφ) (e : Fin 128) :
    multiReduction (F := Ideal) .add [0] S128 v 0x00000000#32 h hφ hacc (ix1 e) = ∑ r : Fin 4096, v (ix2 r e) := by
  refine (Ideal.multiReduction_add_single v 0x00000000#32 h hφ hacc (ix1 e)).trans ?_
  show ∑ k : Fin 4096, v (h.lift (ix1 e) k) = _
  exact Finset.sum_congr rfl fun k _ => congrArg v (lift_col h e k)

/-! ## The body's three payloads at an index -/

/-- The stored tile's arithmetic, read at row r and column e, is the tile function: the normalisation pointwise, the two
    products as sums over the input and the hidden features, the zero word of the rectifier as 0. -/
theorem pay5_apply (x0 : Vec Ideal S4096x128 .f32) (x1 x2 x3 x4 : Vec Ideal S1x128 .f32) (x5 : Vec Ideal S128x256 .f32)
    (x6 : Vec Ideal S1x256 .f32) (x7 : Vec Ideal S256x128 .f32) (x8 : Vec Ideal S1x128 .f32) (r : Fin 4096) (e : Fin 128) :
    k2_pay5 (F := Ideal) x0 x1 x2 x3 x4 x5 x6 x7 x8 (ix2 r e) = ztile x0 x1 x2 x3 x4 x5 x6 x7 x8 r e := by
  unfold k2_pay5
  simp only [addf_apply, mulf_apply, subf_apply, maximumf_apply, broadcast_apply, rsqrt_apply, shapeCast_self,
    broadcastTo_1b_ab_apply, prodA_apply, prodB_apply, Ideal.ofBits_def, Ideal.ofBits_zero_f32]
  rfl

/-- The sum accumulator's update at column e: what it held plus the column sum of the tile handed to it. -/
theorem pay3_apply (v35 : FVec Ideal S4096x128 .f32) (v40 : Vec Ideal S1x1x128 .f32) (e : Fin 128) :
    k2_pay3 v35 v40 (ix3 0 0 e) = v40 (ix3 0 0 e) + ∑ r : Fin 4096, v35 (ix2 r e) := by
  unfold k2_pay3
  dsimp only
  simp only [addf_apply, shapeCast_self, shapeCast_ab_1ab_apply, shapeCast_a_1a_apply]
  exact congrArg (v40 (ix3 0 0 e) + ·) (colsum_apply v35 _ _ _ e)

/-- The square accumulator's update at column e: what it held plus the column sum of the squares of the tile handed to it. -/
theorem pay4_apply (v35 : FVec Ideal S4096x128 .f32) (v47 : Vec Ideal S1x1x128 .f32) (e : Fin 128) :
    k2_pay4 v35 v47 (ix3 0 0 e) = v47 (ix3 0 0 e) + ∑ r : Fin 4096, v35 (ix2 r e) * v35 (ix2 r e) := by
  unfold k2_pay4
  dsimp only
  simp only [addf_apply, shapeCast_self, shapeCast_ab_1ab_apply, shapeCast_a_1a_apply]
  exact congrArg (v47 (ix3 0 0 e) + ·) (colsum_apply (mulf v35 v35) _ _ _ e)

/-- The reset value of the sum accumulator is the zero word, 0. -/
theorem pay1_apply (j : S1x1x128.Idx) : k2_pay1 (F := Ideal) j = 0 := Ideal.ofBits_zero_f32
/-- The reset value of the square accumulator is the zero word, 0. -/
theorem pay2_apply (j : S1x1x128.Idx) : k2_pay2 (F := Ideal) j = 0 := Ideal.ofBits_zero_f32

/-! ## What each control case leaves in the three output windows, as payloads of the point's blocks

Every load and store of the body goes through the whole window at offset zero, so a load reads the block itself, one
store leaves its payload, and a reset followed by an update leaves the update computed from the reset value. -/

/-- The zero offsets of a rank-2 window. -/
theorem hz2 : (![0, 0] : Fin 2 → Nat) = fun _ => 0 := funext fun a => by fin_cases a <;> rfl
/-- The zero offsets of a rank-3 window. -/
theorem hz3 : (![0, 0, 0] : Fin 3 → Nat) = fun _ => 0 := funext fun a => by fin_cases a <;> rfl

/-- At a core's first point the stored tile is the tile payload of the point's nine input blocks. -/
theorem out2_A_9_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) :
    out2_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k2_pay5 (F := Ideal) x0 x1 x2 x3 x4 x5 x6 x7 x8 := by
  unfold out2_A_9
  rw [View.read_writes_eq_canon _ _ _ (cover2_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun2_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread,
    View.ld_unit_zero (S := S4096x128) hz2, View.ld_unit_zero (S := S1x128) hz2, View.ld_unit_zero (S := S128x256) hz2,
    View.ld_unit_zero (S := S1x256) hz2, View.ld_unit_zero (S := S256x128) hz2]

/-- At a later point the stored tile is the same payload. -/
theorem out2_B_9_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) :
    out2_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = k2_pay5 (F := Ideal) x0 x1 x2 x3 x4 x5 x6 x7 x8 := by
  unfold out2_B_9
  rw [View.read_writes_eq_canon _ _ _ (cover2_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun2_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread,
    View.ld_unit_zero (S := S4096x128) hz2, View.ld_unit_zero (S := S1x128) hz2, View.ld_unit_zero (S := S128x256) hz2,
    View.ld_unit_zero (S := S1x256) hz2, View.ld_unit_zero (S := S256x128) hz2]

/-- At a core's first point the sum accumulator holds the update computed from the reset value. -/
theorem out2_A_10_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) :
    out2_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k2_pay3 (k2_pay5 (F := Ideal) x0 x1 x2 x3 x4 x5 x6 x7 x8) (k2_pay1 (F := Ideal)) := by
  unfold out2_A_10
  rw [View.read_writes_eq_canon _ _ _ (cover2_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun2_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread,
    harg7.read_unread, harg8.read_unread, harg9.read_unread, harg10.read_unread,
    View.ld_unit_zero (S := S4096x128) hz2, View.ld_unit_zero (S := S1x128) hz2, View.ld_unit_zero (S := S128x256) hz2,
    View.ld_unit_zero (S := S1x256) hz2, View.ld_unit_zero (S := S256x128) hz2]

/-- At a later point the sum accumulator holds the update computed from what the point before left. -/
theorem out2_B_10_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) :
    out2_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = k2_pay3 (k2_pay5 (F := Ideal) x0 x1 x2 x3 x4 x5 x6 x7 x8) xo10 := by
  unfold out2_B_10
  rw [View.read_writes_eq_canon _ _ _ (cover2_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun2_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg12.read_unread, harg13.read_unread,
    View.ld_unit_zero (S := S4096x128) hz2, View.ld_unit_zero (S := S1x128) hz2, View.ld_unit_zero (S := S128x256) hz2,
    View.ld_unit_zero (S := S1x256) hz2, View.ld_unit_zero (S := S256x128) hz2, View.ld_unit_zero (S := S1x1x128) hz3]

/-- At a core's first point the square accumulator holds the update computed from the reset value. -/
theorem out2_A_11_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) :
    out2_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k2_pay4 (k2_pay5 (F := Ideal) x0 x1 x2 x3 x4 x5 x6 x7 x8) (k2_pay2 (F := Ideal)) := by
  unfold out2_A_11
  rw [View.read_writes_eq_canon _ _ _ (cover2_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun2_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread,
    harg7.read_unread, harg8.read_unread, harg9.read_unread, harg10.read_unread,
    View.ld_unit_zero (S := S4096x128) hz2, View.ld_unit_zero (S := S1x128) hz2, View.ld_unit_zero (S := S128x256) hz2,
    View.ld_unit_zero (S := S1x256) hz2, View.ld_unit_zero (S := S256x128) hz2]

/-- At a later point the square accumulator holds the update computed from what the point before left. -/
theorem out2_B_11_eq (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) :
    out2_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = k2_pay4 (k2_pay5 (F := Ideal) x0 x1 x2 x3 x4 x5 x6 x7 x8) xo11 := by
  unfold out2_B_11
  rw [View.read_writes_eq_canon _ _ _ (cover2_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun2_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg12.read_unread, harg13.read_unread,
    View.ld_unit_zero (S := S4096x128) hz2, View.ld_unit_zero (S := S1x128) hz2, View.ld_unit_zero (S := S128x256) hz2,
    View.ld_unit_zero (S := S1x256) hz2, View.ld_unit_zero (S := S256x128) hz2, View.ld_unit_zero (S := S1x1x128) hz3]

end Ffn

open Ffn

/-! ## The six pieces as values -/

/-- At a core's first point the stored tile is the tile function of the point's blocks. -/
theorem out2_A_9_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (r : Fin 4096) (e : Fin 128) :
    out2_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r e) = ztile x0 x1 x2 x3 x4 x5 x6 x7 x8 r e := by
  exact (congrFun (out2_A_9_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (ix2 r e)).trans (pay5_apply x0 x1 x2 x3 x4 x5 x6 x7 x8 r e)

/-- At a later point the stored tile is the same function: it does not read the accumulators. -/
theorem out2_B_9_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) (r : Fin 4096) (e : Fin 128) :
    out2_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix2 r e) = ztile x0 x1 x2 x3 x4 x5 x6 x7 x8 r e := by
  exact (congrFun (out2_B_9_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11) (ix2 r e)).trans (pay5_apply x0 x1 x2 x3 x4 x5 x6 x7 x8 r e)

/-- At a core's first point the sum accumulator is reset to 0 and then receives the tile's column sums. -/
theorem out2_A_10_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (e : Fin 128) :
    out2_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 0 e) = ∑ r : Fin 4096, ztile x0 x1 x2 x3 x4 x5 x6 x7 x8 r e := by
  refine (congrFun (out2_A_10_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (ix3 0 0 e)).trans ((pay3_apply _ _ e).trans ?_)
  rw [pay1_apply, zero_add]
  exact Finset.sum_congr rfl fun r _ => pay5_apply x0 x1 x2 x3 x4 x5 x6 x7 x8 r e

/-- At a later point the sum accumulator receives the tile's column sums on top of what the point before left. -/
theorem out2_B_10_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) (e : Fin 128) :
    out2_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 0 e) = xo10 (ix3 0 0 e) + ∑ r : Fin 4096, ztile x0 x1 x2 x3 x4 x5 x6 x7 x8 r e := by
  refine (congrFun (out2_B_10_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11) (ix3 0 0 e)).trans ((pay3_apply _ _ e).trans ?_)
  exact congrArg (xo10 (ix3 0 0 e) + ·) (Finset.sum_congr rfl fun r _ => pay5_apply x0 x1 x2 x3 x4 x5 x6 x7 x8 r e)

/-- At a core's first point the square accumulator is reset to 0 and then receives the column sums of the squares. -/
theorem out2_A_11_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (e : Fin 128) :
    out2_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 0 e) = ∑ r : Fin 4096, ztile x0 x1 x2 x3 x4 x5 x6 x7 x8 r e * ztile x0 x1 x2 x3 x4 x5 x6 x7 x8 r e := by
  refine (congrFun (out2_A_11_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (ix3 0 0 e)).trans ((pay4_apply _ _ e).trans ?_)
  rw [pay2_apply, zero_add]
  exact Finset.sum_congr rfl fun r _ => by rw [pay5_apply x0 x1 x2 x3 x4 x5 x6 x7 x8 r e]

/-- At a later point the square accumulator receives the column sums of the squares on top of what the point before left. -/
theorem out2_B_11_apply (c : Dev nD) (i : grid2.Coords) (arg2 : Memref sig .tc .vmem S4096x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (hc0 : ¬cond2_0 i) (x0 : Vec Ideal S4096x128 .f32) (x1 : Vec Ideal S1x128 .f32) (x2 : Vec Ideal S1x128 .f32) (x3 : Vec Ideal S1x128 .f32) (x4 : Vec Ideal S1x128 .f32) (x5 : Vec Ideal S128x256 .f32) (x6 : Vec Ideal S1x256 .f32) (x7 : Vec Ideal S256x128 .f32) (x8 : Vec Ideal S1x128 .f32) (xo10 : Vec Ideal S1x1x128 .f32) (xo11 : Vec Ideal S1x1x128 .f32) (e : Fin 128) :
    out2_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix3 0 0 e) = xo11 (ix3 0 0 e) + ∑ r : Fin 4096, ztile x0 x1 x2 x3 x4 x5 x6 x7 x8 r e * ztile x0 x1 x2 x3 x4 x5 x6 x7 x8 r e := by
  refine (congrFun (out2_B_11_eq c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11) (ix3 0 0 e)).trans ((pay4_apply _ _ e).trans ?_)
  exact congrArg (xo11 (ix3 0 0 e) + ·) (Finset.sum_congr rfl fun r _ => by rw [pay5_apply x0 x1 x2 x3 x4 x5 x6 x7 x8 r e])

end Cert.KernelIdeal.Val

end
-- ==== Proof.KI.FfnGrid.lean ====
/-
  The third launch over its 2 × 4 grid. Point t = 4·c + i works on rows 4096·t … 4096·t + 4095, so the stored tiles
  cover the array; core c's accumulator block is reset at i = 0 and gains one tile's column sums per point, so after
  the run it holds the column sums over core c's 16384 rows.
-/
import proofs.«419117_j60533269069902_3_alg».proof.Proof.Gen.KernelIdeal.Frame
import proofs.«419117_j60533269069902_3_alg».proof.Proof.Math.Inputs
import proofs.«419117_j60533269069902_3_alg».proof.Proof.KI.FfnBody
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

namespace FfnGrid

/-! ## Sums over a run of consecutive rows -/

/-- The rows n with a ≤ n < b. -/
def rowsIn (a b : ℕ) : Finset (Fin 32768) := Finset.univ.filter fun n => a ≤ n.val ∧ n.val < b

/-- Membership in a run of rows. -/
theorem mem_rowsIn (a b : ℕ) (n : Fin 32768) : n ∈ rowsIn a b ↔ a ≤ n.val ∧ n.val < b := by
  unfold rowsIn
  rw [Finset.mem_filter]
  exact ⟨fun h => h.2, fun h => ⟨Finset.mem_univ _, h⟩⟩

/-- Row r of tile t (of 8 tiles of 4096 rows) is row 4096·t + r of the array (reduced into range, so that the
    function is total; for t < 8 nothing is reduced). -/
def rowAt (t : ℕ) (r : Fin 4096) : Fin 32768 := ⟨(4096 * t + r.val) % 32768, Nat.mod_lt _ (by norm_num)⟩

/-- For a tile of the array the row is 4096·t + r. -/
theorem rowAt_val (t : ℕ) (ht : t < 8) (r : Fin 4096) : (rowAt t r).val = 4096 * t + r.val := by
  show (4096 * t + r.val) % 32768 = 4096 * t + r.val
  have := r.isLt
  omega

/-- The sum over the 4096 rows of tile t is the sum over the rows 4096·t ≤ n < 4096·(t+1). -/
theorem sum_tile (f : Fin 32768 → EReal) (t : ℕ) (ht : t < 8) :
    ∑ r : Fin 4096, f (rowAt t r) = ∑ n ∈ rowsIn (4096 * t) (4096 * (t + 1)), f n := by
  refine Finset.sum_nbij' (fun r => rowAt t r)
    (fun n => ⟨(n.val - 4096 * t) % 4096, Nat.mod_lt _ (by norm_num)⟩) ?_ ?_ ?_ ?_ ?_
  · intro r _
    rw [mem_rowsIn, rowAt_val t ht]
    have := r.isLt
    omega
  · intro n _
    exact Finset.mem_univ _
  · intro r _
    apply Fin.ext
    show ((rowAt t r).val - 4096 * t) % 4096 = r.val
    rw [rowAt_val t ht]
    have := r.isLt
    omega
  · intro n hn
    rw [mem_rowsIn] at hn
    apply Fin.ext
    rw [rowAt_val t ht]
    show 4096 * t + (n.val - 4096 * t) % 4096 = n.val
    omega
  · intro r _
    rfl

/-- Adjacent runs of rows add up. -/
theorem sum_rowsIn_add (f : Fin 32768 → EReal) (a b c : ℕ) (hab : a ≤ b) (hbc : b ≤ c) :
    (∑ n ∈ rowsIn a b, f n) + ∑ n ∈ rowsIn b c, f n = ∑ n ∈ rowsIn a c, f n := by
  rw [← Finset.sum_union]
  · refine Finset.sum_congr ?_ fun _ _ => rfl
    ext n
    rw [Finset.mem_union, mem_rowsIn, mem_rowsIn, mem_rowsIn]
    omega
  · rw [Finset.disjoint_left]
    intro n h1 h2
    rw [mem_rowsIn] at h1 h2
    omega

/-- A core's column sum is the sum over its run of 16384 rows. -/
theorem coreSum_eq_rowsIn (v : Fin 32768 → Fin 128 → EReal) (c : Fin 2) (e : Fin 128) :
    coreSum v c e = ∑ n ∈ rowsIn (16384 * c.val) (16384 * (c.val + 1)), v n e := by
  unfold coreSum
  refine Finset.sum_congr ?_ fun _ _ => rfl
  ext n
  rw [mem_rowsIn, Finset.mem_filter]
  have := n.isLt
  constructor
  · rintro ⟨-, h⟩
    omega
  · intro h
    exact ⟨Finset.mem_univ _, by omega⟩

variable (V : (c : Dev nD) → (b : Ref sig .tc) → Buf (Elt Ideal) ((c : Thread nD τ).loc b))

/-! ## The grid's points and the windows' block indices -/

/-- The grid has 8 points. -/
theorem lt8 (t : Fin cfg2.N) : t.val < 8 := lt_of_lt_of_eq t.isLt (show cfg2.N = 8 from N_2)

/-- The point with number n < 8. -/
def pt (n : ℕ) (h : n < 8) : Fin cfg2.N := ⟨n, lt_of_lt_of_eq h (show cfg2.N = 8 from N_2).symm⟩

/-- Window 0's block index at point t is (t, 0): the tile of rows 4096·t … 4096·t + 4095. -/
theorem idx2_0 : ∀ t : Fin cfg2.N, win2_0.index t (0 : Fin 2) = t.val ∧ win2_0.index t (1 : Fin 2) = 0 :=
  (by decide +kernel : ∀ t : Fin grid2.N, _)
/-- Window 1's block index is (0, 0) at every point: the whole array. -/
theorem idx2_1 : ∀ t : Fin cfg2.N, win2_1.index t (0 : Fin 2) = 0 ∧ win2_1.index t (1 : Fin 2) = 0 :=
  (by decide +kernel : ∀ t : Fin grid2.N, _)
/-- Window 2's block index is (0, 0) at every point: the whole array. -/
theorem idx2_2 : ∀ t : Fin cfg2.N, win2_2.index t (0 : Fin 2) = 0 ∧ win2_2.index t (1 : Fin 2) = 0 :=
  (by decide +kernel : ∀ t : Fin grid2.N, _)
/-- Window 3's block index is (0, 0) at every point: the whole array. -/
theorem idx2_3 : ∀ t : Fin cfg2.N, win2_3.index t (0 : Fin 2) = 0 ∧ win2_3.index t (1 : Fin 2) = 0 :=
  (by decide +kernel : ∀ t : Fin grid2.N, _)
/-- Window 4's block index is (0, 0) at every point: the whole array. -/
theorem idx2_4 : ∀ t : Fin cfg2.N, win2_4.index t (0 : Fin 2) = 0 ∧ win2_4.index t (1 : Fin 2) = 0 :=
  (by decide +kernel : ∀ t : Fin grid2.N, _)
/-- Window 5's block index is (0, 0) at every point: the whole array. -/
theorem idx2_5 : ∀ t : Fin cfg2.N, win2_5.index t (0 : Fin 2) = 0 ∧ win2_5.index t (1 : Fin 2) = 0 :=
  (by decide +kernel : ∀ t : Fin grid2.N, _)
/-- Window 6's block index is (0, 0) at every point: the whole array. -/
theorem idx2_6 : ∀ t : Fin cfg2.N, win2_6.index t (0 : Fin 2) = 0 ∧ win2_6.index t (1 : Fin 2) = 0 :=
  (by decide +kernel : ∀ t : Fin grid2.N, _)
/-- Window 7's block index is (0, 0) at every point: the whole array. -/
theorem idx2_7 : ∀ t : Fin cfg2.N, win2_7.index t (0 : Fin 2) = 0 ∧ win2_7.index t (1 : Fin 2) = 0 :=
  (by decide +kernel : ∀ t : Fin grid2.N, _)
/-- Window 8's block index is (0, 0) at every point: the whole array. -/
theorem idx2_8 : ∀ t : Fin cfg2.N, win2_8.index t (0 : Fin 2) = 0 ∧ win2_8.index t (1 : Fin 2) = 0 :=
  (by decide +kernel : ∀ t : Fin grid2.N, _)
/-- Output window 9's block index at point t is (t, 0). -/
theorem idx2_9 : ∀ t : Fin cfg2.N, win2_9.index t (0 : Fin 2) = t.val ∧ win2_9.index t (1 : Fin 2) = 0 :=
  (by decide +kernel : ∀ t : Fin grid2.N, _)
/-- Output window 10's block index at point t is (t / 4, 0, 0): the core's block. -/
theorem idx2_10 : ∀ t : Fin cfg2.N, win2_10.index t (0 : Fin 3) = t.val / 4 ∧ win2_10.index t (1 : Fin 3) = 0 ∧ win2_10.index t (2 : Fin 3) = 0 :=
  (by decide +kernel : ∀ t : Fin grid2.N, _)
/-- Output window 11's block index at point t is (t / 4, 0, 0): the core's block. -/
theorem idx2_11 : ∀ t : Fin cfg2.N, win2_11.index t (0 : Fin 3) = t.val / 4 ∧ win2_11.index t (1 : Fin 3) = 0 ∧ win2_11.index t (2 : Fin 3) = 0 :=
  (by decide +kernel : ∀ t : Fin grid2.N, _)

/-! ## From a point's blocks to the arrays -/

/-- Window 0's block at point t, row r, is row 4096·t + r of the array. -/
theorem blk0_apply (c : Dev nD) (t : Fin cfg2.N) (r : Fin 4096) (e : Fin 128) :
    (iblk2 V c 0 t : Vec Ideal S4096x128 .f32) (ix2 r e) = V c main_v6_0 (ix2 (rowAt t.val r) e) := by
  unfold iblk2
  rw [View.read_apply]
  show V c main_v6_0 _ = V c main_v6_0 _
  obtain ⟨e0, e1⟩ := idx2_0 t
  congr 1
  funext a
  apply Fin.ext
  match a with
  | ⟨0, _⟩ => show win2_0.index t (0 : Fin 2) * 4096 + 1 * r.val = (rowAt t.val r).val; rw [rowAt_val _ (lt8 t), e0]; omega
  | ⟨1, _⟩ => show win2_0.index t (1 : Fin 2) * 128 + 1 * e.val = e.val; rw [e1]; omega
/-- Window 1's block is the whole array at every point. -/
theorem blk1_apply (c : Dev nD) (t : Fin cfg2.N) (p : Fin 1) (q : Fin 128) :
    (iblk2 V c 1 t : Vec Ideal S1x128 .f32) (ix2 p q) = V c main_v9 (ix2 p q) := by
  unfold iblk2
  rw [View.read_apply]
  show V c main_v9 _ = V c main_v9 _
  obtain ⟨e0, e1⟩ := idx2_1 t
  congr 1
  funext a
  apply Fin.ext
  match a with
  | ⟨0, _⟩ => show win2_1.index t (0 : Fin 2) * 1 + 1 * p.val = p.val; rw [e0]; omega
  | ⟨1, _⟩ => show win2_1.index t (1 : Fin 2) * 128 + 1 * q.val = q.val; rw [e1]; omega
/-- Window 2's block is the whole array at every point. -/
theorem blk2_apply (c : Dev nD) (t : Fin cfg2.N) (p : Fin 1) (q : Fin 128) :
    (iblk2 V c 2 t : Vec Ideal S1x128 .f32) (ix2 p q) = V c main_v16 (ix2 p q) := by
  unfold iblk2
  rw [View.read_apply]
  show V c main_v16 _ = V c main_v16 _
  obtain ⟨e0, e1⟩ := idx2_2 t
  congr 1
  funext a
  apply Fin.ext
  match a with
  | ⟨0, _⟩ => show win2_2.index t (0 : Fin 2) * 1 + 1 * p.val = p.val; rw [e0]; omega
  | ⟨1, _⟩ => show win2_2.index t (1 : Fin 2) * 128 + 1 * q.val = q.val; rw [e1]; omega
/-- Window 3's block is the whole array at every point. -/
theorem blk3_apply (c : Dev nD) (t : Fin cfg2.N) (p : Fin 1) (q : Fin 128) :
    (iblk2 V c 3 t : Vec Ideal S1x128 .f32) (ix2 p q) = V c main_v17 (ix2 p q) := by
  unfold iblk2
  rw [View.read_apply]
  show V c main_v17 _ = V c main_v17 _
  obtain ⟨e0, e1⟩ := idx2_3 t
  congr 1
  funext a
  apply Fin.ext
  match a with
  | ⟨0, _⟩ => show win2_3.index t (0 : Fin 2) * 1 + 1 * p.val = p.val; rw [e0]; omega
  | ⟨1, _⟩ => show win2_3.index t (1 : Fin 2) * 128 + 1 * q.val = q.val; rw [e1]; omega
/-- Window 4's block is the whole array at every point. -/
theorem blk4_apply (c : Dev nD) (t : Fin cfg2.N) (p : Fin 1) (q : Fin 128) :
    (iblk2 V c 4 t : Vec Ideal S1x128 .f32) (ix2 p q) = V c main_v18 (ix2 p q) := by
  unfold iblk2
  rw [View.read_apply]
  show V c main_v18 _ = V c main_v18 _
  obtain ⟨e0, e1⟩ := idx2_4 t
  congr 1
  funext a
  apply Fin.ext
  match a with
  | ⟨0, _⟩ => show win2_4.index t (0 : Fin 2) * 1 + 1 * p.val = p.val; rw [e0]; omega
  | ⟨1, _⟩ => show win2_4.index t (1 : Fin 2) * 128 + 1 * q.val = q.val; rw [e1]; omega
/-- Window 5's block is the whole array at every point. -/
theorem blk5_apply (c : Dev nD) (t : Fin cfg2.N) (p : Fin 128) (q : Fin 256) :
    (iblk2 V c 5 t : Vec Ideal S128x256 .f32) (ix2 p q) = V c main_arg10 (ix2 p q) := by
  unfold iblk2
  rw [View.read_apply]
  show V c main_arg10 _ = V c main_arg10 _
  obtain ⟨e0, e1⟩ := idx2_5 t
  congr 1
  funext a
  apply Fin.ext
  match a with
  | ⟨0, _⟩ => show win2_5.index t (0 : Fin 2) * 128 + 1 * p.val = p.val; rw [e0]; omega
  | ⟨1, _⟩ => show win2_5.index t (1 : Fin 2) * 256 + 1 * q.val = q.val; rw [e1]; omega
/-- Window 6's block is the whole array at every point. -/
theorem blk6_apply (c : Dev nD) (t : Fin cfg2.N) (p : Fin 1) (q : Fin 256) :
    (iblk2 V c 6 t : Vec Ideal S1x256 .f32) (ix2 p q) = V c main_v19 (ix2 p q) := by
  unfold iblk2
  rw [View.read_apply]
  show V c main_v19 _ = V c main_v19 _
  obtain ⟨e0, e1⟩ := idx2_6 t
  congr 1
  funext a
  apply Fin.ext
  match a with
  | ⟨0, _⟩ => show win2_6.index t (0 : Fin 2) * 1 + 1 * p.val = p.val; rw [e0]; omega
  | ⟨1, _⟩ => show win2_6.index t (1 : Fin 2) * 256 + 1 * q.val = q.val; rw [e1]; omega
/-- Window 7's block is the whole array at every point. -/
theorem blk7_apply (c : Dev nD) (t : Fin cfg2.N) (p : Fin 256) (q : Fin 128) :
    (iblk2 V c 7 t : Vec Ideal S256x128 .f32) (ix2 p q) = V c main_arg12 (ix2 p q) := by
  unfold iblk2
  rw [View.read_apply]
  show V c main_arg12 _ = V c main_arg12 _
  obtain ⟨e0, e1⟩ := idx2_7 t
  congr 1
  funext a
  apply Fin.ext
  match a with
  | ⟨0, _⟩ => show win2_7.index t (0 : Fin 2) * 256 + 1 * p.val = p.val; rw [e0]; omega
  | ⟨1, _⟩ => show win2_7.index t (1 : Fin 2) * 128 + 1 * q.val = q.val; rw [e1]; omega
/-- Window 8's block is the whole array at every point. -/
theorem blk8_apply (c : Dev nD) (t : Fin cfg2.N) (p : Fin 1) (q : Fin 128) :
    (iblk2 V c 8 t : Vec Ideal S1x128 .f32) (ix2 p q) = V c main_v20 (ix2 p q) := by
  unfold iblk2
  rw [View.read_apply]
  show V c main_v20 _ = V c main_v20 _
  obtain ⟨e0, e1⟩ := idx2_8 t
  congr 1
  funext a
  apply Fin.ext
  match a with
  | ⟨0, _⟩ => show win2_8.index t (0 : Fin 2) * 1 + 1 * p.val = p.val; rw [e0]; omega
  | ⟨1, _⟩ => show win2_8.index t (1 : Fin 2) * 128 + 1 * q.val = q.val; rw [e1]; omega

/-! ## One point's tile is a tile of the specification's array -/

/-- The tile function of blocks that hold tile t of v, its batch statistics and the parameters is the feed-forward
    block of the normalised v at the tile's rows: the same sums and maximum, term by term. -/
theorem ztile_eq_ffn (I : In) (v : Fin 32768 → Fin 128 → EReal) (t : ℕ)
    (x0 : Vec Ideal S4096x128 .f32) (x1 x2 x3 x4 : Vec Ideal S1x128 .f32) (x5 : Vec Ideal S128x256 .f32)
    (x6 : Vec Ideal S1x256 .f32) (x7 : Vec Ideal S256x128 .f32) (x8 : Vec Ideal S1x128 .f32)
    (e0 : ∀ r e, x0 (ix2 r e) = v (rowAt t r) e)
    (e1 : ∀ e, x1 (ix2 0 e) = muK v e) (e2 : ∀ e, x2 (ix2 0 e) = varK v e)
    (e3 : ∀ e, x3 (ix2 0 e) = I.g1 e) (e4 : ∀ e, x4 (ix2 0 e) = I.bt1 e)
    (e5 : ∀ d j, x5 (ix2 d j) = I.F1W d j) (e6 : ∀ j, x6 (ix2 0 j) = I.F1b j)
    (e7 : ∀ j e, x7 (ix2 j e) = I.F2W j e) (e8 : ∀ e, x8 (ix2 0 e) = I.F2b e) (r : Fin 4096) (e : Fin 128) :
    ztile x0 x1 x2 x3 x4 x5 x6 x7 x8 r e = ffn I (bnK v I.g1 I.bt1) (rowAt t r) e := by
  have hx : ∀ d, xtile x0 x1 x2 x3 x4 r d = bnK v I.g1 I.bt1 (rowAt t r) d := by
    intro d
    unfold xtile bnK
    rw [e0, e1, e2, e3, e4]
  unfold ztile ffn
  simp only [hx, e5, e6, e7, e8]

/-- The same at a point's own blocks, from what the entry contents hold. -/
theorem ztile_blocks (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (r : Fin 4096) (e : Fin 128) :
    ztile (iblk2 V c 0 t) (iblk2 V c 1 t) (iblk2 V c 2 t) (iblk2 V c 3 t) (iblk2 V c 4 t) (iblk2 V c 5 t) (iblk2 V c 6 t) (iblk2 V c 7 t) (iblk2 V c 8 t) r e = ffn I (bnK v I.g1 I.bt1) (rowAt t.val r) e :=
  ztile_eq_ffn I v t.val (iblk2 V c 0 t) (iblk2 V c 1 t) (iblk2 V c 2 t) (iblk2 V c 3 t) (iblk2 V c 4 t) (iblk2 V c 5 t) (iblk2 V c 6 t) (iblk2 V c 7 t) (iblk2 V c 8 t)
    (fun r e => (blk0_apply V c t r e).trans (h0 _ e))
    (fun e => (blk1_apply V c t 0 e).trans (h1 e)) (fun e => (blk2_apply V c t 0 e).trans (h2 e))
    (fun e => (blk3_apply V c t 0 e).trans (h3 e)) (fun e => (blk4_apply V c t 0 e).trans (h4 e))
    (fun d j => (blk5_apply V c t d j).trans (h5 d j)) (fun j => (blk6_apply V c t 0 j).trans (h6 j))
    (fun j e => (blk7_apply V c t j e).trans (h7 j e)) (fun e => (blk8_apply V c t 0 e).trans (h8 e)) r e

/-! ## What the three outputs' buffers hold after each point -/

/-- The array the launch stores: the feed-forward block of the normalised v. -/
abbrev outArr (I : In) (v : Fin 32768 → Fin 128 → EReal) : Fin 32768 → Fin 128 → EReal := ffn I (bnK v I.g1 I.bt1)

/-- After point n: the tile buffer holds tile n of the array; the two accumulators hold the column sums of the array
    and of its square over the rows from the start of the point's core to the end of tile n. -/
def Inv (c : Dev nD) (I : In) (v : Fin 32768 → Fin 128 → EReal) (n : ℕ) (hn : n < cfg2.N) : Prop :=
  (∀ (r : Fin 4096) (e : Fin 128), (outsAt2 V c n hn).1 (ix2 r e) = outArr I v (rowAt n r) e)
  ∧ (∀ e : Fin 128, (outsAt2 V c n hn).2.1 (ix3 0 0 e) = ∑ m ∈ rowsIn (16384 * (n / 4)) (4096 * (n + 1)), outArr I v m e)
  ∧ (∀ e : Fin 128, (outsAt2 V c n hn).2.2 (ix3 0 0 e)
      = ∑ m ∈ rowsIn (16384 * (n / 4)) (4096 * (n + 1)), outArr I v m e * outArr I v m e)

/-- At a core's first point the accumulators are reset and receive the tile's column sums: the run of rows is the
    tile itself. -/
theorem inv_reset (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hA : t.val % 4 = 0) : Inv V c I v t.val t.isLt := by
  have hrun : 16384 * (t.val / 4) = 4096 * t.val := by omega
  unfold Inv
  rw [outsAt2_A V c t hA]
  dsimp only
  refine ⟨fun r e => ?_, fun e => ?_, fun e => ?_⟩
  · refine (out2_A_9_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr hA) (iblk2 V c 0 t) (iblk2 V c 1 t) (iblk2 V c 2 t) (iblk2 V c 3 t) (iblk2 V c 4 t) (iblk2 V c 5 t) (iblk2 V c 6 t) (iblk2 V c 7 t) (iblk2 V c 8 t) r e).trans ?_
    exact ztile_blocks V c I v h0 h1 h2 h3 h4 h5 h6 h7 h8 t r e
  · refine (out2_A_10_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr hA) (iblk2 V c 0 t) (iblk2 V c 1 t) (iblk2 V c 2 t) (iblk2 V c 3 t) (iblk2 V c 4 t) (iblk2 V c 5 t) (iblk2 V c 6 t) (iblk2 V c 7 t) (iblk2 V c 8 t) e).trans ?_
    refine (Finset.sum_congr rfl fun r _ => ztile_blocks V c I v h0 h1 h2 h3 h4 h5 h6 h7 h8 t r e).trans ?_
    rw [hrun]
    exact sum_tile (fun m => outArr I v m e) t.val (lt8 t)
  · refine (out2_A_11_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr hA) (iblk2 V c 0 t) (iblk2 V c 1 t) (iblk2 V c 2 t) (iblk2 V c 3 t) (iblk2 V c 4 t) (iblk2 V c 5 t) (iblk2 V c 6 t) (iblk2 V c 7 t) (iblk2 V c 8 t) e).trans ?_
    refine (Finset.sum_congr rfl fun r _ => congrArg₂ (· * ·) (ztile_blocks V c I v h0 h1 h2 h3 h4 h5 h6 h7 h8 t r e) (ztile_blocks V c I v h0 h1 h2 h3 h4 h5 h6 h7 h8 t r e)).trans ?_
    rw [hrun]
    exact sum_tile (fun m => outArr I v m e * outArr I v m e) t.val (lt8 t)

/-- At a later point of a core the accumulators gain the tile's column sums: the run of rows grows by the tile. -/
theorem inv_step (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hB : ¬t.val % 4 = 0)
    (ih : Inv V c I v (t.val - 1) (Nat.lt_of_le_of_lt (Nat.sub_le _ _) t.isLt)) : Inv V c I v t.val t.isLt := by
  have hlt := lt8 t
  have hrun : 16384 * ((t.val - 1) / 4) = 16384 * (t.val / 4) := by omega
  have hend : 4096 * (t.val - 1 + 1) = 4096 * t.val := by omega
  unfold Inv at ih
  obtain ⟨-, ih10, ih11⟩ := ih
  unfold Inv
  rw [outsAt2_B V c t hB]
  dsimp only
  refine ⟨fun r e => ?_, fun e => ?_, fun e => ?_⟩
  · refine (out2_B_9_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => hB ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2 r e).trans ?_
    exact ztile_blocks V c I v h0 h1 h2 h3 h4 h5 h6 h7 h8 t r e
  · refine (out2_B_10_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => hB ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2 e).trans ?_
    rw [ih10 e, hrun, hend]
    refine (congrArg (_ + ·) ((Finset.sum_congr rfl fun r _ => ztile_blocks V c I v h0 h1 h2 h3 h4 h5 h6 h7 h8 t r e).trans
      (sum_tile (fun m => outArr I v m e) t.val hlt))).trans ?_
    exact sum_rowsIn_add (fun m => outArr I v m e) _ _ _ (by omega) (by omega)
  · refine (out2_B_11_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => hB ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2 e).trans ?_
    rw [ih11 e, hrun, hend]
    refine (congrArg (_ + ·) ((Finset.sum_congr rfl fun r _ => congrArg₂ (· * ·) (ztile_blocks V c I v h0 h1 h2 h3 h4 h5 h6 h7 h8 t r e) (ztile_blocks V c I v h0 h1 h2 h3 h4 h5 h6 h7 h8 t r e)).trans
      (sum_tile (fun m => outArr I v m e * outArr I v m e) t.val hlt))).trans ?_
    exact sum_rowsIn_add (fun m => outArr I v m e * outArr I v m e) _ _ _ (by omega) (by omega)

/-- The invariant holds after every point, by induction on the point. -/
theorem inv_all (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e) :
    ∀ (n : ℕ) (hn : n < cfg2.N), Inv V c I v n hn
  | 0, hn => inv_reset V c I v h0 h1 h2 h3 h4 h5 h6 h7 h8 ⟨0, hn⟩ (Nat.zero_mod 4)
  | n + 1, hn => by
    by_cases hA : (n + 1) % 4 = 0
    · exact inv_reset V c I v h0 h1 h2 h3 h4 h5 h6 h7 h8 ⟨n + 1, hn⟩ hA
    · exact inv_step V c I v h0 h1 h2 h3 h4 h5 h6 h7 h8 ⟨n + 1, hn⟩ hA (inv_all c I v h0 h1 h2 h3 h4 h5 h6 h7 h8 n (Nat.lt_of_succ_lt hn))

/-! ## The arrays after the run -/

/-- What window 9's array ends holding: the stored array. -/
def G9 (I : In) (v : Fin 32768 → Fin 128 → EReal) : Vec Ideal S32768x128 .f32 := fun i => outArr I v (i 0) (i 1)

/-- Point t's block of window 9's array, row r, is row 4096·t + r of the array. -/
theorem read9_apply (t : Fin cfg2.N) (G : Vec Ideal S32768x128 .f32) (r : Fin 4096) (e : Fin 128) :
    (((cfg2.win 9).blk t).view.read (Elt Ideal) G : Vec Ideal S4096x128 .f32) (ix2 r e) = G (ix2 (rowAt t.val r) e) := by
  rw [View.read_apply]
  show G _ = G _
  obtain ⟨e0, e1⟩ := idx2_9 t
  congr 1
  funext a
  apply Fin.ext
  match a with
  | ⟨0, _⟩ => show win2_9.index t (0 : Fin 2) * 4096 + 1 * r.val = (rowAt t.val r).val; rw [rowAt_val _ (lt8 t), e0]; omega
  | ⟨1, _⟩ => show win2_9.index t (1 : Fin 2) * 128 + 1 * e.val = e.val; rw [e1]; omega

/-- What point t writes back is block t of the stored array: rows 4096·t … 4096·t + 4095. -/
theorem flushed9_eq (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) :
    (dat2 (F := Ideal) V c).flushed 9 t = ((cfg2.win 9).blk t).view.read (Elt Ideal) (G9 I v) := by
  show ((cfg2.win 9).cut (grid2.coords t) ((dat2 (F := Ideal) V c).after 9 t) : Vec Ideal S4096x128 .f32) = _
  rw [after2_9]
  funext j
  obtain ⟨r, e, rfl⟩ : ∃ (r : Fin 4096) (e : Fin 128), j = ix2 r e := ⟨j 0, j 1, eq_ix2 j⟩
  exact ((inv_all V c I v h0 h1 h2 h3 h4 h5 h6 h7 h8 t.val t.isLt).1 r e).trans (read9_apply t (G9 I v) r e).symm

/-- An index of window 9's array is in point t's block iff each coordinate is in the block's range. -/
theorem mem_blk9 (t : Fin cfg2.N) (i : S32768x128.Idx) :
    i ∈ ((cfg2.win 9).blk t).view.set ↔ ∀ a : Fin 2, win2_9.index t a * S4096x128.size a ≤ (i a).val
      ∧ (i a).val < win2_9.index t a * S4096x128.size a + S4096x128.size a := by
  show i ∈ ((View.whole main_v21_0).slice (win2_9.rect t)).set ↔ _
  rw [View.set_slice_whole, Rect.mem_set_unit]
  exact Iff.rfl

/-- Row n lies in the block of point n / 4096. -/
theorem cover9 (i : S32768x128.Idx) :
    ∃ t : Fin cfg2.N, (cfg2.win 9).flush t = true ∧ i ∈ ((cfg2.win 9).blk t).view.set := by
  have hi0 : (i 0).val < 32768 := (i 0).isLt
  have hi1 : (i 1).val < 128 := (i 1).isLt
  obtain ⟨t, ht⟩ : ∃ t : Fin cfg2.N, t.val = (i 0).val / 4096 := ⟨pt ((i 0).val / 4096) (by omega), rfl⟩
  refine ⟨t, flush2_9 t, ?_⟩
  rw [mem_blk9]
  obtain ⟨e0, e1⟩ := idx2_9 t
  intro a
  match a with
  | ⟨0, _⟩ =>
    show win2_9.index t (0 : Fin 2) * 4096 ≤ (i 0).val ∧ (i 0).val < win2_9.index t (0 : Fin 2) * 4096 + 4096
    rw [e0]; omega
  | ⟨1, _⟩ =>
    show win2_9.index t (1 : Fin 2) * 128 ≤ (i 1).val ∧ (i 1).val < win2_9.index t (1 : Fin 2) * 128 + 128
    rw [e1]; omega

/-- Window 9's array after the run: the stored array. -/
theorem final9 (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e) :
    (dat2 (F := Ideal) V c).arrAt 9 cfg2.N = G9 I v :=
  (dat2 (F := Ideal) V c).arrAt_eq_of_cover 9 (G9 I v) (fun t _ => flushed9_eq V c I v h0 h1 h2 h3 h4 h5 h6 h7 h8 t) cover9

/-- The core a point belongs to: point t = 4·c + i is core c's. -/
def coreOf (t : Fin cfg2.N) : Fin 2 := ⟨t.val / 4, by have := lt8 t; omega⟩

/-- An index of a 1 × 1 × 128 block is (0, 0, e). -/
theorem eq_unit3 (j : S1x1x128.Idx) : j = ix3 0 0 (j 2) := by
  have hj0 : (j 0).val < 1 := (j 0).isLt
  have hj1 : (j 1).val < 1 := (j 1).isLt
  funext d
  match d with
  | ⟨0, _⟩ => exact Fin.ext (by show (j 0).val = 0; omega)
  | ⟨1, _⟩ => exact Fin.ext (by show (j 1).val = 0; omega)
  | ⟨2, _⟩ => rfl

/-- What window 10's array ends holding: per core the column sums of the stored array. -/
def G10 (I : In) (v : Fin 32768 → Fin 128 → EReal) : Vec Ideal S2x1x128 .f32 :=
  fun i => coreSum (outArr I v) (i 0) (i 2)

/-- After a core's last point the accumulator holds the core's column sums: the run of rows is the core's. -/
theorem acc10_last (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hlast : t.val % 4 = 3) (e : Fin 128) :
    (outsAt2 V c t.val t.isLt).2.1 (ix3 0 0 e) = coreSum (outArr I v) (coreOf t) e := by
  have hend : 4096 * (t.val + 1) = 16384 * (t.val / 4 + 1) := by omega
  rw [(inv_all V c I v h0 h1 h2 h3 h4 h5 h6 h7 h8 t.val t.isLt).2.1 e, coreSum_eq_rowsIn]
  show ∑ m ∈ rowsIn (16384 * (t.val / 4)) (4096 * (t.val + 1)), _ = ∑ m ∈ rowsIn (16384 * (t.val / 4)) (16384 * (t.val / 4 + 1)), _
  rw [hend]

/-- Point t's block of window 10's array is the block of the point's core. -/
theorem read10_apply (t : Fin cfg2.N) (G : Vec Ideal S2x1x128 .f32) (e : Fin 128) :
    (((cfg2.win 10).blk t).view.read (Elt Ideal) G : Vec Ideal S1x1x128 .f32) (ix3 0 0 e) = G (ix3 (coreOf t) 0 e) := by
  rw [View.read_apply]
  show G _ = G _
  obtain ⟨e0, e1, e2⟩ := idx2_10 t
  congr 1
  funext a
  apply Fin.ext
  match a with
  | ⟨0, _⟩ => show win2_10.index t (0 : Fin 3) * 1 + 1 * 0 = t.val / 4; rw [e0]; omega
  | ⟨1, _⟩ => show win2_10.index t (1 : Fin 3) * 1 + 1 * 0 = 0; rw [e1]
  | ⟨2, _⟩ => show win2_10.index t (2 : Fin 3) * 128 + 1 * e.val = e.val; rw [e2]; omega

/-- What a core's last point writes back is the core's block of the column sums. -/
theorem flushed10_eq (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hf : (cfg2.win 10).flush t = true) :
    (dat2 (F := Ideal) V c).flushed 10 t = ((cfg2.win 10).blk t).view.read (Elt Ideal) (G10 I v) := by
  have hlast : t.val % 4 = 3 := (flush2_10 t).mp hf
  show ((cfg2.win 10).cut (grid2.coords t) ((dat2 (F := Ideal) V c).after 10 t) : Vec Ideal S1x1x128 .f32) = _
  rw [after2_10]
  funext j
  obtain ⟨e, rfl⟩ : ∃ e : Fin 128, j = ix3 0 0 e := ⟨j 2, eq_unit3 j⟩
  exact (acc10_last V c I v h0 h1 h2 h3 h4 h5 h6 h7 h8 t hlast e).trans (read10_apply t (G10 I v) e).symm

/-- An index of window 10's array is in point t's block iff each coordinate is in the block's range. -/
theorem mem_blk10 (t : Fin cfg2.N) (i : S2x1x128.Idx) :
    i ∈ ((cfg2.win 10).blk t).view.set ↔ ∀ a : Fin 3, win2_10.index t a * S1x1x128.size a ≤ (i a).val
      ∧ (i a).val < win2_10.index t a * S1x1x128.size a + S1x1x128.size a := by
  show i ∈ ((View.whole main_v21_1).slice (win2_10.rect t)).set ↔ _
  rw [View.set_slice_whole, Rect.mem_set_unit]
  exact Iff.rfl

/-- Core c's block is written back by the core's last point, 4·c + 3. -/
theorem cover10 (i : S2x1x128.Idx) :
    ∃ t : Fin cfg2.N, (cfg2.win 10).flush t = true ∧ i ∈ ((cfg2.win 10).blk t).view.set := by
  have hi0 : (i 0).val < 2 := (i 0).isLt
  have hi1 : (i 1).val < 1 := (i 1).isLt
  have hi2 : (i 2).val < 128 := (i 2).isLt
  obtain ⟨t, ht⟩ : ∃ t : Fin cfg2.N, t.val = 4 * (i 0).val + 3 := ⟨pt (4 * (i 0).val + 3) (by omega), rfl⟩
  refine ⟨t, (flush2_10 t).mpr (by omega), ?_⟩
  rw [mem_blk10]
  obtain ⟨e0, e1, e2⟩ := idx2_10 t
  intro a
  match a with
  | ⟨0, _⟩ =>
    show win2_10.index t (0 : Fin 3) * 1 ≤ (i 0).val ∧ (i 0).val < win2_10.index t (0 : Fin 3) * 1 + 1
    rw [e0]; omega
  | ⟨1, _⟩ =>
    show win2_10.index t (1 : Fin 3) * 1 ≤ (i 1).val ∧ (i 1).val < win2_10.index t (1 : Fin 3) * 1 + 1
    rw [e1]; omega
  | ⟨2, _⟩ =>
    show win2_10.index t (2 : Fin 3) * 128 ≤ (i 2).val ∧ (i 2).val < win2_10.index t (2 : Fin 3) * 128 + 128
    rw [e2]; omega

/-- Window 10's array after the run: per core the column sums of the stored array. -/
theorem final10 (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e) :
    (dat2 (F := Ideal) V c).arrAt 10 cfg2.N = G10 I v :=
  (dat2 (F := Ideal) V c).arrAt_eq_of_cover 10 (G10 I v) (fun t hf => flushed10_eq V c I v h0 h1 h2 h3 h4 h5 h6 h7 h8 t hf) cover10

/-- What window 11's array ends holding: per core the column sums of the stored array's square. -/
def G11 (I : In) (v : Fin 32768 → Fin 128 → EReal) : Vec Ideal S2x1x128 .f32 :=
  fun i => coreSum (fun n e => outArr I v n e * outArr I v n e) (i 0) (i 2)

/-- After a core's last point the accumulator holds the core's column sums: the run of rows is the core's. -/
theorem acc11_last (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hlast : t.val % 4 = 3) (e : Fin 128) :
    (outsAt2 V c t.val t.isLt).2.2 (ix3 0 0 e) = coreSum (fun n e => outArr I v n e * outArr I v n e) (coreOf t) e := by
  have hend : 4096 * (t.val + 1) = 16384 * (t.val / 4 + 1) := by omega
  rw [(inv_all V c I v h0 h1 h2 h3 h4 h5 h6 h7 h8 t.val t.isLt).2.2 e, coreSum_eq_rowsIn]
  show ∑ m ∈ rowsIn (16384 * (t.val / 4)) (4096 * (t.val + 1)), _ = ∑ m ∈ rowsIn (16384 * (t.val / 4)) (16384 * (t.val / 4 + 1)), _
  rw [hend]

/-- Point t's block of window 11's array is the block of the point's core. -/
theorem read11_apply (t : Fin cfg2.N) (G : Vec Ideal S2x1x128 .f32) (e : Fin 128) :
    (((cfg2.win 11).blk t).view.read (Elt Ideal) G : Vec Ideal S1x1x128 .f32) (ix3 0 0 e) = G (ix3 (coreOf t) 0 e) := by
  rw [View.read_apply]
  show G _ = G _
  obtain ⟨e0, e1, e2⟩ := idx2_11 t
  congr 1
  funext a
  apply Fin.ext
  match a with
  | ⟨0, _⟩ => show win2_11.index t (0 : Fin 3) * 1 + 1 * 0 = t.val / 4; rw [e0]; omega
  | ⟨1, _⟩ => show win2_11.index t (1 : Fin 3) * 1 + 1 * 0 = 0; rw [e1]
  | ⟨2, _⟩ => show win2_11.index t (2 : Fin 3) * 128 + 1 * e.val = e.val; rw [e2]; omega

/-- What a core's last point writes back is the core's block of the column sums. -/
theorem flushed11_eq (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e)
    (t : Fin cfg2.N) (hf : (cfg2.win 11).flush t = true) :
    (dat2 (F := Ideal) V c).flushed 11 t = ((cfg2.win 11).blk t).view.read (Elt Ideal) (G11 I v) := by
  have hlast : t.val % 4 = 3 := (flush2_11 t).mp hf
  show ((cfg2.win 11).cut (grid2.coords t) ((dat2 (F := Ideal) V c).after 11 t) : Vec Ideal S1x1x128 .f32) = _
  rw [after2_11]
  funext j
  obtain ⟨e, rfl⟩ : ∃ e : Fin 128, j = ix3 0 0 e := ⟨j 2, eq_unit3 j⟩
  exact (acc11_last V c I v h0 h1 h2 h3 h4 h5 h6 h7 h8 t hlast e).trans (read11_apply t (G11 I v) e).symm

/-- An index of window 11's array is in point t's block iff each coordinate is in the block's range. -/
theorem mem_blk11 (t : Fin cfg2.N) (i : S2x1x128.Idx) :
    i ∈ ((cfg2.win 11).blk t).view.set ↔ ∀ a : Fin 3, win2_11.index t a * S1x1x128.size a ≤ (i a).val
      ∧ (i a).val < win2_11.index t a * S1x1x128.size a + S1x1x128.size a := by
  show i ∈ ((View.whole main_v21_2).slice (win2_11.rect t)).set ↔ _
  rw [View.set_slice_whole, Rect.mem_set_unit]
  exact Iff.rfl

/-- Core c's block is written back by the core's last point, 4·c + 3. -/
theorem cover11 (i : S2x1x128.Idx) :
    ∃ t : Fin cfg2.N, (cfg2.win 11).flush t = true ∧ i ∈ ((cfg2.win 11).blk t).view.set := by
  have hi0 : (i 0).val < 2 := (i 0).isLt
  have hi1 : (i 1).val < 1 := (i 1).isLt
  have hi2 : (i 2).val < 128 := (i 2).isLt
  obtain ⟨t, ht⟩ : ∃ t : Fin cfg2.N, t.val = 4 * (i 0).val + 3 := ⟨pt (4 * (i 0).val + 3) (by omega), rfl⟩
  refine ⟨t, (flush2_11 t).mpr (by omega), ?_⟩
  rw [mem_blk11]
  obtain ⟨e0, e1, e2⟩ := idx2_11 t
  intro a
  match a with
  | ⟨0, _⟩ =>
    show win2_11.index t (0 : Fin 3) * 1 ≤ (i 0).val ∧ (i 0).val < win2_11.index t (0 : Fin 3) * 1 + 1
    rw [e0]; omega
  | ⟨1, _⟩ =>
    show win2_11.index t (1 : Fin 3) * 1 ≤ (i 1).val ∧ (i 1).val < win2_11.index t (1 : Fin 3) * 1 + 1
    rw [e1]; omega
  | ⟨2, _⟩ =>
    show win2_11.index t (2 : Fin 3) * 128 ≤ (i 2).val ∧ (i 2).val < win2_11.index t (2 : Fin 3) * 128 + 128
    rw [e2]; omega

/-- Window 11's array after the run: per core the column sums of the stored array's square. -/
theorem final11 (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e) :
    (dat2 (F := Ideal) V c).arrAt 11 cfg2.N = G11 I v :=
  (dat2 (F := Ideal) V c).arrAt_eq_of_cover 11 (G11 I v) (fun t hf => flushed11_eq V c I v h0 h1 h2 h3 h4 h5 h6 h7 h8 t hf) cover11

end FfnGrid

open FfnGrid

variable (V : (c : Dev nD) → (b : Ref sig .tc) → Buf (Elt Ideal) ((c : Thread nD τ).loc b))

/-! ## The launch's three results -/

/-- After the third launch, from entry contents that hold an array v, its kernel-side batch statistics and the
    specification's parameters: the feed-forward block of the normalised v, and per core its column sums. -/
theorem ffn_value (c : Dev nD) (I : In) (v : Fin 32768 → Fin 128 → EReal)
    (h0 : ∀ n e, V c main_v6_0 (ix2 n e) = v n e)
    (h1 : ∀ e, V c main_v9 (ix2 0 e) = muK v e)
    (h2 : ∀ e, V c main_v16 (ix2 0 e) = varK v e)
    (h3 : ∀ e, V c main_v17 (ix2 0 e) = I.g1 e)
    (h4 : ∀ e, V c main_v18 (ix2 0 e) = I.bt1 e)
    (h5 : ∀ d j, V c main_arg10 (ix2 d j) = I.F1W d j)
    (h6 : ∀ j, V c main_v19 (ix2 0 j) = I.F1b j)
    (h7 : ∀ j e, V c main_arg12 (ix2 j e) = I.F2W j e)
    (h8 : ∀ e, V c main_v20 (ix2 0 e) = I.F2b e) :
    (∀ (n : Fin 32768) (e : Fin 128), (dat2 (F := Ideal) V c).arrAt 9 cfg2.N (ix2 n e) = ffn I (bnK v I.g1 I.bt1) n e)
    ∧ (∀ (c' : Fin 2) (e : Fin 128), (dat2 (F := Ideal) V c).arrAt 10 cfg2.N (ix3 c' 0 e)
        = coreSum (ffn I (bnK v I.g1 I.bt1)) c' e)
    ∧ (∀ (c' : Fin 2) (e : Fin 128), (dat2 (F := Ideal) V c).arrAt 11 cfg2.N (ix3 c' 0 e)
        = coreSum (fun n e => ffn I (bnK v I.g1 I.bt1) n e * ffn I (bnK v I.g1 I.bt1) n e) c' e) := by
  refine ⟨fun n e => ?_, fun c' e => ?_, fun c' e => ?_⟩
  · exact congrFun (final9 V c I v h0 h1 h2 h3 h4 h5 h6 h7 h8) (ix2 n e)
  · exact congrFun (final10 V c I v h0 h1 h2 h3 h4 h5 h6 h7 h8) (ix3 c' 0 e)
  · exact congrFun (final11 V c I v h0 h1 h2 h3 h4 h5 h6 h7 h8) (ix3 c' 0 e)

end Cert.KernelIdeal.Val

end
-- ==== Proof.KI.Norm2.lean ====
/-
  The last launch: the second normalisation applied row block by row block. Each grid point takes 4096 rows of z and
  the four 1 × 128 rows (mean, variance, scale, shift) and writes g · (z − μ) · rsqrt(σ² + ε) + β; the eight blocks
  tile the rows.
-/
import proofs.«419117_j60533269069902_3_alg».proof.Proof.Gen.KernelIdeal.Frame
import proofs.«419117_j60533269069902_3_alg».proof.Proof.Math.Inputs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

/-! ## The body at one entry -/

/-- The body's arithmetic at row p, column q of a block: the four rows are laid along every row of the block, so the
    entry is g(q) · (z(p, q) − μ(q)) · rsqrt(σ²(q) + ε) + β(q), with ε the literal both programs carry. -/
theorem norm2_pay_apply (z : Vec Ideal S4096x128 .f32) (mu var g bt : Vec Ideal S1x128 .f32) (p : Fin 4096) (q : Fin 128) :
    k3_pay1 z mu var g bt (ix2 p q)
      = g (ix2 0 q) * (z (ix2 p q) - mu (ix2 0 q)) * Ideal.rsqrt (var (ix2 0 q) + w_eps) + bt (ix2 0 q) := by
  unfold k3_pay1
  simp only [shapeCast_self, addf_apply, mulf_apply, subf_apply, broadcastTo_1b_ab_apply]
  rfl

variable (V : (c : Dev nD) → (b : Ref sig .tc) → Buf (Elt Ideal) ((c : Thread nD τ).loc b))

/-- The array z, its batch mean and variance, and the scale and shift rows as the launch finds them, at their literal types. -/
abbrev zArr (c : Dev nD) : Vec Ideal S32768x128 .f32 := V c main_v21_0
abbrev mu2Arr (c : Dev nD) : Vec Ideal S1x128 .f32 := V c main_v24
abbrev var2Arr (c : Dev nD) : Vec Ideal S1x128 .f32 := V c main_v31
abbrev g2Arr (c : Dev nD) : Vec Ideal S1x128 .f32 := V c main_v32
abbrev bt2Arr (c : Dev nD) : Vec Ideal S1x128 .f32 := V c main_v33

/-! ## From the eight row blocks to the array -/

/-- The offset (0, 0) of a whole-block access is the zero offset on every axis. -/
theorem norm2_hz : (![0, 0] : Fin 2 → Nat) = fun _ => 0 := funext fun a => by fin_cases a <;> rfl

/-- The normalisation as one function of the five arrays, entry by entry. -/
abbrev norm2G (c : Dev nD) : S32768x128.Idx → EReal :=
  fun i => g2Arr V c (ix2 0 (i 1)) * (zArr V c (ix2 (i 0) (i 1)) - mu2Arr V c (ix2 0 (i 1)))
    * Ideal.rsqrt (var2Arr V c (ix2 0 (i 1)) + w_eps) + bt2Arr V c (ix2 0 (i 1))

/-- Where the blocks lie: at grid point t the rows of z and of the result are block t of 4096 rows, and each of the
    four parameter rows is taken whole. -/
theorem norm2_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of the block of z at point t is z at row 4096 t + p, column q. -/
theorem norm2_zblk_apply (c : Dev nD) (t : Fin cfg3.N) (p : Fin 4096) (q : Fin 128) (i : S32768x128.Idx)
    (hi0 : (i 0).val = t.val * 4096 + p.val) (hi1 : (i 1).val = q.val) :
    (iblk3 V c 0 t : Vec Ideal S4096x128 .f32) (ix2 p q) = zArr V c i := by
  obtain ⟨e0, e1, -⟩ := norm2_idx_facts t
  unfold iblk3
  rw [View.read_apply]
  show V c main_v21_0 _ = V c main_v21_0 _
  congr 1
  funext a
  apply Fin.ext
  match a with
  | ⟨0, _⟩ => show win3_0.index t (0 : Fin 2) * 4096 + 1 * p.val = (i 0).val; rw [e0, hi0]; omega
  | ⟨1, _⟩ => show win3_0.index t (1 : Fin 2) * 128 + 1 * q.val = (i 1).val; rw [e1, hi1]; omega

/-- The block of the mean row at any point is the row itself. -/
theorem norm2_mu2blk_apply (c : Dev nD) (t : Fin cfg3.N) (q : Fin 128) (i : S1x128.Idx)
    (hi0 : (i 0).val = 0) (hi1 : (i 1).val = q.val) :
    (iblk3 V c 1 t : Vec Ideal S1x128 .f32) (ix2 0 q) = mu2Arr V c i := by
  obtain ⟨-, -, ea, eb, -, -, -, -, -, -, -, -⟩ := norm2_idx_facts t
  unfold iblk3
  rw [View.read_apply]
  show V c main_v24 _ = V c main_v24 _
  congr 1
  funext a
  apply Fin.ext
  match a with
  | ⟨0, _⟩ => show win3_1.index t (0 : Fin 2) * 1 + 1 * 0 = (i 0).val; rw [ea, hi0]
  | ⟨1, _⟩ => show win3_1.index t (1 : Fin 2) * 128 + 1 * q.val = (i 1).val; rw [eb, hi1]; omega

/-- The block of the variance row at any point is the row itself. -/
theorem norm2_var2blk_apply (c : Dev nD) (t : Fin cfg3.N) (q : Fin 128) (i : S1x128.Idx)
    (hi0 : (i 0).val = 0) (hi1 : (i 1).val = q.val) :
    (iblk3 V c 2 t : Vec Ideal S1x128 .f32) (ix2 0 q) = var2Arr V c i := by
  obtain ⟨-, -, -, -, ea, eb, -, -, -, -, -, -⟩ := norm2_idx_facts t
  unfold iblk3
  rw [View.read_apply]
  show V c main_v31 _ = V c main_v31 _
  congr 1
  funext a
  apply Fin.ext
  match a with
  | ⟨0, _⟩ => show win3_2.index t (0 : Fin 2) * 1 + 1 * 0 = (i 0).val; rw [ea, hi0]
  | ⟨1, _⟩ => show win3_2.index t (1 : Fin 2) * 128 + 1 * q.val = (i 1).val; rw [eb, hi1]; omega

/-- The block of the scale row at any point is the row itself. -/
theorem norm2_g2blk_apply (c : Dev nD) (t : Fin cfg3.N) (q : Fin 128) (i : S1x128.Idx)
    (hi0 : (i 0).val = 0) (hi1 : (i 1).val = q.val) :
    (iblk3 V c 3 t : Vec Ideal S1x128 .f32) (ix2 0 q) = g2Arr V c i := by
  obtain ⟨-, -, -, -, -, -, ea, eb, -, -, -, -⟩ := norm2_idx_facts t
  unfold iblk3
  rw [View.read_apply]
  show V c main_v32 _ = V c main_v32 _
  congr 1
  funext a
  apply Fin.ext
  match a with
  | ⟨0, _⟩ => show win3_3.index t (0 : Fin 2) * 1 + 1 * 0 = (i 0).val; rw [ea, hi0]
  | ⟨1, _⟩ => show win3_3.index t (1 : Fin 2) * 128 + 1 * q.val = (i 1).val; rw [eb, hi1]; omega

/-- The block of the shift row at any point is the row itself. -/
theorem norm2_bt2blk_apply (c : Dev nD) (t : Fin cfg3.N) (q : Fin 128) (i : S1x128.Idx)
    (hi0 : (i 0).val = 0) (hi1 : (i 1).val = q.val) :
    (iblk3 V c 4 t : Vec Ideal S1x128 .f32) (ix2 0 q) = bt2Arr V c i := by
  obtain ⟨-, -, -, -, -, -, -, -, ea, eb, -, -⟩ := norm2_idx_facts t
  unfold iblk3
  rw [View.read_apply]
  show V c main_v33 _ = V c main_v33 _
  congr 1
  funext a
  apply Fin.ext
  match a with
  | ⟨0, _⟩ => show win3_4.index t (0 : Fin 2) * 1 + 1 * 0 = (i 0).val; rw [ea, hi0]
  | ⟨1, _⟩ => show win3_4.index t (1 : Fin 2) * 128 + 1 * q.val = (i 1).val; rw [eb, hi1]; omega

/-- What point t writes back is block t of the normalisation. -/
theorem norm2_flushed (c : Dev nD) (t : Fin cfg3.N) :
    (dat3 (F := Ideal) V c).flushed 5 t = ((cfg3.win 5).blk t).view.read (Elt Ideal) (norm2G V c) := by
  show (cfg3.win 5).cut (grid3.coords t) ((dat3 (F := Ideal) V c).after 5 t) = _
  rw [after3_5]
  unfold out3_5
  rw [View.canon_unit_zero norm2_hz]
  simp only [View.ld_unit_zero (S := S4096x128) norm2_hz, View.ld_unit_zero (S := S1x128) norm2_hz]
  funext j
  obtain ⟨p, q, rfl⟩ : ∃ (p : Fin 4096) (q : Fin 128), j = ix2 p q := ⟨j 0, j 1, eq_ix2 j⟩
  obtain ⟨-, -, -, -, -, -, -, -, -, -, e10, e11⟩ := norm2_idx_facts t
  show k3_pay1 (iblk3 V c 0 t) (iblk3 V c 1 t) (iblk3 V c 2 t) (iblk3 V c 3 t) (iblk3 V c 4 t) (ix2 p q)
    = norm2G V c (((cfg3.win 5).blk t).view.emb (ix2 p q))
  refine (norm2_pay_apply (iblk3 V c 0 t) (iblk3 V c 1 t) (iblk3 V c 2 t) (iblk3 V c 3 t) (iblk3 V c 4 t) p q).trans ?_
  have hp : ((((cfg3.win 5).blk t).view.emb (ix2 p q)) 0).val = t.val * 4096 + p.val := by
    show win3_5.index t (0 : Fin 2) * 4096 + 1 * p.val = _; rw [e10]; omega
  have hq : ((((cfg3.win 5).blk t).view.emb (ix2 p q)) 1).val = q.val := by
    show win3_5.index t (1 : Fin 2) * 128 + 1 * q.val = _; rw [e11]; omega
  have h0 : (iblk3 V c 0 t : Vec Ideal S4096x128 .f32) (ix2 p q)
      = zArr V c (ix2 ((((cfg3.win 5).blk t).view.emb (ix2 p q)) 0) ((((cfg3.win 5).blk t).view.emb (ix2 p q)) 1)) := norm2_zblk_apply V c t p q _ hp hq
  have h1 : (iblk3 V c 1 t : Vec Ideal S1x128 .f32) (ix2 0 q)
      = mu2Arr V c (ix2 0 ((((cfg3.win 5).blk t).view.emb (ix2 p q)) 1)) := norm2_mu2blk_apply V c t q _ rfl hq
  have h2 : (iblk3 V c 2 t : Vec Ideal S1x128 .f32) (ix2 0 q)
      = var2Arr V c (ix2 0 ((((cfg3.win 5).blk t).view.emb (ix2 p q)) 1)) := norm2_var2blk_apply V c t q _ rfl hq
  have h3 : (iblk3 V c 3 t : Vec Ideal S1x128 .f32) (ix2 0 q)
      = g2Arr V c (ix2 0 ((((cfg3.win 5).blk t).view.emb (ix2 p q)) 1)) := norm2_g2blk_apply V c t q _ rfl hq
  have h4 : (iblk3 V c 4 t : Vec Ideal S1x128 .f32) (ix2 0 q)
      = bt2Arr V c (ix2 0 ((((cfg3.win 5).blk t).view.emb (ix2 p q)) 1)) := norm2_bt2blk_apply V c t q _ rfl hq
  rw [h0, h1, h2, h3, h4]

/-- An index of the result array lies in point t's block iff each coordinate lies in the block's range. -/
theorem norm2_mem_blk (t : Fin cfg3.N) (i : S32768x128.Idx) :
    i ∈ ((cfg3.win 5).blk t).view.set ↔ ∀ a : Fin 2, win3_5.index t a * S4096x128.size a ≤ (i a).val
      ∧ (i a).val < win3_5.index t a * S4096x128.size a + S4096x128.size a := by
  show i ∈ ((View.whole main_v34).slice (win3_5.rect t)).set ↔ _
  rw [View.set_slice_whole, Rect.mem_set_unit]
  exact Iff.rfl

/-- The eight blocks tile the rows: row r lies in the block of point r / 4096. -/
theorem norm2_cover (i : S32768x128.Idx) :
    ∃ t : Fin cfg3.N, (cfg3.win 5).flush t = true ∧ i ∈ ((cfg3.win 5).blk t).view.set := by
  have hi0 : (i 0).val < 32768 := (i 0).isLt
  have hi1 : (i 1).val < 128 := (i 1).isLt
  have hN : cfg3.N = 8 := N_3
  obtain ⟨t, ht⟩ : ∃ t : Fin cfg3.N, t.val = (i 0).val / 4096 := ⟨⟨(i 0).val / 4096, by rw [hN]; omega⟩, rfl⟩
  obtain ⟨-, -, -, -, -, -, -, -, -, -, e10, e11⟩ := norm2_idx_facts t
  refine ⟨t, flush3_5 t, ?_⟩
  rw [norm2_mem_blk]
  intro a
  match a with
  | ⟨0, _⟩ =>
    show win3_5.index t (0 : Fin 2) * 4096 ≤ (i 0).val ∧ (i 0).val < win3_5.index t (0 : Fin 2) * 4096 + 4096
    rw [e10, ht]; omega
  | ⟨1, _⟩ =>
    show win3_5.index t (1 : Fin 2) * 128 ≤ (i 1).val ∧ (i 1).val < win3_5.index t (1 : Fin 2) * 128 + 128
    rw [e11]; omega

/-- So the result array ends holding the normalisation. -/
theorem norm2_final (c : Dev nD) : (dat3 (F := Ideal) V c).arrAt 5 cfg3.N = norm2G V c :=
  (dat3 (F := Ideal) V c).arrAt_eq_of_cover 5 (norm2G V c) (fun t _ => norm2_flushed V c t) norm2_cover

/-- After the last launch the result array is the normalisation of z by the statistics and parameters the launch found. -/
theorem norm2_value (c : Dev nD) (n : Fin 32768) (e : Fin 128) :
    (dat3 (F := Ideal) V c).arrAt 5 cfg3.N (ix2 n e) =
      g2Arr V c (ix2 0 e) * (zArr V c (ix2 n e) - mu2Arr V c (ix2 0 e))
        * Ideal.rsqrt (var2Arr V c (ix2 0 e) + w_eps) + bt2Arr V c (ix2 0 e) :=
  congrFun (norm2_final V c) (ix2 n e)

end Cert.KernelIdeal.Val

end
-- ==== Proof.KI.Value.lean ====
/-
  The idealized kernel's result as the specification's outK. The run passes eight boundaries: launch 0 (the projected
  array), the gather and re-layings, launch 1 (the pre-normalisation array and the two cores' sums), the first batch
  statistics, launch 2 (the feed-forward stage and its sums), the second statistics, launch 3 (the result). At each
  boundary the buffers the next stage reads are identified with the specification's stages of the inputs read off
  the launch memory; a buffer no stage in between writes keeps its launch contents.
-/
import proofs.«419117_j60533269069902_3_alg».proof.Proof.KI.Proj
import proofs.«419117_j60533269069902_3_alg».proof.Proof.KI.Take
import proofs.«419117_j60533269069902_3_alg».proof.Proof.KI.MsgGrid
import proofs.«419117_j60533269069902_3_alg».proof.Proof.KI.Stats
import proofs.«419117_j60533269069902_3_alg».proof.Proof.KI.FfnGrid
import proofs.«419117_j60533269069902_3_alg».proof.Proof.KI.Norm2

set_option maxRecDepth 16384

noncomputable section

namespace Cert.KernelIdeal.Val

open Cert.KernelIdeal Cert.KernelIdeal.Gen EdgeAttn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The specification's inputs read off core c's launch memory. -/
def inK : In := inOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- A host stretch leaves a buffer it does not write as it found it. -/
macro "host_keep" : tactic =>
  `(tactic| (refine StableHlo.after_of_forall_not_mem _ _ (List.forall_iff_forall_mem.mp ?_)
             simp only [hostOps1, hostOps1_1, hostOps2, hostOps3, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## Step by step: a buffer a stage does not write -/

/-- Launch 0 owns the node features, W1 and the projected array only. -/
theorem W1_other (b : Ref sig .tc) (hb : ∀ w, Pipeline.arrRef spec0 w ≠ b) :
    W1 m ρ c (Proc.devRef .tc b) = m ((c : Thread nD τ).loc b) := W1_of_ne m ρ c b hb
/-- Launch 0 only reads the node features. -/
theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
/-- The gather and the re-layings write none of the later stages' parameters. -/
theorem W3_arg8 : W3 m ρ c (Proc.devRef .tc main_arg8) = m ((c : Thread nD τ).loc main_arg8) :=
  (by host_keep : W3 m ρ c (Proc.devRef .tc main_arg8) = W2 m ρ c (Proc.devRef .tc main_arg8)).trans
    ((by host_keep : W2 m ρ c (Proc.devRef .tc main_arg8) = W1 m ρ c (Proc.devRef .tc main_arg8)).trans (W1_other m ρ c main_arg8 (by decide)))
theorem W3_arg9 : W3 m ρ c (Proc.devRef .tc main_arg9) = m ((c : Thread nD τ).loc main_arg9) :=
  (by host_keep : W3 m ρ c (Proc.devRef .tc main_arg9) = W2 m ρ c (Proc.devRef .tc main_arg9)).trans
    ((by host_keep : W2 m ρ c (Proc.devRef .tc main_arg9) = W1 m ρ c (Proc.devRef .tc main_arg9)).trans (W1_other m ρ c main_arg9 (by decide)))
theorem W3_arg10 : W3 m ρ c (Proc.devRef .tc main_arg10) = m ((c : Thread nD τ).loc main_arg10) :=
  (by host_keep : W3 m ρ c (Proc.devRef .tc main_arg10) = W2 m ρ c (Proc.devRef .tc main_arg10)).trans
    ((by host_keep : W2 m ρ c (Proc.devRef .tc main_arg10) = W1 m ρ c (Proc.devRef .tc main_arg10)).trans (W1_other m ρ c main_arg10 (by decide)))
theorem W3_arg11 : W3 m ρ c (Proc.devRef .tc main_arg11) = m ((c : Thread nD τ).loc main_arg11) :=
  (by host_keep : W3 m ρ c (Proc.devRef .tc main_arg11) = W2 m ρ c (Proc.devRef .tc main_arg11)).trans
    ((by host_keep : W2 m ρ c (Proc.devRef .tc main_arg11) = W1 m ρ c (Proc.devRef .tc main_arg11)).trans (W1_other m ρ c main_arg11 (by decide)))
theorem W3_arg12 : W3 m ρ c (Proc.devRef .tc main_arg12) = m ((c : Thread nD τ).loc main_arg12) :=
  (by host_keep : W3 m ρ c (Proc.devRef .tc main_arg12) = W2 m ρ c (Proc.devRef .tc main_arg12)).trans
    ((by host_keep : W2 m ρ c (Proc.devRef .tc main_arg12) = W1 m ρ c (Proc.devRef .tc main_arg12)).trans (W1_other m ρ c main_arg12 (by decide)))
theorem W3_arg13 : W3 m ρ c (Proc.devRef .tc main_arg13) = m ((c : Thread nD τ).loc main_arg13) :=
  (by host_keep : W3 m ρ c (Proc.devRef .tc main_arg13) = W2 m ρ c (Proc.devRef .tc main_arg13)).trans
    ((by host_keep : W2 m ρ c (Proc.devRef .tc main_arg13) = W1 m ρ c (Proc.devRef .tc main_arg13)).trans (W1_other m ρ c main_arg13 (by decide)))
theorem W3_arg14 : W3 m ρ c (Proc.devRef .tc main_arg14) = m ((c : Thread nD τ).loc main_arg14) :=
  (by host_keep : W3 m ρ c (Proc.devRef .tc main_arg14) = W2 m ρ c (Proc.devRef .tc main_arg14)).trans
    ((by host_keep : W2 m ρ c (Proc.devRef .tc main_arg14) = W1 m ρ c (Proc.devRef .tc main_arg14)).trans (W1_other m ρ c main_arg14 (by decide)))
theorem W3_arg15 : W3 m ρ c (Proc.devRef .tc main_arg15) = m ((c : Thread nD τ).loc main_arg15) :=
  (by host_keep : W3 m ρ c (Proc.devRef .tc main_arg15) = W2 m ρ c (Proc.devRef .tc main_arg15)).trans
    ((by host_keep : W2 m ρ c (Proc.devRef .tc main_arg15) = W1 m ρ c (Proc.devRef .tc main_arg15)).trans (W1_other m ρ c main_arg15 (by decide)))
/-- Launch 1 owns its eight inputs and three outputs only. -/
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)
theorem W4_arg12 : W4 m ρ c (Proc.devRef .tc main_arg12) = m ((c : Thread nD τ).loc main_arg12) := (W4_of_ne m ρ c main_arg12 (by decide)).trans (W3_arg12 m ρ c)
theorem W4_arg13 : W4 m ρ c (Proc.devRef .tc main_arg13) = m ((c : Thread nD τ).loc main_arg13) := (W4_of_ne m ρ c main_arg13 (by decide)).trans (W3_arg13 m ρ c)
theorem W4_arg14 : W4 m ρ c (Proc.devRef .tc main_arg14) = m ((c : Thread nD τ).loc main_arg14) := (W4_of_ne m ρ c main_arg14 (by decide)).trans (W3_arg14 m ρ c)
theorem W4_arg15 : W4 m ρ c (Proc.devRef .tc main_arg15) = m ((c : Thread nD τ).loc main_arg15) := (W4_of_ne m ρ c main_arg15 (by decide)).trans (W3_arg15 m ρ c)
/-- The first statistics stretch writes none of the feed-forward weights or the last launch's parameters. -/
theorem W5_arg10 : W5 m ρ c (Proc.devRef .tc main_arg10) = m ((c : Thread nD τ).loc main_arg10) :=
  (by host_keep : W5 m ρ c (Proc.devRef .tc main_arg10) = W4 m ρ c (Proc.devRef .tc main_arg10)).trans (W4_arg10 m ρ c)
theorem W5_arg12 : W5 m ρ c (Proc.devRef .tc main_arg12) = m ((c : Thread nD τ).loc main_arg12) :=
  (by host_keep : W5 m ρ c (Proc.devRef .tc main_arg12) = W4 m ρ c (Proc.devRef .tc main_arg12)).trans (W4_arg12 m ρ c)
theorem W5_arg14 : W5 m ρ c (Proc.devRef .tc main_arg14) = m ((c : Thread nD τ).loc main_arg14) :=
  (by host_keep : W5 m ρ c (Proc.devRef .tc main_arg14) = W4 m ρ c (Proc.devRef .tc main_arg14)).trans (W4_arg14 m ρ c)
theorem W5_arg15 : W5 m ρ c (Proc.devRef .tc main_arg15) = m ((c : Thread nD τ).loc main_arg15) :=
  (by host_keep : W5 m ρ c (Proc.devRef .tc main_arg15) = W4 m ρ c (Proc.devRef .tc main_arg15)).trans (W4_arg15 m ρ c)
theorem W6_arg14 : W6 m ρ c (Proc.devRef .tc main_arg14) = m ((c : Thread nD τ).loc main_arg14) := (W6_of_ne m ρ c main_arg14 (by decide)).trans (W5_arg14 m ρ c)
theorem W6_arg15 : W6 m ρ c (Proc.devRef .tc main_arg15) = m ((c : Thread nD τ).loc main_arg15) := (W6_of_ne m ρ c main_arg15 (by decide)).trans (W5_arg15 m ρ c)

/-! ## Boundary 1: after launch 0 the projected array is h · W1 -/

theorem W1_v0 (n : Fin 32768) (e : Fin 128) : W1 m ρ c (Proc.devRef .tc main_v0) (ix2 n e) = proj (inK m c) n e :=
  (congrFun (W1_arr m ρ c 2) (ix2 n e)).trans ((proj_value (V0 m ρ) c n e).trans rfl)

/-! ## Boundary 3: after the gather and the re-layings -/

theorem W3_v1 (hr : IdxInRange (m ((c : Thread nD τ).loc main_arg1))) (n : Fin 32768) (k : Fin 16) (e : Fin 128) :
    W3 m ρ c (Proc.devRef .tc main_v1) (ix3 n k e) = proj (inK m c) ((inK m c).nb n k) e := by
  have hidx : W1 m ρ c (Proc.devRef .tc main_arg1) = m ((c : Thread nD τ).loc main_arg1) := W1_other m ρ c main_arg1 (by decide)
  have hr' : IdxInRange (W1 m ρ c (Proc.devRef .tc main_arg1)) := by rw [hidx]; exact hr
  refine (take_value (W1 m ρ c) hr' n k e).trans ?_
  rw [hidx]
  exact W1_v0 m ρ c _ e
theorem W3_v2 (e : Fin 128) : W3 m ρ c (Proc.devRef .tc main_v2) (ix2 0 e) = (inK m c).b1 e :=
  (take_v2 (W1 m ρ c) e).trans (congrFun (W1_other m ρ c main_arg3 (by decide)) (ix1 e))
theorem W3_v3 (e : Fin 128) : W3 m ρ c (Proc.devRef .tc main_v3) (ix2 0 e) = (inK m c).W2 e :=
  (take_v3 (W1 m ρ c) e).trans (congrFun (W1_other m ρ c main_arg4 (by decide)) (ix2 e 0))
theorem W3_v4 : W3 m ρ c (Proc.devRef .tc main_v4) (ix2 0 0) = (inK m c).b2 :=
  (take_v4 (W1 m ρ c)).trans (congrFun (W1_other m ρ c main_arg5 (by decide)) (ix1 0))
theorem W3_v5 (e : Fin 128) : W3 m ρ c (Proc.devRef .tc main_v5) (ix2 0 e) = (inK m c).Ob e :=
  (take_v5 (W1 m ρ c) e).trans (congrFun (W1_other m ρ c main_arg7 (by decide)) (ix1 e))
theorem W3_arg0 : W3 m ρ c (Proc.devRef .tc main_arg0) = m ((c : Thread nD τ).loc main_arg0) := (take_keep_arg0 (W1 m ρ c)).trans (W1_arg0 m ρ c)
theorem W3_v0 (n : Fin 32768) (e : Fin 128) : W3 m ρ c (Proc.devRef .tc main_v0) (ix2 n e) = proj (inK m c) n e :=
  (congrFun (take_keep_v0 (W1 m ρ c)) (ix2 n e)).trans (W1_v0 m ρ c n e)
theorem W3_arg6 : W3 m ρ c (Proc.devRef .tc main_arg6) = m ((c : Thread nD τ).loc main_arg6) :=
  (take_keep_arg6 (W1 m ρ c)).trans (W1_other m ρ c main_arg6 (by decide))

/-! ## Boundary 4: after launch 1 -/

theorem launch1 (hr : IdxInRange (m ((c : Thread nD τ).loc main_arg1))) :
    (∀ (n : Fin 32768) (e : Fin 128), W4 m ρ c (Proc.devRef .tc main_v6_0) (ix2 n e) = pre1K (inK m c) n e)
    ∧ (∀ (c' : Fin 2) (e : Fin 128), W4 m ρ c (Proc.devRef .tc main_v6_1) (ix3 c' 0 e) = coreSum (pre1K (inK m c)) c' e)
    ∧ (∀ (c' : Fin 2) (e : Fin 128), W4 m ρ c (Proc.devRef .tc main_v6_2) (ix3 c' 0 e)
        = coreSum (fun n e => pre1K (inK m c) n e * pre1K (inK m c) n e) c' e) := by
  obtain ⟨hp, hs, hq⟩ := msg_value (V3 m ρ) c (inK m c)
    (fun n d => congrFun (W3_arg0 m ρ c) (ix2 n d)) (W3_v0 m ρ c) (W3_v1 m ρ c hr) (W3_v2 m ρ c) (W3_v3 m ρ c) (W3_v4 m ρ c)
    (fun j e => congrFun (W3_arg6 m ρ c) (ix2 j e)) (W3_v5 m ρ c)
  exact ⟨fun n e => (congrFun (W4_arr m ρ c 8) (ix2 n e)).trans (hp n e),
    fun c' e => (congrFun (W4_arr m ρ c 9) (ix3 c' 0 e)).trans (hs c' e),
    fun c' e => (congrFun (W4_arr m ρ c 10) (ix3 c' 0 e)).trans (hq c' e)⟩

/-! ## Boundary 5: after the first batch statistics -/

theorem W5_v9 (hr : IdxInRange (m ((c : Thread nD τ).loc main_arg1))) (e : Fin 128) :
    W5 m ρ c (Proc.devRef .tc main_v9) (ix2 0 e) = muK (pre1K (inK m c)) e := by
  refine (stats1_mu (W4 m ρ c) e).trans ?_
  unfold muK
  exact congrArg (· * w_inv32768) (Finset.sum_congr rfl fun c' _ => (launch1 m ρ c hr).2.1 c' e)
theorem W5_v16 (hr : IdxInRange (m ((c : Thread nD τ).loc main_arg1))) (e : Fin 128) :
    W5 m ρ c (Proc.devRef .tc main_v16) (ix2 0 e) = varK (pre1K (inK m c)) e := by
  refine (stats1_var (W4 m ρ c) e).trans ?_
  unfold varK muK
  have h1 : (∑ c' : Fin 2, sum1Arr (W4 m ρ c) (ix3 c' 0 e)) = ∑ c' : Fin 2, coreSum (pre1K (inK m c)) c' e :=
    Finset.sum_congr rfl fun c' _ => (launch1 m ρ c hr).2.1 c' e
  have h2 : (∑ c' : Fin 2, sq1Arr (W4 m ρ c) (ix3 c' 0 e))
      = ∑ c' : Fin 2, coreSum (fun n e => pre1K (inK m c) n e * pre1K (inK m c) n e) c' e :=
    Finset.sum_congr rfl fun c' _ => (launch1 m ρ c hr).2.2 c' e
  rw [h1, h2]
theorem W5_v17 (e : Fin 128) : W5 m ρ c (Proc.devRef .tc main_v17) (ix2 0 e) = (inK m c).g1 e :=
  (stats1_v17 (W4 m ρ c) e).trans (congrFun (W4_arg8 m ρ c) (ix1 e))
theorem W5_v18 (e : Fin 128) : W5 m ρ c (Proc.devRef .tc main_v18) (ix2 0 e) = (inK m c).bt1 e :=
  (stats1_v18 (W4 m ρ c) e).trans (congrFun (W4_arg9 m ρ c) (ix1 e))
theorem W5_v19 (j : Fin 256) : W5 m ρ c (Proc.devRef .tc main_v19) (ix2 0 j) = (inK m c).F1b j :=
  (stats1_v19 (W4 m ρ c) j).trans (congrFun (W4_arg11 m ρ c) (ix1 j))
theorem W5_v20 (e : Fin 128) : W5 m ρ c (Proc.devRef .tc main_v20) (ix2 0 e) = (inK m c).F2b e :=
  (stats1_v20 (W4 m ρ c) e).trans (congrFun (W4_arg13 m ρ c) (ix1 e))
theorem W5_v6_0 (hr : IdxInRange (m ((c : Thread nD τ).loc main_arg1))) (n : Fin 32768) (e : Fin 128) :
    W5 m ρ c (Proc.devRef .tc main_v6_0) (ix2 n e) = pre1K (inK m c) n e :=
  (congrFun (stats1_keep_v6_0 (W4 m ρ c)) (ix2 n e)).trans ((launch1 m ρ c hr).1 n e)

/-! ## Boundary 6: after launch 2 -/

/-- The feed-forward stage of the specification's kernel side. -/
abbrev zK : Fin 32768 → Fin 128 → EReal := ffn (inK m c) (bnK (pre1K (inK m c)) (inK m c).g1 (inK m c).bt1)

theorem launch2 (hr : IdxInRange (m ((c : Thread nD τ).loc main_arg1))) :
    (∀ (n : Fin 32768) (e : Fin 128), W6 m ρ c (Proc.devRef .tc main_v21_0) (ix2 n e) = zK m c n e)
    ∧ (∀ (c' : Fin 2) (e : Fin 128), W6 m ρ c (Proc.devRef .tc main_v21_1) (ix3 c' 0 e) = coreSum (zK m c) c' e)
    ∧ (∀ (c' : Fin 2) (e : Fin 128), W6 m ρ c (Proc.devRef .tc main_v21_2) (ix3 c' 0 e)
        = coreSum (fun n e => zK m c n e * zK m c n e) c' e) := by
  obtain ⟨hz, hs, hq⟩ := ffn_value (V5 m ρ) c (inK m c) (pre1K (inK m c))
    (W5_v6_0 m ρ c hr) (W5_v9 m ρ c hr) (W5_v16 m ρ c hr) (W5_v17 m ρ c) (W5_v18 m ρ c)
    (fun d j => congrFun (W5_arg10 m ρ c) (ix2 d j)) (W5_v19 m ρ c)
    (fun j e => congrFun (W5_arg12 m ρ c) (ix2 j e)) (W5_v20 m ρ c)
  exact ⟨fun n e => (congrFun (W6_arr m ρ c 9) (ix2 n e)).trans (hz n e),
    fun c' e => (congrFun (W6_arr m ρ c 10) (ix3 c' 0 e)).trans (hs c' e),
    fun c' e => (congrFun (W6_arr m ρ c 11) (ix3 c' 0 e)).trans (hq c' e)⟩

/-! ## Boundary 7: after the second batch statistics -/

theorem W7_v24 (hr : IdxInRange (m ((c : Thread nD τ).loc main_arg1))) (e : Fin 128) :
    W7 m ρ c (Proc.devRef .tc main_v24) (ix2 0 e) = muK (zK m c) e := by
  refine (stats2_mu (W6 m ρ c) e).trans ?_
  unfold muK
  exact congrArg (· * w_inv32768) (Finset.sum_congr rfl fun c' _ => (launch2 m ρ c hr).2.1 c' e)
theorem W7_v31 (hr : IdxInRange (m ((c : Thread nD τ).loc main_arg1))) (e : Fin 128) :
    W7 m ρ c (Proc.devRef .tc main_v31) (ix2 0 e) = varK (zK m c) e := by
  refine (stats2_var (W6 m ρ c) e).trans ?_
  unfold varK muK
  have h1 : (∑ c' : Fin 2, sum2Arr (W6 m ρ c) (ix3 c' 0 e)) = ∑ c' : Fin 2, coreSum (zK m c) c' e :=
    Finset.sum_congr rfl fun c' _ => (launch2 m ρ c hr).2.1 c' e
  have h2 : (∑ c' : Fin 2, sq2Arr (W6 m ρ c) (ix3 c' 0 e))
      = ∑ c' : Fin 2, coreSum (fun n e => zK m c n e * zK m c n e) c' e :=
    Finset.sum_congr rfl fun c' _ => (launch2 m ρ c hr).2.2 c' e
  rw [h1, h2]
theorem W7_v32 (e : Fin 128) : W7 m ρ c (Proc.devRef .tc main_v32) (ix2 0 e) = (inK m c).g2 e :=
  (stats2_v32 (W6 m ρ c) e).trans (congrFun (W6_arg14 m ρ c) (ix1 e))
theorem W7_v33 (e : Fin 128) : W7 m ρ c (Proc.devRef .tc main_v33) (ix2 0 e) = (inK m c).bt2 e :=
  (stats2_v33 (W6 m ρ c) e).trans (congrFun (W6_arg15 m ρ c) (ix1 e))
theorem W7_v21_0 (hr : IdxInRange (m ((c : Thread nD τ).loc main_arg1))) (n : Fin 32768) (e : Fin 128) :
    W7 m ρ c (Proc.devRef .tc main_v21_0) (ix2 n e) = zK m c n e :=
  (congrFun (stats2_keep_v21_0 (W6 m ρ c)) (ix2 n e)).trans ((launch2 m ρ c hr).1 n e)

/-! ## Boundary 8: the result -/

/-- With every neighbour word in range, the result buffer at the last boundary, read at (n, e), is the
    specification's outK of the inputs read off the launch memory. -/
theorem kernel_value (hr : IdxInRange (m ((c : Thread nD τ).loc main_arg1))) (n : Fin 32768) (e : Fin 128) :
    W8 m ρ c (Proc.devRef .tc main_v34) (ix2 n e) = outK (inK m c) n e := by
  refine (congrFun (W8_arr m ρ c 5) (ix2 n e)).trans ((norm2_value (V7 m ρ) c n e).trans ?_)
  show g2Arr (V7 m ρ) c (ix2 0 e) * (zArr (V7 m ρ) c (ix2 n e) - mu2Arr (V7 m ρ) c (ix2 0 e))
      * Ideal.rsqrt (var2Arr (V7 m ρ) c (ix2 0 e) + w_eps) + bt2Arr (V7 m ρ) c (ix2 0 e) = _
  rw [show g2Arr (V7 m ρ) c (ix2 0 e) = (inK m c).g2 e from W7_v32 m ρ c e,
    show bt2Arr (V7 m ρ) c (ix2 0 e) = (inK m c).bt2 e from W7_v33 m ρ c e,
    show zArr (V7 m ρ) c (ix2 n e) = zK m c n e from W7_v21_0 m ρ c hr n e,
    show mu2Arr (V7 m ρ) c (ix2 0 e) = muK (zK m c) e from W7_v24 m ρ c hr e,
    show var2Arr (V7 m ρ) c (ix2 0 e) = varK (zK m c) e from W7_v31 m ρ c hr e]
  rfl

end Cert.KernelIdeal.Val

end
-- ==== Proof.Ref.RunH.lean ====
/- The reference's run, read in two stretches around its one concatenate.

   @main is a straight line of 115 operations; its result main_v93 is the last of 115 stages, each stage its
   operation applied to earlier stages (`ReadP.val_main_vN`, a function of the arguments it depends on). One operation
   is a concatenate of two COMPUTED stages: the mean (main_v28) and the maximum (main_v29) over the sixteen neighbours,
   joined along the feature axis. The contents a buffer holds after a list of operations is a fold over the list
   (`StableHlo.after`), and the fold over an append is the fold over the second list from the fold over the first. So
   the list is cut before the concatenate: after the first 39 operations main_v28 and main_v29 hold their stages and
   the arguments still in use are untouched; from ANY contents with those facts the remaining 76 operations leave the
   last stage at main_v93, the two operands being replaced by their stages inside the concatenate's list of pieces.
   `res_main_v93` is that last stage at the arguments' launch contents, and `run` says every weakly fair execution of
   @main ends with the result buffer at it and the sixteen arguments unchanged. -/
import proofs.«419117_j60533269069902_3_alg».proof.Proof.Ref.RunP
import proofs.«419117_j60533269069902_3_alg».proof.Proof.Ref.ReadP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The 39 operations before the concatenate: from the gather of the neighbour rows to the mean (main_v28) and
    the maximum (main_v29) over the sixteen neighbours. -/
abbrev opsA : List (HloOp τ sig (Elt F)) := ops.take 39

/-- The concatenate and the 75 operations after it: the projection, the residual sum, the two normalisations and the
    feed-forward stage between them. -/
abbrev opsR : List (HloOp τ sig (Elt F)) := ops.drop 39

/-- The operation list is its first 39 operations followed by the rest. -/
theorem ops_split : (ops : List (HloOp τ sig (Elt F))) = opsA ++ opsR := (List.take_append_drop 39 ops).symm

/-- After the first 39 operations, from any contents `W`, buffer main_v28 holds the mean over the neighbours, as the
    stage function of the arguments' contents in `W`. -/
theorem headA_v28 (W : Valuation τ sig (Elt F)) :
    after opsA W (Proc.devRef .tc main_v28) = val_main_v28 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, List.take_succ_cons, List.take_zero]
  after_results_simp
  rfl

/-- After the first 39 operations buffer main_v29 holds the maximum over the neighbours, as the stage function of the
    arguments' contents. -/
theorem headA_v29 (W : Valuation τ sig (Elt F)) :
    after opsA W (Proc.devRef .tc main_v29) = val_main_v29 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, List.take_succ_cons, List.take_zero]
  after_results_simp
  rfl

/-- The first 39 operations do not write argument 0. -/
theorem headA_arg0 (W : Valuation τ sig (Elt F)) :
    after opsA W (Proc.devRef .tc main_arg0) = W (Proc.devRef .tc main_arg0) := by
  simp only [opsA, ops, List.take_succ_cons, List.take_zero]
  after_results_simp

/-- The first 39 operations do not write argument 6. -/
theorem headA_arg6 (W : Valuation τ sig (Elt F)) :
    after opsA W (Proc.devRef .tc main_arg6) = W (Proc.devRef .tc main_arg6) := by
  simp only [opsA, ops, List.take_succ_cons, List.take_zero]
  after_results_simp

/-- The first 39 operations do not write argument 7. -/
theorem headA_arg7 (W : Valuation τ sig (Elt F)) :
    after opsA W (Proc.devRef .tc main_arg7) = W (Proc.devRef .tc main_arg7) := by
  simp only [opsA, ops, List.take_succ_cons, List.take_zero]
  after_results_simp

/-- The first 39 operations do not write argument 8. -/
theorem headA_arg8 (W : Valuation τ sig (Elt F)) :
    after opsA W (Proc.devRef .tc main_arg8) = W (Proc.devRef .tc main_arg8) := by
  simp only [opsA, ops, List.take_succ_cons, List.take_zero]
  after_results_simp

/-- The first 39 operations do not write argument 9. -/
theorem headA_arg9 (W : Valuation τ sig (Elt F)) :
    after opsA W (Proc.devRef .tc main_arg9) = W (Proc.devRef .tc main_arg9) := by
  simp only [opsA, ops, List.take_succ_cons, List.take_zero]
  after_results_simp

/-- The first 39 operations do not write argument 10. -/
theorem headA_arg10 (W : Valuation τ sig (Elt F)) :
    after opsA W (Proc.devRef .tc main_arg10) = W (Proc.devRef .tc main_arg10) := by
  simp only [opsA, ops, List.take_succ_cons, List.take_zero]
  after_results_simp

/-- The first 39 operations do not write argument 11. -/
theorem headA_arg11 (W : Valuation τ sig (Elt F)) :
    after opsA W (Proc.devRef .tc main_arg11) = W (Proc.devRef .tc main_arg11) := by
  simp only [opsA, ops, List.take_succ_cons, List.take_zero]
  after_results_simp

/-- The first 39 operations do not write argument 12. -/
theorem headA_arg12 (W : Valuation τ sig (Elt F)) :
    after opsA W (Proc.devRef .tc main_arg12) = W (Proc.devRef .tc main_arg12) := by
  simp only [opsA, ops, List.take_succ_cons, List.take_zero]
  after_results_simp

/-- The first 39 operations do not write argument 13. -/
theorem headA_arg13 (W : Valuation τ sig (Elt F)) :
    after opsA W (Proc.devRef .tc main_arg13) = W (Proc.devRef .tc main_arg13) := by
  simp only [opsA, ops, List.take_succ_cons, List.take_zero]
  after_results_simp

/-- The first 39 operations do not write argument 14. -/
theorem headA_arg14 (W : Valuation τ sig (Elt F)) :
    after opsA W (Proc.devRef .tc main_arg14) = W (Proc.devRef .tc main_arg14) := by
  simp only [opsA, ops, List.take_succ_cons, List.take_zero]
  after_results_simp

/-- The first 39 operations do not write argument 15. -/
theorem headA_arg15 (W : Valuation τ sig (Elt F)) :
    after opsA W (Proc.devRef .tc main_arg15) = W (Proc.devRef .tc main_arg15) := by
  simp only [opsA, ops, List.take_succ_cons, List.take_zero]
  after_results_simp

set_option maxRecDepth 8192 in
set_option maxHeartbeats 46000000 in
/-- From contents `W` that hold the mean at main_v28, the maximum at main_v29 and the arguments still in use at their
    places, the concatenate and the 75 operations after it leave at main_v93 the last stage of the chain: the operands
    of the concatenate are rewritten inside its list of pieces, and each later stage is its operation applied to the
    stages before it. -/
theorem tailR_v93 (W : Valuation τ sig (Elt F)) (x0 : (⟨S32768x128, .f32⟩ : BufTy).Contents (Elt F)) (x1 : (⟨S32768x16, .i32⟩ : BufTy).Contents (Elt F)) (x2 : (⟨S128x128, .f32⟩ : BufTy).Contents (Elt F)) (x3 : (⟨S128, .f32⟩ : BufTy).Contents (Elt F)) (x4 : (⟨S128x1, .f32⟩ : BufTy).Contents (Elt F)) (x5 : (⟨S1, .f32⟩ : BufTy).Contents (Elt F)) (x6 : (⟨S256x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F)) (x10 : (⟨S128x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (h28 : W (Proc.devRef .tc main_v28) = val_main_v28 (F := F) x0 x1 x2 x3 x4 x5)
    (h29 : W (Proc.devRef .tc main_v29) = val_main_v29 (F := F) x0 x1 x2 x3 x4 x5)
    (h0 : W (Proc.devRef .tc main_arg0) = x0) (h6 : W (Proc.devRef .tc main_arg6) = x6) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) (h15 : W (Proc.devRef .tc main_arg15) = x15) :
    after opsR W (Proc.devRef .tc main_v93) = val_main_v93 (F := F) x0 x1 x2 x3 x4 x5 x6 x7 x8 x9 x10 x11 x12 x13 x14 x15 := by
  simp only [opsR, ops, List.drop_succ_cons, List.drop_zero]
  after_results_simp
  rw [h28, h29, h0, h6, h7, h8, h9, h10, h11, h12, h13, h14, h15]
  rfl

/-- After all 115 operations, from any contents `V`, the result buffer main_v93 holds the last stage of the chain read
    at the sixteen arguments' contents in `V`: the first 39 operations give the two operands of the concatenate and
    leave the arguments alone, the rest computes the result from them. -/
theorem after_ops_v93 (V : Valuation τ sig (Elt F)) :
    after ops V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_split, StableHlo.after_append]
  exact tailR_v93 (after opsA V) _ _ _ _ _ _ _ _ _ _ _ _ _ _ _ _ (headA_v28 V) (headA_v29 V)
    (headA_arg0 V) (headA_arg6 V) (headA_arg7 V) (headA_arg8 V) (headA_arg9 V) (headA_arg10 V) (headA_arg11 V) (headA_arg12 V) (headA_arg13 V) (headA_arg14 V) (headA_arg15 V)

/-- The result's value: the last stage of the chain, read at the sixteen arguments' launch contents. -/
def res_main_v93 (m : (ℓ : Loc nD τ sig) → Buf (Elt F) ℓ) (c : Dev nD) : Buf (Elt F) ((c.tc : Thread nD τ).loc main_v93) :=
  val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- `res_main_v93` by its position among the values @main returns, 0 counting from 0: the name for hand proofs to cite, since
    a re-print renumbers `main_v93`. An abbreviation: it unfolds to the `res_main_v93` that `run` states. -/
abbrev res_out0 (m : (ℓ : Loc nD τ sig) → Buf (Elt F) ℓ) (c : Dev nD) : Buf (Elt F) ((c.tc : Thread nD τ).loc main_v93) := res_main_v93 m c

set_option maxRecDepth 8192 in
set_option maxHeartbeats 46000000 in
/-- On every device, for any float values, from any memory with zero counters: every weakly fair execution of
    @main terminates with the result buffer at the last stage of the chain read at the arguments' launch contents,
    and the sixteen arguments unchanged (no operation writes an argument). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = res_main_v93 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v93).trans (after_ops_v93 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.ReferenceIdeal.ValueP

end
-- ==== Proof.Ref.Gen.lean ====
/-
  The reference's read-at-an-index lemmas, brought into the proof: the value modules on the reference's side import
  this one.
-/
import proofs.«419117_j60533269069902_3_alg».proof.Proof.Ref.ReadP
-- ==== Proof.Ref.RefEdge.lean ====
/-
  The reference's edge stage read at an index: the neighbour rows gathered (a negative word first moved up by 32768;
  with every word in range the gather reads exactly row rowOf(word)), the node's own row subtracted, the difference
  through W1 plus b1 clipped at 0, through the column W2 plus b2 clipped at 0, exp of the negative; the messages
  weight · h summed over the 16 neighbours and divided by 16, and maximised over them from −∞; the two joined side by
  side, through OW plus Ob, added to h.
-/
import proofs.«419117_j60533269069902_3_alg».proof.Proof.Ref.Gen
import proofs.«419117_j60533269069902_3_alg».proof.Proof.Math.Inputs
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Gen Cert.ReferenceIdeal.ReadP EdgeAttn
open Idealize.ShloMosaic Idealize.ShloMosaic.ValueIdx

variable (x0 : FVec Ideal S32768x128 .f32) (x1 : IVec S32768x16 32) (x2 : FVec Ideal S128x128 .f32)
  (x3 : FVec Ideal S128 .f32) (x4 : FVec Ideal S128x1 .f32) (x5 : FVec Ideal S1 .f32) (x6 : FVec Ideal S256x128 .f32)
  (x7 x8 x9 : FVec Ideal S128 .f32) (x10 : FVec Ideal S128x256 .f32) (x11 : FVec Ideal S256 .f32)
  (x12 : FVec Ideal S256x128 .f32) (x13 x14 x15 : FVec Ideal S128 .f32)

/-! ## The gather of the neighbour rows -/

/-- The dimension numbers of the row gather. -/
abbrev GD := gather_S32768x128_S32768x16x1_S32768x16x128_2_0_n_n_0_2_1128

/-- The gather of whole rows read at (n, k, d): the table at the row the start word at (n, k, 0) names (read signed,
    clipped into the table) and column d. -/
theorem gather_rows3 {α : Type} (x : S32768x128.Idx → α) (idx : IVec S32768x16x1 32) (n : Fin 32768) (k : Fin 16) (d : Fin 128) :
    Host.gather GD x idx (ix3 n k d)
      = x (ix2 (⟨min (idx (ix3 n k (0 : Fin 1))).toInt.toNat (32768 - 1), by omega⟩ : Fin 32768) d) := by
  unfold Host.gather
  congr 1
  funext a
  refine Fin.ext ?_
  have hb : ∀ a : Fin 2, a ∉ GD.operandBatchingDims := fun a => List.not_mem_nil
  match a with
  | ⟨0, _⟩ =>
    show GD.start (ix3 n k d) idx (0 : Fin 2) + GD.batchCoord (ix3 n k d) (0 : Fin 2) + GD.offCoord (ix3 n k d) (0 : Fin 2) = _
    have hk : (0 : Fin 2) ∉ GD.sKept := fun h => ((GatherDims.mem_sKept _ _).mp h).1 (List.mem_singleton.mpr rfl)
    have hm : (0 : Fin 2) ∈ GD.startIndexMap := List.mem_singleton.mpr rfl
    rw [GatherDims.batchCoord_eq_zero _ _ _ (hb 0), GatherDims.offCoord_eq_zero _ _ _ hk, Nat.add_zero]
    unfold GatherDims.start
    rw [dif_pos hm]
    have hsi : GD.siIdx (ix3 n k d) ⟨List.idxOf (0 : Fin 2) GD.startIndexMap, List.idxOf_lt_length_iff.2 hm⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    show GD.start (ix3 n k d) idx (1 : Fin 2) + GD.batchCoord (ix3 n k d) (1 : Fin 2) + GD.offCoord (ix3 n k d) (1 : Fin 2) = _
    have hne : ¬ ((1 : Fin 2) = 0) := by decide
    have hm : (1 : Fin 2) ∉ GD.startIndexMap := fun h => hne (List.mem_singleton.mp h)
    have hk : (1 : Fin 2) ∈ GD.sKept := (GatherDims.mem_sKept _ _).mpr ⟨fun h => hne (List.mem_singleton.mp h), hb 1⟩
    rw [GatherDims.batchCoord_eq_zero _ _ _ (hb 1), Nat.add_zero]
    unfold GatherDims.start GatherDims.offCoord
    rw [dif_neg hm, dif_pos hk, Nat.zero_add]
    rfl

/-- A neighbour word in [−32768, 32768), moved up by 32768 when negative, read signed and clipped into the table, is
    the row the word addresses. -/
theorem norm_word (w : BitVec 32) (h1 : -32768 ≤ w.toInt) (h2 : w.toInt < 32768) :
    min (Scalar.select (IntOp.cmpi .slt w 0#32) (IntOp.addi w 32768#32) w).toInt.toNat (32768 - 1) = (rowOf w).val := by
  show _ = (if w.toInt < 0 then w.toInt + 32768 else w.toInt).toNat % 32768
  by_cases hneg : w.toInt < 0
  · have hc : IntOp.cmpi .slt w 0#32 = 1#1 := by
      show BitVec.ofBool (w.slt 0#32) = 1#1
      rw [BitVec.slt_eq_decide]
      simp [hneg]
    rw [hc, select_one, if_pos hneg]
    show min (w + 32768#32).toInt.toNat (32768 - 1) = _
    have ha : (w + 32768#32).toInt = w.toInt + 32768 := by
      rw [BitVec.toInt_add]
      have : (32768#32 : BitVec 32).toInt = 32768 := by decide
      rw [this]
      exact Int.bmod_eq_of_le_mul_two (by omega) (by omega)
    rw [ha]
    omega
  · have hc : IntOp.cmpi .slt w 0#32 = 0#1 := by
      show BitVec.ofBool (w.slt 0#32) = 0#1
      rw [BitVec.slt_eq_decide]
      simp [hneg]
    rw [hc, select_zero, if_neg hneg]
    omega

/-- The start word of edge (n, k) sits at (n, k) of the normalised words. -/
theorem idx_v5 (n : Fin 32768) (k : Fin 16) : idx_main_v5 (ix3 n k (0 : Fin 1)) = ix2 n k :=
  funext fun a => Fin.ext (by match a with | ⟨0, _⟩ => rfl | ⟨1, _⟩ => rfl)

/-- The normalised neighbour word at (n, k): the word itself, or the word plus 32768 when it is negative. -/
theorem v4_at (n : Fin 32768) (k : Fin 16) :
    val_main_v4 (F := Ideal) x1 (ix2 n k)
      = Scalar.select (IntOp.cmpi .slt (x1 (ix2 n k)) 0#32) (IntOp.addi (x1 (ix2 n k)) 32768#32) (x1 (ix2 n k)) := by
  rw [val_main_v4_apply, val_main_v1_apply, val_main_v3_apply, val_main_v0_apply, val_main_v2_apply, val_main_c_apply,
    val_main_c_0_apply]

/-- The gathered neighbour rows at (n, k, d): with the word in range, row rowOf(word) of the node features. -/
theorem v6_at (hr : IdxInRange x1) (n : Fin 32768) (k : Fin 16) (d : Fin 128) :
    val_main_v6 (F := Ideal) x0 x1 (ix3 n k d) = x0 (ix2 (rowOf (x1 (ix2 n k))) d) := by
  unfold val_main_v6
  refine (gather_rows3 x0 _ n k d).trans ?_
  refine congrArg (fun r => x0 (ix2 r d)) (Fin.ext ?_)
  show min (val_main_v5 (F := Ideal) x1 (ix3 n k (0 : Fin 1))).toInt.toNat (32768 - 1) = _
  rw [val_main_v5_apply, idx_v5, v4_at]
  exact norm_word _ (hr n k).1 (hr n k).2

/-! ## The edge perceptron -/

local notation "II" => inOf x0 x1 x2 x3 x4 x5 x6 x7 x8 x9 x10 x11 x12 x13 x14 x15

/-- The node's own row broadcast over its 16 edges: (n, k, d) reads the features at (n, d). -/
theorem idx_v8_v7 (n : Fin 32768) (k : Fin 16) (d : Fin 128) : idx_main_v7 (idx_main_v8 (ix3 n k d)) = ix2 n d :=
  funext fun a => Fin.ext (by match a with | ⟨0, _⟩ => rfl | ⟨1, _⟩ => rfl)

/-- The difference of the neighbour's and the node's features at (n, k, d). -/
theorem v9_at (hr : IdxInRange x1) (n : Fin 32768) (k : Fin 16) (d : Fin 128) :
    val_main_v9 (F := Ideal) x0 x1 (ix3 n k d) = x0 (ix2 (rowOf (x1 (ix2 n k))) d) - x0 (ix2 n d) := by
  rw [val_main_v9_apply, v6_at x0 x1 hr, val_main_v8_apply, val_main_v7_apply, idx_v8_v7]
  rfl

/-- The first layer's contraction: term d of element (n, k, e) takes the difference at (n, k, d) … -/
theorem lidx_v10 (n : Fin 32768) (k : Fin 16) (e d : Fin 128) : lidx_main_v10 (ix3 n k e) d = ix3 n k d :=
  funext fun a => Fin.ext (by match a with | ⟨0, _⟩ => rfl | ⟨1, _⟩ => rfl | ⟨2, _⟩ => rfl)
/-- … and the weight W1 at (d, e). -/
theorem ridx_v10 (n : Fin 32768) (k : Fin 16) (e d : Fin 128) : ridx_main_v10 (ix3 n k e) d = ix2 d e :=
  funext fun a => Fin.ext (by match a with | ⟨0, _⟩ => rfl | ⟨1, _⟩ => rfl)
/-- The bias b1 broadcast over nodes and edges: (n, k, e) reads entry e. -/
theorem idx_v12_v11 (n : Fin 32768) (k : Fin 16) (e : Fin 128) : idx_main_v11 (idx_main_v12 (ix3 n k e)) = ix1 e :=
  funext fun a => Fin.ext (by match a with | ⟨0, _⟩ => rfl)

/-- The hidden edge activation at (n, k, e): the difference through W1, plus b1, clipped at 0. -/
theorem v14_at (hr : IdxInRange x1) (n : Fin 32768) (k : Fin 16) (e : Fin 128) :
    val_main_v14 (F := Ideal) x0 x1 x2 x3 (ix3 n k e) = hidR II n k e := by
  rw [val_main_v14_apply, val_main_v13_apply, val_main_v10_apply, val_main_v12_apply, val_main_v11_apply,
    val_main_call0_v0_apply, val_main_call0_cst_apply, idx_v12_v11]
  simp only [lidx_v10, ridx_v10, v9_at x0 x1 hr, Ideal.maximumf_def, Ideal.addf_def, Ideal.ofBits_def, Ideal.ofBits_zero_f32]
  rfl

/-- The second layer's contraction: term e of element (n, k, 0) takes the hidden activation at (n, k, e) … -/
theorem lidx_v15 (n : Fin 32768) (k : Fin 16) (e : Fin 128) : lidx_main_v15 (ix3 n k (0 : Fin 1)) e = ix3 n k e :=
  funext fun a => Fin.ext (by match a with | ⟨0, _⟩ => rfl | ⟨1, _⟩ => rfl | ⟨2, _⟩ => rfl)
/-- … and the column W2 at (e, 0). -/
theorem ridx_v15 (n : Fin 32768) (k : Fin 16) (e : Fin 128) : ridx_main_v15 (ix3 n k (0 : Fin 1)) e = ix2 e (0 : Fin 1) :=
  funext fun a => Fin.ext (by match a with | ⟨0, _⟩ => rfl | ⟨1, _⟩ => rfl)
/-- The scalar bias b2 broadcast over nodes and edges: every element reads entry 0. -/
theorem idx_v17_v16 (n : Fin 32768) (k : Fin 16) : idx_main_v16 (idx_main_v17 (ix3 n k (0 : Fin 1))) = ix1 (0 : Fin 1) :=
  funext fun a => Fin.ext (by match a with | ⟨0, _⟩ => rfl)

/-- The attention weight of edge (n, k): exp of minus the clipped second layer. -/
theorem v21_at (hr : IdxInRange x1) (n : Fin 32768) (k : Fin 16) :
    val_main_v21 (F := Ideal) x0 x1 x2 x3 x4 x5 (ix3 n k (0 : Fin 1)) = attOf II (hidR II) n k := by
  rw [val_main_v21_apply, val_main_v20_apply, val_main_v19_apply, val_main_v18_apply, val_main_v15_apply,
    val_main_v17_apply, val_main_v16_apply, val_main_call1_v0_apply, val_main_call1_cst_apply, idx_v17_v16]
  simp only [lidx_v15, ridx_v15, v14_at x0 x1 x2 x3 x4 x5 x6 x7 x8 x9 x10 x11 x12 x13 x14 x15 hr, Ideal.hostUnary_exp_def, Ideal.hostNegf_def, Ideal.negf_def,
    Ideal.maximumf_def, Ideal.addf_def, Ideal.ofBits_def, Ideal.ofBits_zero_f32]
  rfl

/-- The weight of edge (n, k) broadcast over the 128 features: (n, k, d) reads (n, k, 0). -/
theorem idx_v23 (n : Fin 32768) (k : Fin 16) (d : Fin 128) : idx_main_v23 (ix3 n k d) = ix3 n k (0 : Fin 1) :=
  funext fun a => Fin.ext (by match a with | ⟨0, _⟩ => rfl | ⟨1, _⟩ => rfl | ⟨2, _⟩ => rfl)
/-- The node's own row broadcast over its 16 edges, for the messages: (n, k, d) reads the features at (n, d). -/
theorem idx_v24_v22 (n : Fin 32768) (k : Fin 16) (d : Fin 128) : idx_main_v22 (idx_main_v24 (ix3 n k d)) = ix2 n d :=
  funext fun a => Fin.ext (by match a with | ⟨0, _⟩ => rfl | ⟨1, _⟩ => rfl)

/-- The message along edge (n, k) at feature d: the weight times the node's own feature. -/
theorem v25_at (hr : IdxInRange x1) (n : Fin 32768) (k : Fin 16) (d : Fin 128) :
    val_main_v25 (F := Ideal) x0 x1 x2 x3 x4 x5 (ix3 n k d) = msgOf II (attOf II (hidR II)) n k d := by
  rw [val_main_v25_apply, val_main_v23_apply, val_main_v24_apply, val_main_v22_apply, idx_v23, idx_v24_v22,
    v21_at x0 x1 x2 x3 x4 x5 x6 x7 x8 x9 x10 x11 x12 x13 x14 x15 hr]
  rfl

/-- The sum over the neighbours: term k of element (n, d) is the message at (n, k, d). -/
theorem idx_v26 (n : Fin 32768) (d : Fin 128) (k : Fin 16) : idx_main_v26 (ix2 n d) k = ix3 n k d :=
  funext fun a => Fin.ext (by match a with | ⟨0, _⟩ => rfl | ⟨1, _⟩ => rfl | ⟨2, _⟩ => rfl)

/-- The mean of the messages over the 16 neighbours: their sum divided by 16. -/
theorem v28_at (hr : IdxInRange x1) (n : Fin 32768) (d : Fin 128) :
    val_main_v28 (F := Ideal) x0 x1 x2 x3 x4 x5 (ix2 n d) = meanR II (attOf II (hidR II)) n d := by
  rw [val_main_v28_apply, val_main_v26_apply, val_main_v27_apply, val_main_cst_1_apply, val_main_cst_apply]
  simp only [idx_v26, v25_at x0 x1 x2 x3 x4 x5 x6 x7 x8 x9 x10 x11 x12 x13 x14 x15 hr, Ideal.hostDivf_def, Ideal.ofBits_def,
    Ideal.ofBits_zero_f32, zero_add]
  rfl

/-! ## The maximum over the neighbours, the two aggregates joined, the projection -/

/-- The reduced index (n, d) with neighbour k put back is (n, k, d). -/
theorem lift_v29 (h : S32768x16x128.Reduces [1] S32768x128) (n : Fin 32768) (d : Fin 128) (k : Fin (S32768x16x128.size 1)) :
    h.lift (ix2 n d) k = ix3 n (⟨k.val, k.isLt⟩ : Fin 16) d := by
  funext c; apply Fin.ext
  match c with
  | ⟨0, _⟩ => rfl
  | ⟨1, _⟩ => rfl
  | ⟨2, _⟩ => rfl

/-- The word 0xFF800000 is −∞, the bottom of the extended reals. -/
theorem ofBits_neg_inf : Ideal.ofBits .f32 0xFF800000#32 = (⊥ : EReal) := by
  simp [Ideal.ofBits, Ideal.ieee]

/-- The maximum of the messages over the 16 neighbours, from −∞. -/
theorem v29_at (hr : IdxInRange x1) (n : Fin 32768) (d : Fin 128) :
    val_main_v29 (F := Ideal) x0 x1 x2 x3 x4 x5 (ix2 n d) = maxOf II (attOf II (hidR II)) n d := by
  unfold val_main_v29
  have h : S32768x16x128.Reduces [1] S32768x128 := by decide
  rw [Host.reduce_eq_fold_single FloatOps.maximumf _ _ reducesTo_S32768x16x128_S32768x128_d1 h h_S_]
  have hb : (val_main_cst_2 (F := Ideal)) (Shape.Idx.first h_S_) = (⊥ : EReal) := by
    rw [val_main_cst_2_apply]; exact ofBits_neg_inf
  have hf : (val_main_v25 (F := Ideal) x0 x1 x2 x3 x4 x5 ∘ h.lift (ix2 n d))
      = fun k : Fin 16 => msgOf II (attOf II (hidR II)) n k d :=
    funext fun k => (congrArg _ (lift_v29 h n d k)).trans
      (v25_at x0 x1 x2 x3 x4 x5 x6 x7 x8 x9 x10 x11 x12 x13 x14 x15 hr n ⟨k.val, k.isLt⟩ d)
  rw [hb, hf]
  rfl

/-- The two aggregates side by side at (n, j): the mean for j < 128, the maximum at j − 128 otherwise. -/
theorem v30_at (hr : IdxInRange x1) (n : Fin 32768) (j : Fin 256) :
    val_main_v30 (F := Ideal) x0 x1 x2 x3 x4 x5 (ix2 n j)
      = catOf (meanR II (attOf II (hidR II))) (maxOf II (attOf II (hidR II))) n j := by
  unfold val_main_v30 catOf
  by_cases hj : j.val < 128
  · rw [dif_pos hj]
    refine (concatenate_pair_apply_left (1 : Fin S32768x256.rank) _ _ concatenates_S32768x128_S32768x128_S32768x256_d1
      (ix2 n j) rfl (ix2 n (⟨j.val, hj⟩ : Fin 128)) ?_).trans
      (v28_at x0 x1 x2 x3 x4 x5 x6 x7 x8 x9 x10 x11 x12 x13 x14 x15 hr n ⟨j.val, hj⟩)
    intro b
    match b with
    | ⟨0, _⟩ => rfl
    | ⟨1, _⟩ => rfl
  · rw [dif_neg hj]
    refine (concatenate_pair_apply_right (1 : Fin S32768x256.rank) _ _ concatenates_S32768x128_S32768x128_S32768x256_d1
      (ix2 n j) rfl rfl (ix2 n (⟨j.val - 128, by omega⟩ : Fin 128)) ?_ ?_).trans
      (v29_at x0 x1 x2 x3 x4 x5 x6 x7 x8 x9 x10 x11 x12 x13 x14 x15 hr n ⟨j.val - 128, by omega⟩)
    · intro b hb
      match b, hb with
      | ⟨0, _⟩, _ => rfl
      | ⟨1, _⟩, hb => exact absurd rfl hb
    · show (j.val - 128) + 128 = j.val
      omega

/-- The projection's contraction: term j of element (n, e) takes the joined aggregates at (n, j) … -/
theorem lidx_v31 (n : Fin 32768) (e : Fin 128) (j : Fin 256) : lidx_main_v31 (ix2 n e) j = ix2 n j :=
  funext fun a => Fin.ext (by match a with | ⟨0, _⟩ => rfl | ⟨1, _⟩ => rfl)
/-- … and the weight OW at (j, e). -/
theorem ridx_v31 (n : Fin 32768) (e : Fin 128) (j : Fin 256) : ridx_main_v31 (ix2 n e) j = ix2 j e :=
  funext fun a => Fin.ext (by match a with | ⟨0, _⟩ => rfl | ⟨1, _⟩ => rfl)
/-- The bias Ob broadcast over the nodes: (n, e) reads entry e. -/
theorem idx_v33_v32 (n : Fin 32768) (e : Fin 128) : idx_main_v32 (idx_main_v33 (ix2 n e)) = ix1 e :=
  funext fun a => Fin.ext (by match a with | ⟨0, _⟩ => rfl)

/-- With every neighbour word in range, the reference's pre-normalisation stage is the specification's pre1R of the
    inputs read off the argument arrays. -/
theorem ref_pre1 (hr : IdxInRange x1) (n : Fin 32768) (e : Fin 128) :
    val_main_v35 (F := Ideal) x0 x1 x2 x3 x4 x5 x6 x7 (ix2 n e) = pre1R (inOf x0 x1 x2 x3 x4 x5 x6 x7 x8 x9 x10 x11 x12 x13 x14 x15) n e := by
  rw [val_main_v35_apply, val_main_v34_apply, val_main_v31_apply, val_main_v33_apply, val_main_v32_apply, idx_v33_v32]
  simp only [lidx_v31, ridx_v31, v30_at x0 x1 x2 x3 x4 x5 x6 x7 x8 x9 x10 x11 x12 x13 x14 x15 hr, Ideal.addf_def]
  rfl

end Cert.ReferenceIdeal.Val

end
-- ==== Proof.Ref.RefNorm.lean ====
/-
  The reference's two batch normalisations and its feed-forward block read at an index, each from the stage before it:
  the column sums over all 32768 rows divided by 32768 (mean, then the mean of the centred squares), the scaled
  centred value divided by the square root of variance + ε, plus the shift; and x + (relu(x · F1W + F1b) · F2W + F2b).
-/
import proofs.«419117_j60533269069902_3_alg».proof.Proof.Ref.Gen
import proofs.«419117_j60533269069902_3_alg».proof.Proof.Math.Inputs
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Gen Cert.ReferenceIdeal.ReadP EdgeAttn
open Idealize.ShloMosaic Idealize.ShloMosaic.ValueIdx

variable (x0 : FVec Ideal S32768x128 .f32) (x1 : IVec S32768x16 32) (x2 : FVec Ideal S128x128 .f32)
  (x3 : FVec Ideal S128 .f32) (x4 : FVec Ideal S128x1 .f32) (x5 : FVec Ideal S1 .f32) (x6 : FVec Ideal S256x128 .f32)
  (x7 x8 x9 : FVec Ideal S128 .f32) (x10 : FVec Ideal S128x256 .f32) (x11 : FVec Ideal S256 .f32)
  (x12 : FVec Ideal S256x128 .f32) (x13 x14 x15 : FVec Ideal S128 .f32)

/-! ## The first normalisation -/

/-- The mean row of the first normalisation: the column sum over all 32768 rows, started from 0, divided by 32768. -/
theorem bn1_mean (v : Fin 32768 → Fin 128 → EReal)
    (hv : ∀ n e, val_main_v35 (F := Ideal) x0 x1 x2 x3 x4 x5 x6 x7 (ix2 n e) = v n e) (e : Fin 128) :
    val_main_v39 (F := Ideal) x0 x1 x2 x3 x4 x5 x6 x7 (ix2 (0 : Fin 1) e) = muR v e := by
  have hsum : ∀ k : Fin 32768, idx_main_v36 (idx_main_v37 (ix2 (0 : Fin 1) e)) k = ix2 k e := fun k =>
    funext fun a => Fin.ext (by match a with | ⟨0, _⟩ => rfl | ⟨1, _⟩ => rfl)
  rw [val_main_v39_apply, val_main_v37_apply, val_main_v36_apply, val_main_v38_apply, val_main_cst_4_apply,
    val_main_cst_3_apply]
  simp only [hsum, hv, Ideal.hostDivf_def, Ideal.ofBits_def, Ideal.ofBits_zero_f32, zero_add]
  rfl

/-- The centred value x − mean, as the variance's square reads it. -/
theorem bn1_cen (v : Fin 32768 → Fin 128 → EReal)
    (hv : ∀ n e, val_main_v35 (F := Ideal) x0 x1 x2 x3 x4 x5 x6 x7 (ix2 n e) = v n e) (n : Fin 32768) (e : Fin 128) :
    val_main_v41 (F := Ideal) x0 x1 x2 x3 x4 x5 x6 x7 (ix2 n e) = v n e - muR v e := by
  have hrow : idx_main_v40 (ix2 n e) = ix2 (0 : Fin 1) e :=
    funext fun a => Fin.ext (by match a with | ⟨0, _⟩ => rfl | ⟨1, _⟩ => rfl)
  rw [val_main_v41_apply, val_main_v40_apply, hrow, bn1_mean x0 x1 x2 x3 x4 x5 x6 x7 v hv e, hv]
  rfl

/-- The centred value x − mean once more, as the scaled numerator reads it. -/
theorem bn1_cen' (v : Fin 32768 → Fin 128 → EReal)
    (hv : ∀ n e, val_main_v35 (F := Ideal) x0 x1 x2 x3 x4 x5 x6 x7 (ix2 n e) = v n e) (n : Fin 32768) (e : Fin 128) :
    val_main_v48 (F := Ideal) x0 x1 x2 x3 x4 x5 x6 x7 (ix2 n e) = v n e - muR v e := by
  have hrow : idx_main_v47 (ix2 n e) = ix2 (0 : Fin 1) e :=
    funext fun a => Fin.ext (by match a with | ⟨0, _⟩ => rfl | ⟨1, _⟩ => rfl)
  rw [val_main_v48_apply, val_main_v47_apply, hrow, bn1_mean x0 x1 x2 x3 x4 x5 x6 x7 v hv e, hv]
  rfl

/-- The variance row: the column sum of the centred squares, started from 0, divided by 32768. -/
theorem bn1_var (v : Fin 32768 → Fin 128 → EReal)
    (hv : ∀ n e, val_main_v35 (F := Ideal) x0 x1 x2 x3 x4 x5 x6 x7 (ix2 n e) = v n e) (e : Fin 128) :
    val_main_v46 (F := Ideal) x0 x1 x2 x3 x4 x5 x6 x7 (ix2 (0 : Fin 1) e) = varR v e := by
  have hsum : ∀ k : Fin 32768, idx_main_v43 (idx_main_v44 (ix2 (0 : Fin 1) e)) k = ix2 k e := fun k =>
    funext fun a => Fin.ext (by match a with | ⟨0, _⟩ => rfl | ⟨1, _⟩ => rfl)
  rw [val_main_v46_apply, val_main_v44_apply, val_main_v43_apply, val_main_v45_apply, val_main_cst_6_apply,
    val_main_cst_5_apply]
  simp only [hsum, val_main_v42_apply, bn1_cen x0 x1 x2 x3 x4 x5 x6 x7 v hv, Ideal.hostDivf_def, Ideal.mulf_def,
    Ideal.ofBits_def, Ideal.ofBits_zero_f32, zero_add]
  rfl

/-- The first normalisation: from the pre-normalisation stage v to bnR v g1 bt1. -/
theorem ref_bn1 (v : Fin 32768 → Fin 128 → EReal)
    (hv : ∀ n e, val_main_v35 (F := Ideal) x0 x1 x2 x3 x4 x5 x6 x7 (ix2 n e) = v n e) (n : Fin 32768) (e : Fin 128) :
    val_main_v59 (F := Ideal) x0 x1 x2 x3 x4 x5 x6 x7 x8 x9 (ix2 n e)
      = bnR v (inOf x0 x1 x2 x3 x4 x5 x6 x7 x8 x9 x10 x11 x12 x13 x14 x15).g1 (inOf x0 x1 x2 x3 x4 x5 x6 x7 x8 x9 x10 x11 x12 x13 x14 x15).bt1 n e := by
  -- the scale and the shift are rows broadcast down the node axis; the square root's row likewise
  have hg : idx_main_v49 (idx_main_v50 (ix2 n e)) = ix1 e :=
    funext fun a => Fin.ext (by match a with | ⟨0, _⟩ => rfl)
  have hb : idx_main_v57 (idx_main_v58 (ix2 n e)) = ix1 e :=
    funext fun a => Fin.ext (by match a with | ⟨0, _⟩ => rfl)
  have hrow : idx_main_v55 (ix2 n e) = ix2 (0 : Fin 1) e :=
    funext fun a => Fin.ext (by match a with | ⟨0, _⟩ => rfl | ⟨1, _⟩ => rfl)
  rw [val_main_v59_apply, val_main_v56_apply, val_main_v51_apply, val_main_v50_apply, val_main_v49_apply, hg,
    bn1_cen' x0 x1 x2 x3 x4 x5 x6 x7 v hv n e, val_main_v55_apply, hrow, val_main_v54_apply, val_main_v53_apply,
    bn1_var x0 x1 x2 x3 x4 x5 x6 x7 v hv e, val_main_v52_apply, val_main_cst_7_apply, val_main_v58_apply,
    val_main_v57_apply, hb]
  rfl

/-! ## The feed-forward block -/

/-- The hidden activation of the feed-forward block: x · F1W plus the bias row, clipped at 0 from below. -/
theorem ffn_hid (x : Fin 32768 → Fin 128 → EReal)
    (hx : ∀ n e, val_main_v59 (F := Ideal) x0 x1 x2 x3 x4 x5 x6 x7 x8 x9 (ix2 n e) = x n e) (n : Fin 32768) (j : Fin 256) :
    val_main_v64 (F := Ideal) x0 x1 x2 x3 x4 x5 x6 x7 x8 x9 x10 x11 (ix2 n j)
      = max ((∑ d : Fin 128, x n d * x10 (ix2 d j)) + x11 (ix1 j)) 0 := by
  -- the contraction runs along the row of x and the column of F1W
  have el : ∀ k : Fin 128, lidx_main_v60 (ix2 n j) k = ix2 n k := fun k =>
    funext fun a => Fin.ext (by match a with | ⟨0, _⟩ => rfl | ⟨1, _⟩ => rfl)
  have er : ∀ k : Fin 128, ridx_main_v60 (ix2 n j) k = ix2 k j := fun k =>
    funext fun a => Fin.ext (by match a with | ⟨0, _⟩ => rfl | ⟨1, _⟩ => rfl)
  have e62 : idx_main_v61 (idx_main_v62 (ix2 n j)) = ix1 j :=
    funext fun a => Fin.ext (by match a with | ⟨0, _⟩ => rfl)
  rw [val_main_v64_apply, val_main_v63_apply, val_main_v60_apply, val_main_v62_apply, val_main_v61_apply, e62,
    val_main_call2_v0_apply, val_main_call2_cst_apply]
  simp only [el, er, hx, Ideal.addf_def, Ideal.maximumf_def, Ideal.ofBits_def, Ideal.ofBits_zero_f32]

/-- The feed-forward block with its residual: from the normalised stage x to ffn x. -/
theorem ref_ffn (x : Fin 32768 → Fin 128 → EReal)
    (hx : ∀ n e, val_main_v59 (F := Ideal) x0 x1 x2 x3 x4 x5 x6 x7 x8 x9 (ix2 n e) = x n e) (n : Fin 32768) (e : Fin 128) :
    val_main_v69 (F := Ideal) x0 x1 x2 x3 x4 x5 x6 x7 x8 x9 x10 x11 x12 x13 (ix2 n e) = ffn (inOf x0 x1 x2 x3 x4 x5 x6 x7 x8 x9 x10 x11 x12 x13 x14 x15) x n e := by
  -- the contraction runs along the row of the hidden activation and the column of F2W
  have el : ∀ k : Fin 256, lidx_main_v65 (ix2 n e) k = ix2 n k := fun k =>
    funext fun a => Fin.ext (by match a with | ⟨0, _⟩ => rfl | ⟨1, _⟩ => rfl)
  have er : ∀ k : Fin 256, ridx_main_v65 (ix2 n e) k = ix2 k e := fun k =>
    funext fun a => Fin.ext (by match a with | ⟨0, _⟩ => rfl | ⟨1, _⟩ => rfl)
  have e67 : idx_main_v66 (idx_main_v67 (ix2 n e)) = ix1 e :=
    funext fun a => Fin.ext (by match a with | ⟨0, _⟩ => rfl)
  rw [val_main_v69_apply, val_main_v68_apply, val_main_v65_apply, val_main_v67_apply, val_main_v66_apply, e67]
  simp only [el, er, hx, ffn_hid x0 x1 x2 x3 x4 x5 x6 x7 x8 x9 x10 x11 x hx, Ideal.addf_def]
  rfl

/-! ## The second normalisation -/

/-- The mean row of the second normalisation: the column sum over all 32768 rows, started from 0, divided by 32768. -/
theorem bn2_mean (z : Fin 32768 → Fin 128 → EReal)
    (hz : ∀ n e, val_main_v69 (F := Ideal) x0 x1 x2 x3 x4 x5 x6 x7 x8 x9 x10 x11 x12 x13 (ix2 n e) = z n e) (e : Fin 128) :
    val_main_v73 (F := Ideal) x0 x1 x2 x3 x4 x5 x6 x7 x8 x9 x10 x11 x12 x13 (ix2 (0 : Fin 1) e) = muR z e := by
  have hsum : ∀ k : Fin 32768, idx_main_v70 (idx_main_v71 (ix2 (0 : Fin 1) e)) k = ix2 k e := fun k =>
    funext fun a => Fin.ext (by match a with | ⟨0, _⟩ => rfl | ⟨1, _⟩ => rfl)
  rw [val_main_v73_apply, val_main_v71_apply, val_main_v70_apply, val_main_v72_apply, val_main_cst_9_apply,
    val_main_cst_8_apply]
  simp only [hsum, hz, Ideal.hostDivf_def, Ideal.ofBits_def, Ideal.ofBits_zero_f32, zero_add]
  rfl

/-- The centred value x − mean, as the variance's square reads it. -/
theorem bn2_cen (z : Fin 32768 → Fin 128 → EReal)
    (hz : ∀ n e, val_main_v69 (F := Ideal) x0 x1 x2 x3 x4 x5 x6 x7 x8 x9 x10 x11 x12 x13 (ix2 n e) = z n e) (n : Fin 32768) (e : Fin 128) :
    val_main_v75 (F := Ideal) x0 x1 x2 x3 x4 x5 x6 x7 x8 x9 x10 x11 x12 x13 (ix2 n e) = z n e - muR z e := by
  have hrow : idx_main_v74 (ix2 n e) = ix2 (0 : Fin 1) e :=
    funext fun a => Fin.ext (by match a with | ⟨0, _⟩ => rfl | ⟨1, _⟩ => rfl)
  rw [val_main_v75_apply, val_main_v74_apply, hrow,
    bn2_mean x0 x1 x2 x3 x4 x5 x6 x7 x8 x9 x10 x11 x12 x13 z hz e, hz]
  rfl

/-- The centred value x − mean once more, as the scaled numerator reads it. -/
theorem bn2_cen' (z : Fin 32768 → Fin 128 → EReal)
    (hz : ∀ n e, val_main_v69 (F := Ideal) x0 x1 x2 x3 x4 x5 x6 x7 x8 x9 x10 x11 x12 x13 (ix2 n e) = z n e) (n : Fin 32768) (e : Fin 128) :
    val_main_v82 (F := Ideal) x0 x1 x2 x3 x4 x5 x6 x7 x8 x9 x10 x11 x12 x13 (ix2 n e) = z n e - muR z e := by
  have hrow : idx_main_v81 (ix2 n e) = ix2 (0 : Fin 1) e :=
    funext fun a => Fin.ext (by match a with | ⟨0, _⟩ => rfl | ⟨1, _⟩ => rfl)
  rw [val_main_v82_apply, val_main_v81_apply, hrow,
    bn2_mean x0 x1 x2 x3 x4 x5 x6 x7 x8 x9 x10 x11 x12 x13 z hz e, hz]
  rfl

/-- The variance row: the column sum of the centred squares, started from 0, divided by 32768. -/
theorem bn2_var (z : Fin 32768 → Fin 128 → EReal)
    (hz : ∀ n e, val_main_v69 (F := Ideal) x0 x1 x2 x3 x4 x5 x6 x7 x8 x9 x10 x11 x12 x13 (ix2 n e) = z n e) (e : Fin 128) :
    val_main_v80 (F := Ideal) x0 x1 x2 x3 x4 x5 x6 x7 x8 x9 x10 x11 x12 x13 (ix2 (0 : Fin 1) e) = varR z e := by
  have hsum : ∀ k : Fin 32768, idx_main_v77 (idx_main_v78 (ix2 (0 : Fin 1) e)) k = ix2 k e := fun k =>
    funext fun a => Fin.ext (by match a with | ⟨0, _⟩ => rfl | ⟨1, _⟩ => rfl)
  rw [val_main_v80_apply, val_main_v78_apply, val_main_v77_apply, val_main_v79_apply, val_main_cst_11_apply,
    val_main_cst_10_apply]
  simp only [hsum, val_main_v76_apply, bn2_cen x0 x1 x2 x3 x4 x5 x6 x7 x8 x9 x10 x11 x12 x13 z hz, Ideal.hostDivf_def,
    Ideal.mulf_def, Ideal.ofBits_def, Ideal.ofBits_zero_f32, zero_add]
  rfl

/-- The second normalisation: from the stage z to bnR z g2 bt2, the result. -/
theorem ref_bn2 (z : Fin 32768 → Fin 128 → EReal)
    (hz : ∀ n e, val_main_v69 (F := Ideal) x0 x1 x2 x3 x4 x5 x6 x7 x8 x9 x10 x11 x12 x13 (ix2 n e) = z n e)
    (n : Fin 32768) (e : Fin 128) :
    val_main_v93 (F := Ideal) x0 x1 x2 x3 x4 x5 x6 x7 x8 x9 x10 x11 x12 x13 x14 x15 (ix2 n e) = bnR z (inOf x0 x1 x2 x3 x4 x5 x6 x7 x8 x9 x10 x11 x12 x13 x14 x15).g2 (inOf x0 x1 x2 x3 x4 x5 x6 x7 x8 x9 x10 x11 x12 x13 x14 x15).bt2 n e := by
  -- the scale and the shift are rows broadcast down the node axis; the square root's row likewise
  have hg : idx_main_v83 (idx_main_v84 (ix2 n e)) = ix1 e :=
    funext fun a => Fin.ext (by match a with | ⟨0, _⟩ => rfl)
  have hb : idx_main_v91 (idx_main_v92 (ix2 n e)) = ix1 e :=
    funext fun a => Fin.ext (by match a with | ⟨0, _⟩ => rfl)
  have hrow : idx_main_v89 (ix2 n e) = ix2 (0 : Fin 1) e :=
    funext fun a => Fin.ext (by match a with | ⟨0, _⟩ => rfl | ⟨1, _⟩ => rfl)
  rw [val_main_v93_apply, val_main_v90_apply, val_main_v85_apply, val_main_v84_apply, val_main_v83_apply, hg,
    bn2_cen' x0 x1 x2 x3 x4 x5 x6 x7 x8 x9 x10 x11 x12 x13 z hz n e, val_main_v89_apply, hrow, val_main_v88_apply,
    val_main_v87_apply, bn2_var x0 x1 x2 x3 x4 x5 x6 x7 x8 x9 x10 x11 x12 x13 z hz e, val_main_v86_apply,
    val_main_cst_12_apply, val_main_v92_apply, val_main_v91_apply, hb]
  rfl

end Cert.ReferenceIdeal.Val

end
-- ==== Proof.Ref.Value.lean ====
/-
  The reference's result as the specification's outR: the edge stage, the first normalisation, the feed-forward
  block and the second normalisation, each read from the stage before it.
-/
import proofs.«419117_j60533269069902_3_alg».proof.Proof.Ref.RefEdge
import proofs.«419117_j60533269069902_3_alg».proof.Proof.Ref.RefNorm
import proofs.«419117_j60533269069902_3_alg».proof.Proof.Math.Inputs
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Gen Cert.ReferenceIdeal.ReadP EdgeAttn
open Idealize.ShloMosaic Idealize.ShloMosaic.ValueIdx

variable (x0 : FVec Ideal S32768x128 .f32) (x1 : IVec S32768x16 32) (x2 : FVec Ideal S128x128 .f32)
  (x3 : FVec Ideal S128 .f32) (x4 : FVec Ideal S128x1 .f32) (x5 : FVec Ideal S1 .f32) (x6 : FVec Ideal S256x128 .f32)
  (x7 x8 x9 : FVec Ideal S128 .f32) (x10 : FVec Ideal S128x256 .f32) (x11 : FVec Ideal S256 .f32)
  (x12 : FVec Ideal S256x128 .f32) (x13 x14 x15 : FVec Ideal S128 .f32)

/-- With every neighbour word in range, the reference's result stage read at (n, e) is outR of the inputs read off
    the sixteen argument arrays. -/
theorem ref_value (hr : IdxInRange x1) (n : Fin 32768) (e : Fin 128) :
    val_main_v93 (F := Ideal) x0 x1 x2 x3 x4 x5 x6 x7 x8 x9 x10 x11 x12 x13 x14 x15 (ix2 n e) = outR (inOf x0 x1 x2 x3 x4 x5 x6 x7 x8 x9 x10 x11 x12 x13 x14 x15) n e := by
  have h1 := ref_pre1 x0 x1 x2 x3 x4 x5 x6 x7 x8 x9 x10 x11 x12 x13 x14 x15 hr
  have h2 := ref_bn1 x0 x1 x2 x3 x4 x5 x6 x7 x8 x9 x10 x11 x12 x13 x14 x15 (pre1R (inOf x0 x1 x2 x3 x4 x5 x6 x7 x8 x9 x10 x11 x12 x13 x14 x15)) h1
  have h3 := ref_ffn x0 x1 x2 x3 x4 x5 x6 x7 x8 x9 x10 x11 x12 x13 x14 x15 _ h2
  exact ref_bn2 x0 x1 x2 x3 x4 x5 x6 x7 x8 x9 x10 x11 x12 x13 x14 x15 _ h3 n e

end Cert.ReferenceIdeal.Val

end
-- ==== Proof.Pre.lean ====
/-
  What the precondition says: every float argument holds real numbers (|x| < +∞ in every entry), and every neighbour
  word lies in [−32768, 32768), the range in which indexing the node array's 32768 rows is in range.
-/
import proofs.«419117_j60533269069902_3_alg».proof.Pre_finite_inputs
import proofs.«419117_j60533269069902_3_alg».proof.Proof.Gen.Pre_finite_inputs
import proofs.«419117_j60533269069902_3_alg».proof.Proof.Math.Inputs
import Idealize.ShloMosaic.Lib.ReduceAll

noncomputable section

namespace Cert.PreRead

open Idealize.ShloMosaic Idealize.ShloMosaic.ValueIdx EdgeAttn Cert.Pre_finite_inputs

/-- The scalar shape has one index. -/
instance : Subsingleton S_.Idx := ⟨fun a b => funext fun d => d.elim0⟩

/-- On the extended reals, |x| = max x (−x) lying strictly below +∞ (the word 0x7F800000) says that x is a real
    number: at −∞ and at +∞ the maximum is +∞. -/
theorem isReal_of_abs_lt (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = (⊤ : EReal) := by simp [Ideal.ofBits, Ideal.ieee]
  induction x using EReal.rec with
  | bot =>
    exfalso; revert h
    show Ideal.cmp .olt (max (⊥ : EReal) (-⊥)) (Ideal.ofBits .f32 0x7F800000#32) = 1#1 → False
    rw [htop]; simp [Ideal.cmp]
  | coe r => exact ⟨r, rfl⟩
  | top =>
    exfalso; revert h
    show Ideal.cmp .olt (max (⊤ : EReal) (-⊤)) (Ideal.ofBits .f32 0x7F800000#32) = 1#1 → False
    rw [htop]; simp [Ideal.cmp]

/-- "Every entry has |x| < +∞", read back: if the and-reduction over all axes of the entrywise test "|x| < +∞" is one, every
    entry of x is a real number. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant S_ .f32 0x7F800000#32)))
      (constantI S_ 1 1#1) hr hu ix0 = 1#1) (i : s.Idx) : IsReal (x i) :=
  isReal_of_abs_lt (x i) (Host.reduce_andi_all _ _ hr hu ix0 h i)

/-- "Every word has −32768 ≤ w < 32768", read back: if the and-reduction over all axes of the entrywise signed test is
    one, every word read signed lies in [−32768, 32768). -/
theorem all_in_range {s : Shape} {axes : List (Fin s.rank)} (hb : S_.BroadcastsInDim s (![] : Fin 0 → Fin s.rank))
    (hr : s.ReducesTo axes S_) (hu : 0 < S_.numel) (x : IVec s 32)
    (h : Host.reduce IntOp.andi
      (andi (cmpi .sge x (broadcastInDim s ![] hb (constantI S_ 32 4294934528#32)))
        (cmpi .slt x (broadcastInDim s ![] hb (constantI S_ 32 32768#32))))
      (constantI S_ 1 1#1) hr hu ix0 = 1#1) (i : s.Idx) : -32768 ≤ (x i).toInt ∧ (x i).toInt < 32768 := by
  have e := Host.reduce_andi_all _ _ hr hu ix0 h i
  obtain ⟨e1, e2⟩ := IntOp.andi_eq_one.1 e
  have e1' := IntOp.cmpi_sge.1 e1
  have e2' := IntOp.cmpi_slt.1 e2
  have c1 : (4294934528#32 : BitVec 32).toInt = -32768 := by decide
  have c2 : (32768#32 : BitVec 32).toInt = 32768 := by decide
  exact ⟨c1 ▸ e1', c2 ▸ e2'⟩

/-- The printed precondition, all ones, gives finiteness of the fifteen float arguments and the index range. -/
theorem of_pre [Cert.Pre_finite_inputs.Facts]
    (x0 : FVec Ideal S32768x128 .f32) (x1 : IVec S32768x16 32) (x2 : FVec Ideal S128x128 .f32) (x3 : FVec Ideal S128 .f32)
    (x4 : FVec Ideal S128x1 .f32) (x5 : FVec Ideal S1 .f32) (x6 : FVec Ideal S256x128 .f32) (x7 : FVec Ideal S128 .f32)
    (x8 : FVec Ideal S128 .f32) (x9 : FVec Ideal S128 .f32) (x10 : FVec Ideal S128x256 .f32) (x11 : FVec Ideal S256 .f32)
    (x12 : FVec Ideal S256x128 .f32) (x13 : FVec Ideal S128 .f32) (x14 : FVec Ideal S128 .f32) (x15 : FVec Ideal S128 .f32)
    (h : Cert.Pre_finite_inputs.fn (F := Ideal) x0 x1 x2 x3 x4 x5 x6 x7 x8 x9 x10 x11 x12 x13 x14 x15 = fun _ => 1#1) :
    (inOf x0 x1 x2 x3 x4 x5 x6 x7 x8 x9 x10 x11 x12 x13 x14 x15).Finite ∧ IdxInRange x1 := by
  -- the printed function at the scalar shape's one index: a conjunction, by "and" on one-bit words, of sixteen
  -- and-reductions over all axes
  have h0 := congrFun h ix0
  dsimp only [fn, fn_part1, fn_part2, fn_part3, fn_part4] at h0
  obtain ⟨h0, hI⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  -- each reduction read at the coordinates the specification's record reads its array at
  refine ⟨⟨fun n d => all_real _ _ _ x0 h0 (ix2 n d), fun d e => all_real _ _ _ x2 h2 (ix2 d e),
    fun e => all_real _ _ _ x3 h3 (ix1 e), fun e => all_real _ _ _ x4 h4 (ix2 e 0), all_real _ _ _ x5 h5 (ix1 0),
    fun j e => all_real _ _ _ x6 h6 (ix2 j e), fun e => all_real _ _ _ x7 h7 (ix1 e),
    fun e => all_real _ _ _ x8 h8 (ix1 e), fun e => all_real _ _ _ x9 h9 (ix1 e),
    fun d j => all_real _ _ _ x10 h10 (ix2 d j), fun j => all_real _ _ _ x11 h11 (ix1 j),
    fun j e => all_real _ _ _ x12 h12 (ix2 j e), fun e => all_real _ _ _ x13 h13 (ix1 e),
    fun e => all_real _ _ _ x14 h14 (ix1 e), fun e => all_real _ _ _ x15 h15 (ix1 e)⟩,
    fun n k => all_in_range _ _ _ x1 hI (ix2 n k)⟩

end Cert.PreRead

end
-- ==== Proof.Math.Reals.lean ====
/-
  Real numbers inside the extended reals: the operations the programs use keep real arguments real, and the five
  literals are the real numbers their names say.
-/
import proofs.«419117_j60533269069902_3_alg».proof.Proof.Math.Spec

noncomputable section

namespace EdgeAttn

open Idealize.ShloMosaic

/-- A coerced real is real. -/
theorem IsReal.coe (r : ℝ) : IsReal (r : EReal) := ⟨r, rfl⟩
/-- Zero is real. -/
theorem IsReal.zero : IsReal (0 : EReal) := ⟨0, rfl⟩
/-- The sum of two reals is the real sum. -/
theorem IsReal.add {x y : EReal} (hx : IsReal x) (hy : IsReal y) : IsReal (x + y) := by
  obtain ⟨a, rfl⟩ := hx
  obtain ⟨b, rfl⟩ := hy
  exact ⟨a + b, (EReal.coe_add a b).symm⟩
/-- The difference of two reals is the real difference. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩
/-- The product of two reals is the real product. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩
/-- The opposite of a real is the real opposite. -/
theorem IsReal.neg {x : EReal} (hx : IsReal x) : IsReal (-x) := by
  obtain ⟨a, rfl⟩ := hx
  exact ⟨-a, (EReal.coe_neg a).symm⟩
/-- The larger of two reals is one of the two. -/
theorem IsReal.max {x y : EReal} (hx : IsReal x) (hy : IsReal y) : IsReal (max x y) := by
  rcases le_total x y with h | h
  · rw [max_eq_right h]; exact hy
  · rw [max_eq_left h]; exact hx
/-- The exponential of a real is the real exponential. -/
theorem IsReal.exp {x : EReal} (hx : IsReal x) : IsReal (Ideal.exp x) := by
  obtain ⟨a, rfl⟩ := hx
  exact ⟨Real.exp a, Ideal.exp_coe a⟩
/-- A finite sum of reals is real: zero is, and the sum of two reals is. -/
theorem IsReal.sum {ι : Type*} (s : Finset ι) (f : ι → EReal) (hf : ∀ i ∈ s, IsReal (f i)) : IsReal (∑ i ∈ s, f i) :=
  Finset.sum_induction f IsReal (fun _ _ ha hb => ha.add hb) IsReal.zero hf
/-- The supremum of a nonempty finite family of reals is one of them, so real (the empty supremum is −∞). -/
theorem IsReal.sup_univ_fin16 (f : Fin 16 → EReal) (hf : ∀ k, IsReal (f k)) : IsReal (Finset.univ.sup f) := by
  obtain ⟨k, _, hk⟩ := Finset.exists_mem_eq_sup Finset.univ Finset.univ_nonempty f
  rw [hk]
  exact hf k

/-- A sum of reals is the real sum. -/
theorem coe_sum {ι : Type*} (s : Finset ι) (f : ι → ℝ) : (∑ i ∈ s, ((f i : ℝ) : EReal)) = ((∑ i ∈ s, f i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

/-! ## The literals -/

/-- The word of sign 0, exponent 123 and significand 0 is 2²³ · 2⁻²⁷ = 1/16. -/
theorem w_inv16_eq : w_inv16 = ((1 / 16 : ℝ) : EReal) := by
  simp [w_inv16, Ideal.ofBits, Ideal.ieee, -EReal.coe_mul]; norm_num
/-- The word of sign 0, exponent 131 and significand 0 is 2²³ · 2⁻¹⁹ = 16. -/
theorem w_16_eq : w_16 = ((16 : ℝ) : EReal) := by
  simp [w_16, Ideal.ofBits, Ideal.ieee, -EReal.coe_mul]; norm_num
/-- The word of sign 0, exponent 112 and significand 0 is 2²³ · 2⁻³⁸ = 1/32768. -/
theorem w_inv32768_eq : w_inv32768 = ((1 / 32768 : ℝ) : EReal) := by
  simp [w_inv32768, Ideal.ofBits, Ideal.ieee, -EReal.coe_mul]; norm_num
/-- The word of sign 0, exponent 142 and significand 0 is 2²³ · 2⁻⁸ = 32768. -/
theorem w_32768_eq : w_32768 = ((32768 : ℝ) : EReal) := by
  simp [w_32768, Ideal.ofBits, Ideal.ieee, -EReal.coe_mul]; norm_num
/-- The variance offset is a positive real (its exact value is never used: both programs carry the same word). -/
theorem w_eps_pos : ∃ ε : ℝ, 0 < ε ∧ w_eps = (ε : EReal) := by
  simp [w_eps, Ideal.ofBits, Ideal.ieee, -EReal.coe_mul]

/-- A quotient by a nonzero real literal is the product with its reciprocal, on every extended real. -/
theorem div_16 (x : EReal) : Ideal.div x w_16 = x * w_inv16 := by
  rw [w_16_eq, w_inv16_eq]
  exact Ideal.div_coe (by norm_num) x
/-- The same for the batch size: a quotient by 32768 is the product with 1/32768. -/
theorem div_32768 (x : EReal) : Ideal.div x w_32768 = x * w_inv32768 := by
  rw [w_32768_eq, w_inv32768_eq]
  exact Ideal.div_coe (by norm_num) x

end EdgeAttn

end
-- ==== Proof.Math.Edge.lean ====
/-
  The edge stage in its two forms agrees on finite inputs: projecting the difference of two rows is the difference of
  their projections (a finite sum distributes over a difference of reals), and a quotient by 16 is the product with
  1/16. Everything the stage produces from real inputs is real.
-/
import proofs.«419117_j60533269069902_3_alg».proof.Proof.Math.Reals

noncomputable section

namespace EdgeAttn

open Idealize.ShloMosaic

/-- Over the reals a weighted sum of differences is the difference of the weighted sums:
    Σ (a − b) · w = Σ a · w − Σ b · w (sub_mul inside, the sum distributing over the difference outside). -/
theorem sum_sub_mul {ι : Type*} (s : Finset ι) (a b w : ι → EReal) (ha : ∀ d, IsReal (a d)) (hb : ∀ d, IsReal (b d))
    (hw : ∀ d, IsReal (w d)) :
    ∑ d ∈ s, (a d - b d) * w d = (∑ d ∈ s, a d * w d) - ∑ d ∈ s, b d * w d := by
  have ha' : ∀ d, ∃ r : ℝ, a d = (r : EReal) := ha
  have hb' : ∀ d, ∃ r : ℝ, b d = (r : EReal) := hb
  have hw' : ∀ d, ∃ r : ℝ, w d = (r : EReal) := hw
  choose a' ea using ha'
  choose b' eb using hb'
  choose w' ew using hw'
  obtain rfl : a = fun d => ((a' d : ℝ) : EReal) := funext ea
  obtain rfl : b = fun d => ((b' d : ℝ) : EReal) := funext eb
  obtain rfl : w = fun d => ((w' d : ℝ) : EReal) := funext ew
  simp only [← EReal.coe_sub, ← EReal.coe_mul, coe_sum]
  rw [← Finset.sum_sub_distrib]
  simp only [sub_mul]

/-- On finite inputs the two hidden activations are one function: the projected difference of two rows is the
    difference of their projections. -/
theorem hidK_eq_hidR (I : In) (hI : I.Finite) : hidK I = hidR I := by
  funext n k e
  show max (proj I (I.nb n k) e - proj I n e + I.b1 e) 0
    = max ((∑ d : Fin 128, (I.h (I.nb n k) d - I.h n d) * I.W1 d e) + I.b1 e) 0
  rw [sum_sub_mul Finset.univ (fun d => I.h (I.nb n k) d) (fun d => I.h n d) (fun d => I.W1 d e)
    (fun d => hI.h _ d) (fun d => hI.h n d) (fun d => hI.W1 d e)]
  rfl

/-- The two means are one function of the weights: a quotient by 16 is the product with 1/16. -/
theorem meanK_eq_meanR (I : In) (att : Fin 32768 → Fin 16 → EReal) : meanK I att = meanR I att := by
  funext n d
  show (∑ k : Fin 16, msgOf I att n k d) * w_inv16 = Ideal.div (∑ k : Fin 16, msgOf I att n k d) w_16
  rw [div_16]

/-- On finite inputs the kernel's and the reference's pre-normalisation arrays are one function. -/
theorem pre1K_eq_pre1R (I : In) (hI : I.Finite) : pre1K I = pre1R I := by
  unfold pre1K pre1R
  rw [hidK_eq_hidR I hI, meanK_eq_meanR]

/-- The reference's hidden activation of real inputs is real. -/
theorem isReal_hidR (I : In) (hI : I.Finite) (n : Fin 32768) (k : Fin 16) (e : Fin 128) : IsReal (hidR I n k e) :=
  IsReal.max
    (IsReal.add (IsReal.sum _ _ fun d _ => ((hI.h (I.nb n k) d).sub (hI.h n d)).mul (hI.W1 d e)) (hI.b1 e))
    IsReal.zero

/-- The attention weight of a real hidden activation is real. -/
theorem isReal_attOf (I : In) (hI : I.Finite) (hid : Fin 32768 → Fin 16 → Fin 128 → EReal)
    (hh : ∀ n k e, IsReal (hid n k e)) (n : Fin 32768) (k : Fin 16) : IsReal (attOf I hid n k) :=
  IsReal.exp (IsReal.neg (IsReal.max
    (IsReal.add (IsReal.sum _ _ fun e _ => (hh n k e).mul (hI.W2 e)) hI.b2) IsReal.zero))

/-- A real weight times a real feature is real. -/
theorem isReal_msgOf (I : In) (hI : I.Finite) (att : Fin 32768 → Fin 16 → EReal) (ha : ∀ n k, IsReal (att n k))
    (n : Fin 32768) (k : Fin 16) (d : Fin 128) : IsReal (msgOf I att n k d) :=
  (ha n k).mul (hI.h n d)

/-- The mean of real messages is real: the quotient by 16 is the product with the real 1/16. -/
theorem isReal_meanR (I : In) (hI : I.Finite) (att : Fin 32768 → Fin 16 → EReal) (ha : ∀ n k, IsReal (att n k))
    (n : Fin 32768) (d : Fin 128) : IsReal (meanR I att n d) := by
  show IsReal (Ideal.div (∑ k : Fin 16, msgOf I att n k d) w_16)
  rw [div_16]
  exact (IsReal.sum _ _ fun k _ => isReal_msgOf I hI att ha n k d).mul ⟨_, w_inv16_eq⟩

/-- The maximum of sixteen real messages is real. -/
theorem isReal_maxOf (I : In) (hI : I.Finite) (att : Fin 32768 → Fin 16 → EReal) (ha : ∀ n k, IsReal (att n k))
    (n : Fin 32768) (d : Fin 128) : IsReal (maxOf I att n d) :=
  IsReal.sup_univ_fin16 _ fun k => isReal_msgOf I hI att ha n k d

/-- Two real arrays side by side are a real array. -/
theorem isReal_catOf (mean mx : Fin 32768 → Fin 128 → EReal) (hm : ∀ n d, IsReal (mean n d))
    (hx : ∀ n d, IsReal (mx n d)) (n : Fin 32768) (j : Fin 256) : IsReal (catOf mean mx n j) := by
  unfold catOf
  split
  · exact hm _ _
  · exact hx _ _

/-- The projected aggregate of a real array, plus bias and residual, is real. -/
theorem isReal_pre1Of (I : In) (hI : I.Finite) (cat : Fin 32768 → Fin 256 → EReal) (hc : ∀ n j, IsReal (cat n j))
    (n : Fin 32768) (e : Fin 128) : IsReal (pre1Of I cat n e) :=
  (hI.h n e).add ((IsReal.sum _ _ fun j _ => (hc n j).mul (hI.OW j e)).add (hI.Ob e))

/-- On finite inputs the pre-normalisation array holds real numbers. -/
theorem isReal_pre1R (I : In) (hI : I.Finite) (n : Fin 32768) (e : Fin 128) : IsReal (pre1R I n e) := by
  have hatt : ∀ n k, IsReal (attOf I (hidR I) n k) := isReal_attOf I hI _ (isReal_hidR I hI)
  exact isReal_pre1Of I hI _
    (isReal_catOf _ _ (isReal_meanR I hI _ hatt) (isReal_maxOf I hI _ hatt)) n e

/-- The feed-forward block keeps a real array real. -/
theorem isReal_ffn (I : In) (hI : I.Finite) (x : Fin 32768 → Fin 128 → EReal) (hx : ∀ n e, IsReal (x n e))
    (n : Fin 32768) (e : Fin 128) : IsReal (ffn I x n e) :=
  (hx n e).add ((IsReal.sum _ _ fun j _ =>
    (IsReal.max ((IsReal.sum _ _ fun d _ => (hx n d).mul (hI.F1W d j)).add (hI.F1b j)) IsReal.zero).mul
      (hI.F2W j e)).add (hI.F2b e))

end EdgeAttn

end
-- ==== Proof.Math.Norm.lean ====
/-
  The two forms of batch normalisation agree on a real array with real scale and shift. The column sum over all rows
  is the sum of the two cores' sums; a quotient by 32768 is a product with 2⁻¹⁵; the mean of the centred squares is
  E[x²] − E[x]², which is never negative, so clipping it at 0 changes nothing; and for a positive real s, dividing by
  √s is multiplying by its reciprocal.
-/
import proofs.«419117_j60533269069902_3_alg».proof.Proof.Math.Reals

noncomputable section

namespace EdgeAttn

open Idealize.ShloMosaic

/-! ## The real-number identity behind the two variances -/

/-- Over a finite index of N elements, with μ the mean (Σ r) / N: the mean of the squares minus μ² is the mean of
    the centred squares. Expand (r i − μ)² = r i² − 2 μ r i + μ² and sum: the middle term gives −2 μ · N μ and the
    last N μ². -/
theorem meanSq_sub_sqMean {ι : Type*} [Fintype ι] (r : ι → ℝ) (N : ℝ) (hN : (Fintype.card ι : ℝ) = N)
    (hN0 : N ≠ 0) :
    (∑ i, r i * r i) * (1 / N) - ((∑ i, r i) * (1 / N)) * ((∑ i, r i) * (1 / N))
      = (∑ i, (r i - (∑ j, r j) * (1 / N)) * (r i - (∑ j, r j) * (1 / N))) * (1 / N) := by
  set S : ℝ := ∑ i, r i with hS
  set μ : ℝ := S * (1 / N) with hμ
  have hexp : ∀ i, (r i - μ) * (r i - μ) = r i * r i - 2 * μ * r i + μ * μ := fun i => by ring
  have hsum : (∑ i, (r i - μ) * (r i - μ)) = (∑ i, r i * r i) - 2 * μ * S + N * (μ * μ) := by
    simp only [hexp, Finset.sum_add_distrib, Finset.sum_sub_distrib, ← Finset.mul_sum, Finset.sum_const,
      Finset.card_univ, nsmul_eq_mul, hN, ← hS]
    ring
  rw [hsum, hμ]
  field_simp
  ring

/-- The mean of the centred squares is not negative: a sum of squares times a positive factor. -/
theorem centredMean_nonneg {ι : Type*} [Fintype ι] (r : ι → ℝ) (μ N : ℝ) (hN0 : 0 < N) :
    0 ≤ (∑ i, (r i - μ) * (r i - μ)) * (1 / N) :=
  mul_nonneg (Finset.sum_nonneg fun i _ => mul_self_nonneg _) (by positivity)

/-! ## The sums over the rows -/

/-- Every row belongs to exactly one of the two cores (n / 16384 is 0 or 1), so the two cores' column sums add up
    to the column sum over all rows. -/
theorem sum_coreSum (v : Fin 32768 → Fin 128 → EReal) (e : Fin 128) :
    (∑ c : Fin 2, coreSum v c e) = ∑ n : Fin 32768, v n e := by
  have h := Finset.sum_fiberwise (Finset.univ : Finset (Fin 32768))
    (fun n : Fin 32768 => (⟨n.val / 16384, by omega⟩ : Fin 2)) (fun n => v n e)
  rw [← h]
  refine Finset.sum_congr rfl fun c _ => ?_
  unfold coreSum
  refine Finset.sum_congr ?_ fun _ _ => rfl
  ext n
  simp only [Finset.mem_filter, Finset.mem_univ, true_and, Fin.ext_iff]

/-- The kernel's batch mean is the reference's: the cores' sums make the full sum, and the quotient by 32768 is the
    product with 2⁻¹⁵. -/
theorem muK_eq_muR (v : Fin 32768 → Fin 128 → EReal) (e : Fin 128) : muK v e = muR v e := by
  unfold muK muR
  rw [sum_coreSum, div_32768]

/-! ## The statistics of a real array, as real numbers -/

section Real
variable (r : Fin 32768 → Fin 128 → ℝ)

/-- The real batch mean of column e. -/
def muReal (e : Fin 128) : ℝ := (∑ n, r n e) * (1 / 32768)

/-- The real batch variance of column e: the mean of the centred squares. -/
def varReal (e : Fin 128) : ℝ := (∑ n, (r n e - muReal r e) * (r n e - muReal r e)) * (1 / 32768)

theorem varReal_nonneg (e : Fin 128) : 0 ≤ varReal r e :=
  centredMean_nonneg (fun n => r n e) (muReal r e) 32768 (by norm_num)

/-- The reference's mean of a real array is the real mean. -/
theorem muR_coe (e : Fin 128) : muR (fun n e => ((r n e : ℝ) : EReal)) e = ((muReal r e : ℝ) : EReal) := by
  show Ideal.div (∑ n : Fin 32768, ((r n e : ℝ) : EReal)) w_32768 = _
  rw [div_32768, w_inv32768_eq, coe_sum, ← EReal.coe_mul]
  rfl

/-- The reference's variance of a real array is the real variance. -/
theorem varR_coe (e : Fin 128) : varR (fun n e => ((r n e : ℝ) : EReal)) e = ((varReal r e : ℝ) : EReal) := by
  unfold varR
  rw [muR_coe]
  show Ideal.div (∑ n : Fin 32768, (((r n e : ℝ) : EReal) - ((muReal r e : ℝ) : EReal))
      * (((r n e : ℝ) : EReal) - ((muReal r e : ℝ) : EReal))) w_32768 = _
  simp only [← EReal.coe_sub, ← EReal.coe_mul]
  rw [div_32768, w_inv32768_eq, coe_sum, ← EReal.coe_mul]
  rfl

/-- The kernel's variance of a real array is the real variance too: E[x²] − E[x]² is the mean of the centred
    squares, which is not negative, so the clip at 0 returns it unchanged. -/
theorem varK_coe (e : Fin 128) : varK (fun n e => ((r n e : ℝ) : EReal)) e = ((varReal r e : ℝ) : EReal) := by
  unfold varK
  rw [muK_eq_muR, muR_coe, sum_coreSum]
  show max ((∑ n : Fin 32768, ((r n e : ℝ) : EReal) * ((r n e : ℝ) : EReal)) * w_inv32768
      - ((muReal r e : ℝ) : EReal) * ((muReal r e : ℝ) : EReal)) 0 = _
  simp only [← EReal.coe_mul]
  rw [w_inv32768_eq, coe_sum, ← EReal.coe_mul, ← EReal.coe_sub]
  have hid : (∑ n, r n e * r n e) * (1 / 32768) - muReal r e * muReal r e = varReal r e :=
    meanSq_sub_sqMean (fun n => r n e) 32768 (by simp) (by norm_num)
  rw [hid]
  exact max_eq_left (EReal.coe_nonneg.2 (varReal_nonneg r e))

end Real

/-! ## Reciprocal square root against division by the square root -/

/-- For a positive real s, the product with the reciprocal square root of s is the quotient by its square root, on
    every extended real: both are the product with the real (√s)⁻¹. -/
theorem mul_rsqrt_eq_div_sqrt (x : EReal) {s : ℝ} (hs : 0 < s) :
    x * Ideal.rsqrt (s : EReal) = Ideal.div x (Ideal.sqrt (s : EReal)) := by
  rw [Ideal.rsqrt_coe, if_neg (not_lt.2 hs.le), if_neg hs.ne', Ideal.sqrt_coe, if_neg (not_lt.2 hs.le),
    Ideal.div_coe (Real.sqrt_ne_zero'.2 hs), one_div]

/-! ## The two normalisations -/

/-- On a real array, with real scale and shift, the kernel's normalisation is the reference's. -/
theorem bnK_eq_bnR (v : Fin 32768 → Fin 128 → EReal) (g b : Fin 128 → EReal)
    (hv : ∀ n e, IsReal (v n e)) (hg : ∀ e, IsReal (g e)) (hb : ∀ e, IsReal (b e)) : bnK v g b = bnR v g b := by
  choose r hr using hv
  obtain rfl : v = fun n e => ((r n e : ℝ) : EReal) := funext fun n => funext fun e => hr n e
  obtain ⟨ε, hε, hw⟩ := w_eps_pos
  funext n e
  unfold bnK bnR
  rw [muK_eq_muR, varK_coe, varR_coe, hw, ← EReal.coe_add]
  rw [mul_rsqrt_eq_div_sqrt _ (add_pos_of_nonneg_of_pos (varReal_nonneg r e) hε)]

/-- The normalisation of a real array, with real scale and shift, is real. -/
theorem isReal_bnR (v : Fin 32768 → Fin 128 → EReal) (g b : Fin 128 → EReal)
    (hv : ∀ n e, IsReal (v n e)) (hg : ∀ e, IsReal (g e)) (hb : ∀ e, IsReal (b e))
    (n : Fin 32768) (e : Fin 128) : IsReal (bnR v g b n e) := by
  choose r hr using hv
  obtain rfl : v = fun n e => ((r n e : ℝ) : EReal) := funext fun n => funext fun e => hr n e
  obtain ⟨ε, hε, hw⟩ := w_eps_pos
  have hs : 0 < varReal r e + ε := add_pos_of_nonneg_of_pos (varReal_nonneg r e) hε
  unfold bnR
  rw [muR_coe, varR_coe, hw, ← EReal.coe_add, Ideal.sqrt_coe, if_neg (not_lt.2 hs.le),
    Ideal.div_coe (Real.sqrt_ne_zero'.2 hs)]
  exact ((hg e).mul ((IsReal.coe _).sub (IsReal.coe _))).mul (IsReal.coe _) |>.add (hb e)

end EdgeAttn

end
-- ==== Proof.Math.Algebra.lean ====
/-
  On finite inputs the kernel's result is the reference's: the edge stage agrees, so the first normalisation is
  applied to one real array, on which its two forms agree; the feed-forward block is the same function on both
  sides and keeps the array real; the second normalisation agrees for the same reason as the first.
-/
import proofs.«419117_j60533269069902_3_alg».proof.Proof.Math.Edge
import proofs.«419117_j60533269069902_3_alg».proof.Proof.Math.Norm

noncomputable section

namespace EdgeAttn

theorem outK_eq_outR (I : In) (hI : I.Finite) : outK I = outR I := by
  unfold outK outR
  rw [pre1K_eq_pre1R I hI]
  have h1 : ∀ n e, IsReal (pre1R I n e) := fun n e => isReal_pre1R I hI n e
  rw [bnK_eq_bnR (pre1R I) I.g1 I.bt1 h1 hI.g1 hI.bt1]
  have h2 : ∀ n e, IsReal (bnR (pre1R I) I.g1 I.bt1 n e) := fun n e => isReal_bnR _ _ _ h1 hI.g1 hI.bt1 n e
  have h3 : ∀ n e, IsReal (ffn I (bnR (pre1R I) I.g1 I.bt1) n e) := fun n e => isReal_ffn I hI _ h2 n e
  rw [bnK_eq_bnR _ I.g2 I.bt2 h3 hI.g2 hI.bt2]

end EdgeAttn

end
-- ==== Proof.lean ====
/-
  The certificate's five claims.

  The kernel is a graph message-passing layer on 32768 nodes with 16 in-neighbours each: an edge perceptron on the
  difference of neighbour and node features gives an attention weight per edge, the weighted node features are
  aggregated over the neighbours by mean and by maximum, projected and added back, and the result goes through a batch
  normalisation, a feed-forward block with a residual, and a second batch normalisation. It computes this in four
  launches (project every node once through W1; the edge stage per tile with per-core column sums; normalise and
  feed forward per tile with per-core column sums; normalise) with a row gather and the batch statistics between them.

  Frames: the two kernel programs' are the generated whole-program frame certificates; the reference's is its run
  with the result dropped. The idealization rewrote nothing, so there is nothing to preserve. For the equivalence the
  idealized kernel's run ends with its result buffer at the last boundary's contents, which the value chain
  identifies with the specification's kernel-side function outK of the inputs; the reference's run ends at its
  composed term, which the read-at-an-index chain identifies with the reference-side function outR; and on finite
  inputs with every neighbour index in [−32768, 32768) — what the precondition says — the two functions agree:
  projecting a difference of rows is the difference of their projections, a quotient by 16 or by 32768 is a product
  with the reciprocal, E[x²] − E[x]² is the mean of the centred squares and is never negative, and dividing by a
  positive square root is multiplying by its reciprocal.
-/
import proofs.«419117_j60533269069902_3_alg».proof.Defs
import proofs.«419117_j60533269069902_3_alg».proof.Proof.Gen.Kernel
import proofs.«419117_j60533269069902_3_alg».proof.Proof.Gen.Kernel.Frame
import proofs.«419117_j60533269069902_3_alg».proof.Proof.Gen.KernelIdeal
import proofs.«419117_j60533269069902_3_alg».proof.Proof.Gen.KernelIdeal.Frame
import proofs.«419117_j60533269069902_3_alg».proof.Proof.Gen.ReferenceIdeal
import proofs.«419117_j60533269069902_3_alg».proof.Proof.Gen.Pre_finite_inputs
import proofs.«419117_j60533269069902_3_alg».proof.Proof.KI.RunNamed
import proofs.«419117_j60533269069902_3_alg».proof.Proof.KI.Value
import proofs.«419117_j60533269069902_3_alg».proof.Proof.Ref.RunH
import proofs.«419117_j60533269069902_3_alg».proof.Proof.Ref.ReadEq
import proofs.«419117_j60533269069902_3_alg».proof.Proof.Ref.Value
import proofs.«419117_j60533269069902_3_alg».proof.Proof.Pre
import proofs.«419117_j60533269069902_3_alg».proof.Proof.Math.Algebra
import Idealize.ShloMosaic.Adequacy
import Idealize.ShloMosaic.Init

noncomputable section

namespace Cert.Proof

open Idealize.ShloMosaic Idealize.ShloMosaic.TcCoe Idealize.ShloMosaic.ValueIdx Idealize.SL.Sem EdgeAttn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Under the precondition the reference's result stage of the kernel's own arguments is, entry by entry, what the
    kernel's run leaves in its result buffer: outR of the inputs on one side, outK on the other, equal on finite
    inputs with the neighbour words in range. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hpre : Cert.Pre_KernelIdeal m) :
    Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      = Cert.KernelIdeal.Gen.W8 m ρ c (Proc.devRef .tc Cert.KernelIdeal.main_v34) := by
  obtain ⟨hfin, hrng⟩ := Cert.PreRead.of_pre _ _ _ _ _ _ _ _ _ _ _ _ _ _ _ _ (hpre c)
  funext i
  obtain ⟨n, e, rfl⟩ : ∃ (n : Fin 32768) (e : Fin 128), i = ix2 n e := ⟨i 0, i 1, eq_ix2 i⟩
  refine (Cert.ReferenceIdeal.Val.ref_value _ _ _ _ _ _ _ _ _ _ _ _ _ _ _ _ hrng n e).trans ?_
  refine Eq.trans ?_ (Cert.KernelIdeal.Val.kernel_value m ρ c hrng n e).symm
  exact (congrFun (congrFun (outK_eq_outR _ hfin) n) e).symm

/-- From memories agreeing on the arguments both idealized programs run, and end with equal results. -/
theorem algebraic : Cert.algebraic_KernelIdeal_ReferenceIdeal := by
  intro m ρ m' ρ' hpre hagree
  refine ⟨fun c => Cert.KernelIdeal.Gen.W8 m ρ c (Proc.devRef .tc Cert.KernelIdeal.main_v34),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15⟩ := hagree c
  rw [Cert.ReferenceIdeal.ReadP.val_main_v93_eq, a0, a1, a2, a3, a4, a5, a6, a7, a8, a9, a10, a11, a12, a13, a14, a15]
  exact results_eq m ρ c hpre

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
